-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S262144 : Shape := ⟨1, ![262144]⟩
abbrev S8192x64 : Shape := ⟨2, ![8192, 64]⟩
abbrev S64 : Shape := ⟨1, ![64]⟩
abbrev S64x64 : Shape := ⟨2, ![64, 64]⟩
abbrev S64x8 : Shape := ⟨2, ![64, 8]⟩
abbrev S8 : Shape := ⟨1, ![8]⟩
abbrev S1x8192 : Shape := ⟨2, ![1, 8192]⟩
abbrev S1 : Shape := ⟨1, ![1]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel
  bcast_S_S262144 : S_.BroadcastsInDim S262144 (![] : Fin 0 → Fin S262144.rank)
  reducesTo_S262144_S_d0 : S262144.ReducesTo [0] S_
  bcast_S_S8192x64 : S_.BroadcastsInDim S8192x64 (![] : Fin 0 → Fin S8192x64.rank)
  reducesTo_S8192x64_S_d0_1 : S8192x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x8 : S_.BroadcastsInDim S64x8 (![] : Fin 0 → Fin S64x8.rank)
  reducesTo_S64x8_S_d0_1 : S64x8.ReducesTo [0, 1] S_
  bcast_S_S8 : S_.BroadcastsInDim S8 (![] : Fin 0 → Fin S8.rank)
  reducesTo_S8_S_d0 : S8.ReducesTo [0] S_
  bcast_S_S1x8192 : S_.BroadcastsInDim S1x8192 (![] : Fin 0 → Fin S1x8192.rank)
  reducesTo_S1x8192_S_d0_1 : S1x8192.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg2 : IVec S262144 32) (main_v48 : IVec S_ 1) (main_v50 : IVec S262144 1) : IVec S_ 1 :=
  let main_c_19 : IVec S_ 1 := constantI S_ 1 1#1
  let main_v51 : IVec S_ 1 := (fun x v => Host.reduce IntOp.andi x v reducesTo_S262144_S_d0 h_S_) main_v50 main_c_19
  let main_v52 : IVec S_ 1 := andi main_v48 main_v51
  let main_c_20 : IVec S_ 32 := constantI S_ 32 0#32
  let main_v53 : IVec S262144 32 := broadcastInDim S262144 ![] bcast_S_S262144 main_c_20
  let main_v54 : IVec S262144 1 := cmpi .sge main_arg2 main_v53
  let main_c_21 : IVec S_ 32 := constantI S_ 32 8192#32
  let main_v55 : IVec S262144 32 := broadcastInDim S262144 ![] bcast_S_S262144 main_c_21
  let main_v56 : IVec S262144 1 := cmpi .slt main_arg2 main_v55
  let main_v57 : IVec S262144 1 := andi main_v54 main_v56
  let main_c_22 : IVec S_ 1 := constantI S_ 1 1#1
  let main_v58 : IVec S_ 1 := (fun x v => Host.reduce IntOp.andi x v reducesTo_S262144_S_d0 h_S_) main_v57 main_c_22
  let main_v59 : IVec S_ 1 := andi main_v52 main_v58
  main_v59

def fn_part2 {F : FTy → Type} [FloatOps F] (main_arg1 : IVec S262144 32) (main_arg2 : IVec S262144 32) (main_arg9 : FVec F S8 .f32) (main_arg10 : FVec F S1x8192 .f32) (main_arg11 : FVec F S1 .f32) (main_v33 : IVec S_ 1) : IVec S_ 1 :=
  let main_v34 : FVec F S8 .f32 := Host.absf main_arg9
  let main_cst_12 : FVec F S_ .f32 := constant S_ .f32 0x7F800000#32
  let main_v35 : FVec F S8 .f32 := broadcastInDim S8 ![] bcast_S_S8 main_cst_12
  let main_v36 : IVec S8 1 := cmpf .olt main_v34 main_v35
  let main_c_13 : IVec S_ 1 := constantI S_ 1 1#1
  let main_v37 : IVec S_ 1 := (fun x v => Host.reduce IntOp.andi x v reducesTo_S8_S_d0 h_S_) main_v36 main_c_13
  let main_v38 : IVec S_ 1 := andi main_v33 main_v37
  let main_v39 : FVec F S1x8192 .f32 := Host.absf main_arg10
  let main_cst_14 : FVec F S_ .f32 := constant S_ .f32 0x7F800000#32
  let main_v40 : FVec F S1x8192 .f32 := broadcastInDim S1x8192 ![] bcast_S_S1x8192 main_cst_14
  let main_v41 : IVec S1x8192 1 := cmpf .olt main_v39 main_v40
  let main_c_15 : IVec S_ 1 := constantI S_ 1 1#1
  let main_v42 : IVec S_ 1 := (fun x v => Host.reduce IntOp.andi x v reducesTo_S1x8192_S_d0_1 h_S_) main_v41 main_c_15
  let main_v43 : IVec S_ 1 := andi main_v38 main_v42
  let main_v44 : FVec F S1 .f32 := Host.absf main_arg11
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_c_18 : IVec S_ 32 := constantI S_ 32 0#32
  let main_v49 : IVec S262144 32 := broadcastInDim S262144 ![] bcast_S_S262144 main_c_18
  let main_v50 : IVec S262144 1 := cmpi .sge main_arg1 main_v49
  fn_part3 (F := F) main_arg2 main_v48 main_v50

def fn_part1 {F : FTy → Type} [FloatOps F] (main_arg1 : IVec S262144 32) (main_arg2 : IVec S262144 32) (main_arg6 : FVec F S64x64 .f32) (main_arg7 : FVec F S64 .f32) (main_arg8 : FVec F S64x8 .f32) (main_arg9 : FVec F S8 .f32) (main_arg10 : FVec F S1x8192 .f32) (main_arg11 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x8 .f32 := Host.absf main_arg8
  let main_cst_10 : FVec F S_ .f32 := constant S_ .f32 0x7F800000#32
  let main_v30 : FVec F S64x8 .f32 := broadcastInDim S64x8 ![] bcast_S_S64x8 main_cst_10
  let main_v31 : IVec S64x8 1 := cmpf .olt main_v29 main_v30
  let main_c_11 : IVec S_ 1 := constantI S_ 1 1#1
  let main_v32 : IVec S_ 1 := (fun x v => Host.reduce IntOp.andi x v reducesTo_S64x8_S_d0_1 h_S_) main_v31 main_c_11
  let main_v33 : IVec S_ 1 := andi main_v28 main_v32
  fn_part2 (F := F) main_arg1 main_arg2 main_arg9 main_arg10 main_arg11 main_v33

def fn {F : FTy → Type} [FloatOps F] (main_arg0 : FVec F S8192x8192 .f32) (main_arg1 : IVec S262144 32) (main_arg2 : IVec S262144 32) (main_arg3 : FVec F S262144 .f32) (main_arg4 : FVec F S8192x64 .f32) (main_arg5 : FVec F S64 .f32) (main_arg6 : FVec F S64x64 .f32) (main_arg7 : FVec F S64 .f32) (main_arg8 : FVec F S64x8 .f32) (main_arg9 : FVec F S8 .f32) (main_arg10 : FVec F S1x8192 .f32) (main_arg11 : FVec F S1 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_v4 : FVec F S262144 .f32 := Host.absf main_arg3
  let main_cst_0 : FVec F S_ .f32 := constant S_ .f32 0x7F800000#32
  let main_v5 : FVec F S262144 .f32 := broadcastInDim S262144 ![] bcast_S_S262144 main_cst_0
  let main_v6 : IVec S262144 1 := cmpf .olt main_v4 main_v5
  let main_c_1 : IVec S_ 1 := constantI S_ 1 1#1
  let main_v7 : IVec S_ 1 := (fun x v => Host.reduce IntOp.andi x v reducesTo_S262144_S_d0 h_S_) main_v6 main_c_1
  let main_v8 : IVec S_ 1 := andi main_v3 main_v7
  let main_v9 : FVec F S8192x64 .f32 := Host.absf main_arg4
  let main_cst_2 : FVec F S_ .f32 := constant S_ .f32 0x7F800000#32
  let main_v10 : FVec F S8192x64 .f32 := broadcastInDim S8192x64 ![] bcast_S_S8192x64 main_cst_2
  let main_v11 : IVec S8192x64 1 := cmpf .olt main_v9 main_v10
  let main_c_3 : IVec S_ 1 := constantI S_ 1 1#1
  let main_v12 : IVec S_ 1 := (fun x v => Host.reduce IntOp.andi x v reducesTo_S8192x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg1 main_arg2 main_arg6 main_arg7 main_arg8 main_arg9 main_arg10 main_arg11 main_v13 main_v16
-- ==== Kernel.lean ====
abbrev S8192x8192 : Shape := ⟨2, ![8192, 8192]⟩
abbrev S262144 : Shape := ⟨1, ![262144]⟩
abbrev S8192x64 : Shape := ⟨2, ![8192, 64]⟩
abbrev S64 : Shape := ⟨1, ![64]⟩
abbrev S64x64 : Shape := ⟨2, ![64, 64]⟩
abbrev S64x8 : Shape := ⟨2, ![64, 8]⟩
abbrev S8 : Shape := ⟨1, ![8]⟩
abbrev S1x8192 : Shape := ⟨2, ![1, 8192]⟩
abbrev S1 : Shape := ⟨1, ![1]⟩
abbrev S_ : Shape := ⟨0, ![]⟩
abbrev S262144x1 : Shape := ⟨2, ![262144, 1]⟩
abbrev S262144x2 : Shape := ⟨2, ![262144, 2]⟩
abbrev S1x64 : Shape := ⟨2, ![1, 64]⟩
abbrev S1x8 : Shape := ⟨2, ![1, 8]⟩
abbrev S256x8192 : Shape := ⟨2, ![256, 8192]⟩
abbrev S256x64 : Shape := ⟨2, ![256, 64]⟩
abbrev S8192x8 : Shape := ⟨2, ![8192, 8]⟩
abbrev S512x8192 : Shape := ⟨2, ![512, 8192]⟩
abbrev S512x8 : Shape := ⟨2, ![512, 8]⟩
abbrev S512x64 : Shape := ⟨2, ![512, 64]⟩
abbrev S128x8 : Shape := ⟨2, ![128, 8]⟩
abbrev S1x512 : Shape := ⟨2, ![1, 512]⟩
abbrev S8x8 : Shape := ⟨2, ![8, 8]⟩
abbrev S512 : Shape := ⟨1, ![512]⟩
abbrev S512x1 : Shape := ⟨2, ![512, 1]⟩
abbrev S1x1 : Shape := ⟨2, ![1, 1]⟩

abbrev nBuf : Space → Nat
  | .hbm => 46
  | .vmem => 29
  | .smem => 0
  | _ => 0

abbrev bufTy : (tb : Table) → Fin (tcTables nBuf tb) → BufTy
  | .hbm, ⟨0, _⟩ => ⟨S8192x8192, .f32⟩
  | .hbm, ⟨1, _⟩ => ⟨S262144, .i32⟩
  | .hbm, ⟨2, _⟩ => ⟨S262144, .i32⟩
  | .hbm, ⟨3, _⟩ => ⟨S262144, .f32⟩
  | .hbm, ⟨4, _⟩ => ⟨S8192x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x8, .f32⟩
  | .hbm, ⟨9, _⟩ => ⟨S8, .f32⟩
  | .hbm, ⟨10, _⟩ => ⟨S1x8192, .f32⟩
  | .hbm, ⟨11, _⟩ => ⟨S1, .f32⟩
  | .hbm, ⟨12, _⟩ => ⟨S_, .f32⟩
  | .hbm, ⟨13, _⟩ => ⟨S8192x8192, .f32⟩
  | .hbm, ⟨14, _⟩ => ⟨S_, .i32⟩
  | .hbm, ⟨15, _⟩ => ⟨S262144, .i32⟩
  | .hbm, ⟨16, _⟩ => ⟨S262144, .i1⟩
  | .hbm, ⟨17, _⟩ => ⟨S_, .i32⟩
  | .hbm, ⟨18, _⟩ => ⟨S262144, .i32⟩
  | .hbm, ⟨19, _⟩ => ⟨S262144, .i32⟩
  | .hbm, ⟨20, _⟩ => ⟨S262144, .i32⟩
  | .hbm, ⟨21, _⟩ => ⟨S_, .i32⟩
  | .hbm, ⟨22, _⟩ => ⟨S262144, .i32⟩
  | .hbm, ⟨23, _⟩ => ⟨S262144, .i1⟩
  | .hbm, ⟨24, _⟩ => ⟨S_, .i32⟩
  | .hbm, ⟨25, _⟩ => ⟨S262144, .i32⟩
  | .hbm, ⟨26, _⟩ => ⟨S262144, .i32⟩
  | .hbm, ⟨27, _⟩ => ⟨S262144, .i32⟩
  | .hbm, ⟨28, _⟩ => ⟨S262144x1, .i32⟩
  | .hbm, ⟨29, _⟩ => ⟨S262144x1, .i32⟩
  | .hbm, ⟨30, _⟩ => ⟨S262144x2, .i32⟩
  | .hbm, ⟨31, _⟩ => ⟨S8192x8192, .f32⟩
  | .hbm, ⟨32, _⟩ => ⟨S1x64, .f32⟩
  | .hbm, ⟨33, _⟩ => ⟨S1x64, .f32⟩
  | .hbm, ⟨34, _⟩ => ⟨S1x8, .f32⟩
  | .hbm, ⟨35, _⟩ => ⟨S8192x64, .f32⟩
  | .hbm, ⟨36, _⟩ => ⟨S8192x8192, .bf16⟩
  | .hbm, ⟨37, _⟩ => ⟨S8192x64, .f32⟩
  | .hbm, ⟨38, _⟩ => ⟨S8192x8, .f32⟩
  | .hbm, ⟨39, _⟩ => ⟨S128x8, .f32⟩
  | .hbm, ⟨40, _⟩ => ⟨S_, .f32⟩
  | .hbm, ⟨41, _⟩ => ⟨S8, .f32⟩
  | .hbm, ⟨42, _⟩ => ⟨S1x8, .f32⟩
  | .hbm, ⟨43, _⟩ => ⟨S1x1, .f32⟩
  | .hbm, ⟨44, _⟩ => ⟨S1x8, .f32⟩
  | .hbm, ⟨45, _⟩ => ⟨S1x8, .f32⟩
  | .local _ .vmem, ⟨0, _⟩ => ⟨S256x8192, .f32⟩
  | .local _ .vmem, ⟨1, _⟩ => ⟨S256x8192, .f32⟩
  | .local _ .vmem, ⟨2, _⟩ => ⟨S8192x64, .f32⟩
  | .local _ .vmem, ⟨3, _⟩ => ⟨S256x64, .f32⟩
  | .local _ .vmem, ⟨4, _⟩ => ⟨S256x64, .f32⟩
  | .local _ .vmem, ⟨5, _⟩ => ⟨S256x8192, .f32⟩
  | .local _ .vmem, ⟨6, _⟩ => ⟨S256x8192, .f32⟩
  | .local _ .vmem, ⟨7, _⟩ => ⟨S8192x64, .f32⟩
  | .local _ .vmem, ⟨8, _⟩ => ⟨S1x64, .f32⟩
  | .local _ .vmem, ⟨9, _⟩ => ⟨S64x64, .f32⟩
  | .local _ .vmem, ⟨10, _⟩ => ⟨S256x8192, .bf16⟩
  | .local _ .vmem, ⟨11, _⟩ => ⟨S256x8192, .bf16⟩
  | .local _ .vmem, ⟨12, _⟩ => ⟨S256x64, .f32⟩
  | .local _ .vmem, ⟨13, _⟩ => ⟨S256x64, .f32⟩
  | .local _ .vmem, ⟨14, _⟩ => ⟨S512x8192, .bf16⟩
  | .local _ .vmem, ⟨15, _⟩ => ⟨S512x8192, .bf16⟩
  | .local _ .vmem, ⟨16, _⟩ => ⟨S8192x64, .f32⟩
  | .local _ .vmem, ⟨17, _⟩ => ⟨S1x64, .f32⟩
  | .local _ .vmem, ⟨18, _⟩ => ⟨S64x8, .f32⟩
  | .local _ .vmem, ⟨19, _⟩ => ⟨S512x8, .f32⟩
  | .local _ .vmem, ⟨20, _⟩ => ⟨S512x8, .f32⟩
  | .local _ .vmem, ⟨21, _⟩ => ⟨S512x8192, .bf16⟩
  | .local _ .vmem, ⟨22, _⟩ => ⟨S512x8192, .bf16⟩
  | .local _ .vmem, ⟨23, _⟩ => ⟨S8192x8, .f32⟩
  | .local _ .vmem, ⟨24, _⟩ => ⟨S1x8, .f32⟩
  | .local _ .vmem, ⟨25, _⟩ => ⟨S1x512, .f32⟩
  | .local _ .vmem, ⟨26, _⟩ => ⟨S1x512, .f32⟩
  | .local _ .vmem, ⟨27, _⟩ => ⟨S8x8, .f32⟩
  | .local _ .vmem, ⟨28, _⟩ => ⟨S8x8, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_c : Ref sig .tc := ⟨.hbm, 14, rfl⟩
abbrev main_v1 : Ref sig .tc := ⟨.hbm, 15, rfl⟩
abbrev main_v2 : Ref sig .tc := ⟨.hbm, 16, rfl⟩
abbrev main_c_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_c_1 : Ref sig .tc := ⟨.hbm, 21, rfl⟩
abbrev main_v6 : Ref sig .tc := ⟨.hbm, 22, rfl⟩
abbrev main_v7 : Ref sig .tc := ⟨.hbm, 23, rfl⟩
abbrev main_c_2 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19_0 : Ref sig .tc := ⟨.hbm, 36, rfl⟩
abbrev main_v19_1 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc1_stg5_0 : Ref sig .tc := ⟨.vmem, 12, rfl⟩
abbrev cc1_stg5_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg4_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg3_1 : Ref sig .tc := ⟨.vmem, 26, rfl⟩
abbrev cc3_stg4_0 : Ref sig .tc := ⟨.vmem, 27, rfl⟩
abbrev cc3_stg4_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11
abbrev cc1_sem5_0 : DmaSem sig := 12
abbrev cc1_sem5_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem4_0 : DmaSem sig := 19
abbrev cc2_sem4_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem3_0 : DmaSem sig := 25
abbrev cc3_sem3_1 : DmaSem sig := 26
abbrev cc3_sem4_0 : DmaSem sig := 27
abbrev cc3_sem4_1 : DmaSem sig := 28

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x8192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8192x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S256x8192 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x8192 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S8192x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x8 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S512x8 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x8192 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S8192x8 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x8 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S1x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S8x8 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  bcast_S_S8192x8192 : S_.BroadcastsInDim S8192x8192 (![] : Fin 0 → Fin S8192x8192.rank)
  bcast_S_S262144 : S_.BroadcastsInDim S262144 (![] : Fin 0 → Fin S262144.rank)
  bcast_S262144_S262144x1_0 : S262144.BroadcastsInDim S262144x1 (![0] : Fin 1 → Fin S262144x1.rank)
  concatenates_S262144x1_S262144x1_S262144x2_d1 : Shape.Concatenates [S262144x1, S262144x1] S262144x2 1
  shapeCasts_S64_S1x64 : S64.ShapeCasts S1x64
  shapeCasts_S8_S1x8 : S8.ShapeCasts S1x8
  inb_S256x8192_S256x8192_0_0 : ∀ a, (![0, 0] : Fin 2 → Nat) a + S256x8192.size a ≤ S256x8192.size a
  h_S256x8192 : 0 < S256x8192.numel
  bitsLt_bf16_f32 : FTy.bits .bf16 < FTy.bits .f32
  inb_S8192x64_S8192x64_0_0 : ∀ a, (![0, 0] : Fin 2 → Nat) a + S8192x64.size a ≤ S8192x64.size a
  h_S8192x64 : 0 < S8192x64.numel
  inb_S256x64_S256x64_0_0 : ∀ a, (![0, 0] : Fin 2 → Nat) a + S256x64.size a ≤ S256x64.size a
  h_S256x64 : 0 < S256x64.numel
  shapeCasts_S256x8192_S256x8192 : S256x8192.ShapeCasts S256x8192
  shapeCasts_S8192x64_S8192x64 : S8192x64.ShapeCasts S8192x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S256x64 : S1x64.Broadcasts S256x64
  inb_S64x64_S64x64_0_0 : ∀ a, (![0, 0] : Fin 2 → Nat) a + S64x64.size a ≤ S64x64.size a
  h_S64x64 : 0 < S64x64.numel
  packedbf16_S256x8192_S256x8192_0_0 : (Rect.unit (s := S256x8192) ![0, 0] S256x8192.size inb_S256x8192_S256x8192_0_0).PackedRows (EltTy.packing .bf16)
  inb_S512x8192_S512x8192_0_0 : ∀ a, (![0, 0] : Fin 2 → Nat) a + S512x8192.size a ≤ S512x8192.size a
  h_S512x8192 : 0 < S512x8192.numel
  shapeCasts_S512x8192_S512x8192 : S512x8192.ShapeCasts S512x8192
  broadcasts_S1x64_S512x64 : S1x64.Broadcasts S512x64
  inb_S64x8_S64x8_0_0 : ∀ a, (![0, 0] : Fin 2 → Nat) a + S64x8.size a ≤ S64x8.size a
  h_S64x8 : 0 < S64x8.numel
  inb_S512x8_S512x8_0_0 : ∀ a, (![0, 0] : Fin 2 → Nat) a + S512x8.size a ≤ S512x8.size a
  h_S512x8 : 0 < S512x8.numel
  inb_S8192x8_S8192x8_0_0 : ∀ a, (![0, 0] : Fin 2 → Nat) a + S8192x8.size a ≤ S8192x8.size a
  h_S8192x8 : 0 < S8192x8.numel
  shapeCasts_S8192x8_S8192x8 : S8192x8.ShapeCasts S8192x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S512x8 : S1x8.Broadcasts S512x8
  reduces_S512x8_S512 : S512x8.Reduces [1] S512
  shapeCasts_S512_S512x1 : S512.ShapeCasts S512x1
  broadcasts_S512x1_S512x8 : S512x1.Broadcasts S512x8
  inb_S1x512_S1x512_0_0 : ∀ a, (![0, 0] : Fin 2 → Nat) a + S1x512.size a ≤ S1x512.size a
  h_S1x512 : 0 < S1x512.numel
  iota_S8x8_d0_w32 : S8x8.Iotas .tc 32 [0]
  natLt_1_32 : 1 < 32
  broadcasts_S1x8_S8x8 : S1x8.Broadcasts S8x8
  inb_S8x8_S8x8_0_0 : ∀ a, (![0, 0] : Fin 2 → Nat) a + S8x8.size a ≤ S8x8.size a
  h_S8x8 : 0 < S8x8.numel
  reducesTo_S128x8_S8_d0 : S128x8.ReducesTo [0] S8
  h_S_ : 0 < S_.numel
  bcast_S8_S1x8_1 : S8.BroadcastsInDim S1x8 (![1] : Fin 1 → Fin S1x8.rank)
  bcast_S1_S1x1_1 : S1.BroadcastsInDim S1x1 (![1] : Fin 1 → Fin S1x1.rank)
  bcast_S1x1_S1x8_0_1 : S1x1.BroadcastsInDim S1x8 (![0, 1] : Fin 2 → Fin S1x8.rank)
  scatter_S8192x8192_S262144x2_S262144_n_01_01_1_wf : ScatterDims.WF S8192x8192 S262144x2 S262144 [] [0, 1] [0, 1] 1
  dot_S256x8192_S8192x64_S256x64_1_0_0_1_n_n_wf : DotDims.WF S256x8192 S8192x64 S256x64 [1] [0] [0] [1] [] []
  dot_S256x64_S64x64_S256x64_1_0_0_1_n_n_wf : DotDims.WF S256x64 S64x64 S256x64 [1] [0] [0] [1] [] []
  dot_S512x8192_S8192x64_S512x64_1_0_0_1_n_n_wf : DotDims.WF S512x8192 S8192x64 S512x64 [1] [0] [0] [1] [] []
  dot_S512x64_S64x8_S512x8_1_0_0_1_n_n_wf : DotDims.WF S512x64 S64x8 S512x8 [1] [0] [0] [1] [] []
  dot_S512x8192_S8192x8_S512x8_1_0_0_1_n_n_wf : DotDims.WF S512x8192 S8192x8 S512x8 [1] [0] [0] [1] [] []
  dot_S1x512_S512x8_S1x8_1_0_0_1_n_n_wf : DotDims.WF S1x512 S512x8 S1x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S8192x8192.size a
  hwx0_0 : ∀ i : grid0.Coords, EltTy.bits .f32 = 32 ∨ (Rect.block (s := S8192x8192) S256x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x64.size a ≤ S8192x64.size a
  hwx0_1 : ∀ i : grid0.Coords, EltTy.bits .f32 = 32 ∨ (Rect.block (s := S8192x64) S8192x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x64.size a ≤ S8192x64.size a
  hwx0_2 : ∀ i : grid0.Coords, EltTy.bits .f32 = 32 ∨ (Rect.block (s := S8192x64) S256x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x8192.size a ≤ S8192x8192.size a
  hwx1_0 : ∀ i : grid1.Coords, EltTy.bits .f32 = 32 ∨ (Rect.block (s := S8192x8192) S256x8192.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x64.size a ≤ S8192x64.size a
  hwx1_1 : ∀ i : grid1.Coords, EltTy.bits .f32 = 32 ∨ (Rect.block (s := S8192x64) S8192x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256x8192.size a ≤ S8192x8192.size a
  hwx1_4 : ∀ i : grid1.Coords, EltTy.bits .bf16 = 32 ∨ (Rect.block (s := S8192x8192) S256x8192.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S256x64.size a ≤ S8192x64.size a
  hwx1_5 : ∀ i : grid1.Coords, EltTy.bits .f32 = 32 ∨ (Rect.block (s := S8192x64) S256x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x8192.size a ≤ S8192x8192.size a
  hwx2_0 : ∀ i : grid2.Coords, EltTy.bits .bf16 = 32 ∨ (Rect.block (s := S8192x8192) S512x8192.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S8192x64.size a ≤ S8192x64.size a
  hwx2_1 : ∀ i : grid2.Coords, EltTy.bits .f32 = 32 ∨ (Rect.block (s := S8192x64) S8192x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x8.size a ≤ S64x8.size a
  hwx2_3 : ∀ i : grid2.Coords, EltTy.bits .f32 = 32 ∨ (Rect.block (s := S64x8) S64x8.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S512x8.size a ≤ S8192x8.size a
  hwx2_4 : ∀ i : grid2.Coords, EltTy.bits .f32 = 32 ∨ (Rect.block (s := S8192x8) S512x8.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x8192.size a ≤ S8192x8192.size a
  hwx3_0 : ∀ i : grid3.Coords, EltTy.bits .bf16 = 32 ∨ (Rect.block (s := S8192x8192) S512x8192.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S8192x8.size a ≤ S8192x8.size a
  hwx3_1 : ∀ i : grid3.Coords, EltTy.bits .f32 = 32 ∨ (Rect.block (s := S8192x8) S8192x8.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x8.size a ≤ S1x8.size a
  hwx3_2 : ∀ i : grid3.Coords, EltTy.bits .f32 = 32 ∨ (Rect.block (s := S1x8) S1x8.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x512.size a ≤ S1x8192.size a
  hwx3_3 : ∀ i : grid3.Coords, EltTy.bits .f32 = 32 ∨ (Rect.block (s := S1x8192) S1x512.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S8x8.size a ≤ S128x8.size a
  hwx3_4 : ∀ i : grid3.Coords, EltTy.bits .f32 = 32 ∨ (Rect.block (s := S128x8) S8x8.size (cc3_transform_4 i) (hinb3_4 i)).WholeWords (EltTy.packing .f32)

variable [Facts₀]

def scatter_S8192x8192_S262144x2_S262144_n_01_01_1 : ScatterDims S8192x8192 S262144x2 S262144 where
  updateWindowDims := []
  insertedWindowDims := [0, 1]
  scatterDimsToOperandDims := [0, 1]
  indexVectorDim := 1
  wf := scatter_S8192x8192_S262144x2_S262144_n_01_01_1_wf
def dot_S256x8192_S8192x64_S256x64_1_0_0_1_n_n : DotDims S256x8192 S8192x64 S256x64 where
  lhsContracting := [1]
  rhsContracting := [0]
  lhsNonContracting := [0]
  rhsNonContracting := [1]
  lhsBatch := []
  rhsBatch := []
  wf := dot_S256x8192_S8192x64_S256x64_1_0_0_1_n_n_wf
def dot_S256x64_S64x64_S256x64_1_0_0_1_n_n : DotDims S256x64 S64x64 S256x64 where
  lhsContracting := [1]
  rhsContracting := [0]
  lhsNonContracting := [0]
  rhsNonContracting := [1]
  lhsBatch := []
  rhsBatch := []
  wf := dot_S256x64_S64x64_S256x64_1_0_0_1_n_n_wf
def dot_S512x8192_S8192x64_S512x64_1_0_0_1_n_n : DotDims S512x8192 S8192x64 S512x64 where
  lhsContracting := [1]
  rhsContracting := [0]
  lhsNonContracting := [0]
  rhsNonContracting := [1]
  lhsBatch := []
  rhsBatch := []
  wf := dot_S512x8192_S8192x64_S512x64_1_0_0_1_n_n_wf
def dot_S512x64_S64x8_S512x8_1_0_0_1_n_n : DotDims S512x64 S64x8 S512x8 where
  lhsContracting := [1]
  rhsContracting := [0]
  lhsNonContracting := [0]
  rhsNonContracting := [1]
  lhsBatch := []
  rhsBatch := []
  wf := dot_S512x64_S64x8_S512x8_1_0_0_1_n_n_wf
def dot_S512x8192_S8192x8_S512x8_1_0_0_1_n_n : DotDims S512x8192 S8192x8 S512x8 where
  lhsContracting := [1]
  rhsContracting := [0]
  lhsNonContracting := [0]
  rhsNonContracting := [1]
  lhsBatch := []
  rhsBatch := []
  wf := dot_S512x8192_S8192x8_S512x8_1_0_0_1_n_n_wf
def dot_S1x512_S512x8_S1x8_1_0_0_1_n_n : DotDims S1x512 S512x8 S1x8 where
  lhsContracting := [1]
  rhsContracting := [0]
  lhsNonContracting := [0]
  rhsNonContracting := [1]
  lhsBatch := []
  rhsBatch := []
  wf := dot_S1x512_S512x8_S1x8_1_0_0_1_n_n_wf

abbrev win0_0 : Pipeline.Window sig grid0 :=
  Pipeline.Window.ofSpec (Memref.whole main_arg0) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S8192x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v18) S256x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v14) S256x8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S8192x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v19_0) S256x8192.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v19_1) S256x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v19_0) S512x8192.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v19_1) S8192x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v16) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S64x8.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v20) S512x8.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v19_0) S512x8192.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v20) S8192x8.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v17) S1x8.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg10) S1x512.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v21) S8x8.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S8192x8192 : Shape := ⟨2, ![8192, 8192]⟩
abbrev S262144 : Shape := ⟨1, ![262144]⟩
abbrev S8192x64 : Shape := ⟨2, ![8192, 64]⟩
abbrev S64 : Shape := ⟨1, ![64]⟩
abbrev S64x64 : Shape := ⟨2, ![64, 64]⟩
abbrev S64x8 : Shape := ⟨2, ![64, 8]⟩
abbrev S8 : Shape := ⟨1, ![8]⟩
abbrev S1x8192 : Shape := ⟨2, ![1, 8192]⟩
abbrev S1 : Shape := ⟨1, ![1]⟩
abbrev S262144x1 : Shape := ⟨2, ![262144, 1]⟩
abbrev S_ : Shape := ⟨0, ![]⟩
abbrev S262144x64 : Shape := ⟨2, ![262144, 64]⟩
abbrev S1x64 : Shape := ⟨2, ![1, 64]⟩
abbrev S8192x8 : Shape := ⟨2, ![8192, 8]⟩
abbrev S262144x8 : Shape := ⟨2, ![262144, 8]⟩
abbrev S1x8 : Shape := ⟨2, ![1, 8]⟩
abbrev S8192 : Shape := ⟨1, ![8192]⟩
abbrev S8192x1 : Shape := ⟨2, ![8192, 1]⟩
abbrev S8x8192 : Shape := ⟨2, ![8, 8192]⟩
abbrev S8x1 : Shape := ⟨2, ![8, 1]⟩
abbrev S1x1 : Shape := ⟨2, ![1, 1]⟩

abbrev nBuf : Space → Nat
  | .hbm => 100
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S262144, .i32⟩
  | .hbm, ⟨2, _⟩ => ⟨S262144, .i32⟩
  | .hbm, ⟨3, _⟩ => ⟨S262144, .f32⟩
  | .hbm, ⟨4, _⟩ => ⟨S8192x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x8, .f32⟩
  | .hbm, ⟨9, _⟩ => ⟨S8, .f32⟩
  | .hbm, ⟨10, _⟩ => ⟨S1x8192, .f32⟩
  | .hbm, ⟨11, _⟩ => ⟨S1, .f32⟩
  | .hbm, ⟨12, _⟩ => ⟨S8192x64, .f32⟩
  | .hbm, ⟨13, _⟩ => ⟨S262144x1, .f32⟩
  | .hbm, ⟨14, _⟩ => ⟨S_, .i32⟩
  | .hbm, ⟨15, _⟩ => ⟨S262144, .i32⟩
  | .hbm, ⟨16, _⟩ => ⟨S262144, .i1⟩
  | .hbm, ⟨17, _⟩ => ⟨S_, .i32⟩
  | .hbm, ⟨18, _⟩ => ⟨S262144, .i32⟩
  | .hbm, ⟨19, _⟩ => ⟨S262144, .i32⟩
  | .hbm, ⟨20, _⟩ => ⟨S262144, .i32⟩
  | .hbm, ⟨21, _⟩ => ⟨S262144x1, .i32⟩
  | .hbm, ⟨22, _⟩ => ⟨S262144x64, .f32⟩
  | .hbm, ⟨23, _⟩ => ⟨S262144x64, .f32⟩
  | .hbm, ⟨24, _⟩ => ⟨S262144x64, .f32⟩
  | .hbm, ⟨25, _⟩ => ⟨S_, .f32⟩
  | .hbm, ⟨26, _⟩ => ⟨S8192x64, .f32⟩
  | .hbm, ⟨27, _⟩ => ⟨S262144x1, .i32⟩
  | .hbm, ⟨28, _⟩ => ⟨S8192x64, .f32⟩
  | .hbm, ⟨29, _⟩ => ⟨S1x64, .f32⟩
  | .hbm, ⟨30, _⟩ => ⟨S8192x64, .f32⟩
  | .hbm, ⟨31, _⟩ => ⟨S8192x64, .f32⟩
  | .hbm, ⟨32, _⟩ => ⟨S_, .f32⟩
  | .hbm, ⟨33, _⟩ => ⟨S8192x64, .f32⟩
  | .hbm, ⟨34, _⟩ => ⟨S8192x64, .f32⟩
  | .hbm, ⟨35, _⟩ => ⟨S8192x64, .f32⟩
  | .hbm, ⟨36, _⟩ => ⟨S262144x1, .f32⟩
  | .hbm, ⟨37, _⟩ => ⟨S_, .i32⟩
  | .hbm, ⟨38, _⟩ => ⟨S262144, .i32⟩
  | .hbm, ⟨39, _⟩ => ⟨S262144, .i1⟩
  | .hbm, ⟨40, _⟩ => ⟨S_, .i32⟩
  | .hbm, ⟨41, _⟩ => ⟨S262144, .i32⟩
  | .hbm, ⟨42, _⟩ => ⟨S262144, .i32⟩
  | .hbm, ⟨43, _⟩ => ⟨S262144, .i32⟩
  | .hbm, ⟨44, _⟩ => ⟨S262144x1, .i32⟩
  | .hbm, ⟨45, _⟩ => ⟨S262144x64, .f32⟩
  | .hbm, ⟨46, _⟩ => ⟨S262144x64, .f32⟩
  | .hbm, ⟨47, _⟩ => ⟨S262144x64, .f32⟩
  | .hbm, ⟨48, _⟩ => ⟨S_, .f32⟩
  | .hbm, ⟨49, _⟩ => ⟨S8192x64, .f32⟩
  | .hbm, ⟨50, _⟩ => ⟨S262144x1, .i32⟩
  | .hbm, ⟨51, _⟩ => ⟨S8192x64, .f32⟩
  | .hbm, ⟨52, _⟩ => ⟨S1x64, .f32⟩
  | .hbm, ⟨53, _⟩ => ⟨S8192x64, .f32⟩
  | .hbm, ⟨54, _⟩ => ⟨S8192x64, .f32⟩
  | .hbm, ⟨55, _⟩ => ⟨S_, .f32⟩
  | .hbm, ⟨56, _⟩ => ⟨S8192x64, .f32⟩
  | .hbm, ⟨57, _⟩ => ⟨S8192x64, .f32⟩
  | .hbm, ⟨58, _⟩ => ⟨S8192x8, .f32⟩
  | .hbm, ⟨59, _⟩ => ⟨S262144x1, .f32⟩
  | .hbm, ⟨60, _⟩ => ⟨S_, .i32⟩
  | .hbm, ⟨61, _⟩ => ⟨S262144, .i32⟩
  | .hbm, ⟨62, _⟩ => ⟨S262144, .i1⟩
  | .hbm, ⟨63, _⟩ => ⟨S_, .i32⟩
  | .hbm, ⟨64, _⟩ => ⟨S262144, .i32⟩
  | .hbm, ⟨65, _⟩ => ⟨S262144, .i32⟩
  | .hbm, ⟨66, _⟩ => ⟨S262144, .i32⟩
  | .hbm, ⟨67, _⟩ => ⟨S262144x1, .i32⟩
  | .hbm, ⟨68, _⟩ => ⟨S262144x8, .f32⟩
  | .hbm, ⟨69, _⟩ => ⟨S262144x8, .f32⟩
  | .hbm, ⟨70, _⟩ => ⟨S262144x8, .f32⟩
  | .hbm, ⟨71, _⟩ => ⟨S_, .f32⟩
  | .hbm, ⟨72, _⟩ => ⟨S8192x8, .f32⟩
  | .hbm, ⟨73, _⟩ => ⟨S262144x1, .i32⟩
  | .hbm, ⟨74, _⟩ => ⟨S8192x8, .f32⟩
  | .hbm, ⟨75, _⟩ => ⟨S1x8, .f32⟩
  | .hbm, ⟨76, _⟩ => ⟨S8192x8, .f32⟩
  | .hbm, ⟨77, _⟩ => ⟨S8192x8, .f32⟩
  | .hbm, ⟨78, _⟩ => ⟨S_, .f32⟩
  | .hbm, ⟨79, _⟩ => ⟨S8192, .f32⟩
  | .hbm, ⟨80, _⟩ => ⟨S_, .f32⟩
  | .hbm, ⟨81, _⟩ => ⟨S8192, .f32⟩
  | .hbm, ⟨82, _⟩ => ⟨S8192, .f32⟩
  | .hbm, ⟨83, _⟩ => ⟨S8192x1, .f32⟩
  | .hbm, ⟨84, _⟩ => ⟨S8192x8, .f32⟩
  | .hbm, ⟨85, _⟩ => ⟨S8192x8, .f32⟩
  | .hbm, ⟨86, _⟩ => ⟨S8192x8, .f32⟩
  | .hbm, ⟨87, _⟩ => ⟨S_, .f32⟩
  | .hbm, ⟨88, _⟩ => ⟨S8192, .f32⟩
  | .hbm, ⟨89, _⟩ => ⟨S8192x1, .f32⟩
  | .hbm, ⟨90, _⟩ => ⟨S8192x1, .f32⟩
  | .hbm, ⟨91, _⟩ => ⟨S8192x8, .f32⟩
  | .hbm, ⟨92, _⟩ => ⟨S8192x8, .f32⟩
  | .hbm, ⟨93, _⟩ => ⟨S8x8192, .f32⟩
  | .hbm, ⟨94, _⟩ => ⟨S8192x1, .f32⟩
  | .hbm, ⟨95, _⟩ => ⟨S8x1, .f32⟩
  | .hbm, ⟨96, _⟩ => ⟨S1x1, .f32⟩
  | .hbm, ⟨97, _⟩ => ⟨S8x1, .f32⟩
  | .hbm, ⟨98, _⟩ => ⟨S8x1, .f32⟩
  | .hbm, ⟨99, _⟩ => ⟨S1x8, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_v2 : Ref sig .tc := ⟨.hbm, 15, rfl⟩
abbrev main_v3 : Ref sig .tc := ⟨.hbm, 16, rfl⟩
abbrev main_c_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_call0_cst : Ref sig .tc := ⟨.hbm, 32, rfl⟩
abbrev main_call0_v0 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_c_1 : Ref sig .tc := ⟨.hbm, 37, rfl⟩
abbrev main_v20 : Ref sig .tc := ⟨.hbm, 38, rfl⟩
abbrev main_v21 : Ref sig .tc := ⟨.hbm, 39, rfl⟩
abbrev main_c_2 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_3 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_call1_cst : Ref sig .tc := ⟨.hbm, 55, rfl⟩
abbrev main_call1_v0 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_c_4 : Ref sig .tc := ⟨.hbm, 60, rfl⟩
abbrev main_v38 : Ref sig .tc := ⟨.hbm, 61, rfl⟩
abbrev main_v39 : Ref sig .tc := ⟨.hbm, 62, rfl⟩
abbrev main_c_5 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_6 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_call2_cst : Ref sig .tc := ⟨.hbm, 78, rfl⟩
abbrev main_call2_v0 : Ref sig .tc := ⟨.hbm, 79, rfl⟩
abbrev main_call2_cst_0 : Ref sig .tc := ⟨.hbm, 80, rfl⟩
abbrev main_call2_v1 : Ref sig .tc := ⟨.hbm, 81, rfl⟩
abbrev main_call2_v2 : Ref sig .tc := ⟨.hbm, 82, rfl⟩
abbrev main_call2_v3 : Ref sig .tc := ⟨.hbm, 83, rfl⟩
abbrev main_call2_v4 : Ref sig .tc := ⟨.hbm, 84, rfl⟩
abbrev main_call2_v5 : Ref sig .tc := ⟨.hbm, 85, rfl⟩
abbrev main_call2_v6 : Ref sig .tc := ⟨.hbm, 86, rfl⟩
abbrev main_call2_cst_1 : Ref sig .tc := ⟨.hbm, 87, rfl⟩
abbrev main_call2_v7 : Ref sig .tc := ⟨.hbm, 88, rfl⟩
abbrev main_call2_v8 : Ref sig .tc := ⟨.hbm, 89, rfl⟩
abbrev main_call2_v9 : Ref sig .tc := ⟨.hbm, 90, rfl⟩
abbrev main_call2_v10 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩

abbrev nD : Nat := 1
abbrev τ : Topo := Topo.v7x

variable {F : FTy → Type} [FloatOps F]

class Facts₀ : Prop where
  bcast_S262144_S262144x1_0 : S262144.BroadcastsInDim S262144x1 (![0] : Fin 1 → Fin S262144x1.rank)
  bcast_S_S262144 : S_.BroadcastsInDim S262144 (![] : Fin 0 → Fin S262144.rank)
  bcast_S262144x1_S262144x64_0_1 : S262144x1.BroadcastsInDim S262144x64 (![0, 1] : Fin 2 → Fin S262144x64.rank)
  bcast_S_S8192x64 : S_.BroadcastsInDim S8192x64 (![] : Fin 0 → Fin S8192x64.rank)
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  bcast_S262144x1_S262144x8_0_1 : S262144x1.BroadcastsInDim S262144x8 (![0, 1] : Fin 2 → Fin S262144x8.rank)
  bcast_S_S8192x8 : S_.BroadcastsInDim S8192x8 (![] : Fin 0 → Fin S8192x8.rank)
  bcast_S8_S1x8_1 : S8.BroadcastsInDim S1x8 (![1] : Fin 1 → Fin S1x8.rank)
  bcast_S1x8_S8192x8_0_1 : S1x8.BroadcastsInDim S8192x8 (![0, 1] : Fin 2 → Fin S8192x8.rank)
  reducesTo_S8192x8_S8192_d1 : S8192x8.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8_0_1 : S8192x1.BroadcastsInDim S8192x8 (![0, 1] : Fin 2 → Fin S8192x8.rank)
  transposes_S8192x8_S8x8192_1_0 : S8192x8.Transposes [1, 0] S8x8192
  transposes_S1x8192_S8192x1_1_0 : S1x8192.Transposes [1, 0] S8192x1
  bcast_S1_S1x1_1 : S1.BroadcastsInDim S1x1 (![1] : Fin 1 → Fin S1x1.rank)
  bcast_S1x1_S8x1_0_1 : S1x1.BroadcastsInDim S8x1 (![0, 1] : Fin 2 → Fin S8x1.rank)
  transposes_S8x1_S1x8_1_0 : S8x1.Transposes [1, 0] S1x8
  dot_S8192x8192_S8192x64_S8192x64_1_0_0_1_n_n_wf : DotDims.WF S8192x8192 S8192x64 S8192x64 [1] [0] [0] [1] [] []
  gather_S8192x64_S262144x1_S262144x64_1_0_n_n_0_1_164_wf : GatherDims.WF S8192x64 S262144x1 S262144x64 [1] [0] [] [0] [] 1 ![1, 64]
  scatter_S8192x64_S262144x1_S262144x64_1_0_0_1_wf : ScatterDims.WF S8192x64 S262144x1 S262144x64 [1] [0] [0] 1
  dot_S8192x64_S64x64_S8192x64_1_0_0_1_n_n_wf : DotDims.WF S8192x64 S64x64 S8192x64 [1] [0] [0] [1] [] []
  dot_S8192x64_S64x8_S8192x8_1_0_0_1_n_n_wf : DotDims.WF S8192x64 S64x8 S8192x8 [1] [0] [0] [1] [] []
  gather_S8192x8_S262144x1_S262144x8_1_0_n_n_0_1_18_wf : GatherDims.WF S8192x8 S262144x1 S262144x8 [1] [0] [] [0] [] 1 ![1, 8]
  scatter_S8192x8_S262144x1_S262144x8_1_0_0_1_wf : ScatterDims.WF S8192x8 S262144x1 S262144x8 [1] [0] [0] 1
  dot_S8x8192_S8192x1_S8x1_1_0_0_1_n_n_wf : DotDims.WF S8x8192 S8192x1 S8x1 [1] [0] [0] [1] [] []

variable [Facts₀]

def dot_S8192x8192_S8192x64_S8192x64_1_0_0_1_n_n : DotDims S8192x8192 S8192x64 S8192x64 where
  lhsContracting := [1]
  rhsContracting := [0]
  lhsNonContracting := [0]
  rhsNonContracting := [1]
  lhsBatch := []
  rhsBatch := []
  wf := dot_S8192x8192_S8192x64_S8192x64_1_0_0_1_n_n_wf
def gather_S8192x64_S262144x1_S262144x64_1_0_n_n_0_1_164 : GatherDims S8192x64 S262144x1 S262144x64 where
  offsetDims := [1]
  collapsedSliceDims := [0]
  operandBatchingDims := []
  startIndicesBatchingDims := []
  startIndexMap := [0]
  indexVectorDim := 1
  sliceSizes := ![1, 64]
  wf := gather_S8192x64_S262144x1_S262144x64_1_0_n_n_0_1_164_wf
def scatter_S8192x64_S262144x1_S262144x64_1_0_0_1 : ScatterDims S8192x64 S262144x1 S262144x64 where
  updateWindowDims := [1]
  insertedWindowDims := [0]
  scatterDimsToOperandDims := [0]
  indexVectorDim := 1
  wf := scatter_S8192x64_S262144x1_S262144x64_1_0_0_1_wf
def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def dot_S8192x64_S64x8_S8192x8_1_0_0_1_n_n : DotDims S8192x64 S64x8 S8192x8 where
  lhsContracting := [1]
  rhsContracting := [0]
  lhsNonContracting := [0]
  rhsNonContracting := [1]
  lhsBatch := []
  rhsBatch := []
  wf := dot_S8192x64_S64x8_S8192x8_1_0_0_1_n_n_wf
def gather_S8192x8_S262144x1_S262144x8_1_0_n_n_0_1_18 : GatherDims S8192x8 S262144x1 S262144x8 where
  offsetDims := [1]
  collapsedSliceDims := [0]
  operandBatchingDims := []
  startIndicesBatchingDims := []
  startIndexMap := [0]
  indexVectorDim := 1
  sliceSizes := ![1, 8]
  wf := gather_S8192x8_S262144x1_S262144x8_1_0_n_n_0_1_18_wf
def scatter_S8192x8_S262144x1_S262144x8_1_0_0_1 : ScatterDims S8192x8 S262144x1 S262144x8 where
  updateWindowDims := [1]
  insertedWindowDims := [0]
  scatterDimsToOperandDims := [0]
  indexVectorDim := 1
  wf := scatter_S8192x8_S262144x1_S262144x8_1_0_0_1_wf
def dot_S8x8192_S8192x1_S8x1_1_0_0_1_n_n : DotDims S8x8192 S8192x1 S8x1 where
  lhsContracting := [1]
  rhsContracting := [0]
  lhsNonContracting := [0]
  rhsNonContracting := [1]
  lhsBatch := []
  rhsBatch := []
  wf := dot_S8x8192_S8192x1_S8x1_1_0_0_1_n_n_wf

class Facts : Prop extends Facts₀ where

variable [Facts]
-- ==== Proof.Spec.lean ====
/-
  The mathematics of the two programs, free of either program's text.

  A three-layer graph convolution over N = 8192 nodes and E = 262144 weighted edges. Edge e goes from node
  col e to node row e with weight val e. One layer maps node features S (an N × c matrix) to

      out r f = Σ_{e : row e = r} val e · S (col e) f                       (the sparse form, `agg`)
              = Σ_c A r c · S c f,   A r c = Σ_{e : row e = r, col e = c} val e   (the dense form, `mm (adj …)`)

  The two forms agree when every entry is a real number (the product distributes over the inner sum) and every
  col e names a node. After the last layer each row is log-softmaxed, x_k - log Σ_j exp x_j, and the result is
  the Wlin-weighted sum of the rows plus blin.

  All arrays hold extended reals; `IsReal` says every entry is an ordinary real.
-/
import Idealize.ShloMosaic.PureOps.Ideal
import Idealize.ShloMosaic.Lib.ValueIdx

noncomputable section

namespace Cert.Gcn

open Idealize.ShloMosaic Idealize.ShloMosaic.ValueIdx

/-- An r × c matrix of extended reals, indexed as the programs index a rank-2 array. -/
abbrev Mat (r c : Nat) : Type := (⟨2, ![r, c]⟩ : Shape).Idx → EReal
/-- A length-n vector of extended reals. -/
abbrev Row (n : Nat) : Type := (⟨1, ![n]⟩ : Shape).Idx → EReal
/-- A length-n vector of 32-bit words (node numbers). -/
abbrev Words (n : Nat) : Type := (⟨1, ![n]⟩ : Shape).Idx → BitVec 32

/-- Every entry is an ordinary real number. -/
def IsReal {ι : Type} (f : ι → EReal) : Prop := ∀ i, ∃ x : ℝ, f i = (x : EReal)

/-- The matrix product: entry (i, j) is Σ_q L i q · R q j. -/
def mm {r k c : Nat} (L : Mat r k) (R : Mat k c) : Mat r c :=
  fun i => ∑ q : Fin k, L (ix2 (n0 := r) (n1 := k) (i 0) q) * R (ix2 (n0 := k) (n1 := c) q (i 1))

/-- Add the vector b to every row. -/
def addRow {r c : Nat} (X : Mat r c) (b : Row c) : Mat r c := fun i => X i + b (ix1 (n := c) (i 1))

/-- max(x, 0), entry by entry. -/
def relu {r c : Nat} (X : Mat r c) : Mat r c := fun i => max (X i) 0

/-- The dense weighted adjacency: entry (r, c) is the total weight of the edges from node c to node r. -/
def adj (row col : Words 262144) (val : Row 262144) : Mat 8192 8192 :=
  fun i => ∑ e ∈ Finset.univ.filter (fun e : Fin 262144 =>
      (row (ix1 e)).toInt = ((i 0).val : Int) ∧ (col (ix1 e)).toInt = ((i 1).val : Int)), val (ix1 e)

/-- The node a word names (a word in [0, 8192) names itself). -/
def nodeOf (w : BitVec 32) : Fin 8192 := ⟨w.toNat % 8192, Nat.mod_lt _ (by decide)⟩

/-- Sparse aggregation: row r of the result is the weighted sum of the rows S (col e) over the edges e into r. -/
def agg {c : Nat} (row col : Words 262144) (val : Row 262144) (S : Mat 8192 c) : Mat 8192 c :=
  fun i => ∑ e ∈ Finset.univ.filter (fun e : Fin 262144 => (row (ix1 e)).toInt = ((i 0).val : Int)),
    val (ix1 e) * S (ix2 (n0 := 8192) (n1 := c) (nodeOf (col (ix1 e))) (i 1))

/-- The row-wise log-softmax in its shift-free form: x_k - log Σ_j exp x_j. -/
def lsm (X : Mat 8192 8) : Mat 8192 8 :=
  fun i => X i - Ideal.log (∑ j : Fin 8, Ideal.exp (X (ix2 (n0 := 8192) (n1 := 8) (i 0) j)))

/-- The features entering the last aggregation, dense form: two hidden layers, each
    relu(A · S + b) followed by the next layer's weight matrix. -/
def support3Dense (x : Mat 8192 8192) (A : Mat 8192 8192) (W1 : Mat 8192 64) (b1 : Row 64) (W2 : Mat 64 64) (b2 : Row 64)
    (W3 : Mat 64 8) : Mat 8192 8 :=
  mm (relu (addRow (mm A (mm (relu (addRow (mm A (mm x W1)) b1)) W2)) b2)) W3

/-- The network's log-probabilities, dense form. -/
def logitsDense (x : Mat 8192 8192) (A : Mat 8192 8192) (W1 : Mat 8192 64) (b1 : Row 64) (W2 : Mat 64 64) (b2 : Row 64)
    (W3 : Mat 64 8) (b3 : Row 8) : Mat 8192 8 :=
  lsm (addRow (mm A (support3Dense x A W1 b1 W2 b2 W3)) b3)

/-- The same, sparse form: every aggregation by `agg`. -/
def logitsSparse (x : Mat 8192 8192) (row col : Words 262144) (val : Row 262144) (W1 : Mat 8192 64) (b1 : Row 64)
    (W2 : Mat 64 64) (b2 : Row 64) (W3 : Mat 64 8) (b3 : Row 8) : Mat 8192 8 :=
  lsm (addRow (agg row col val (mm (relu (addRow (agg row col val (mm (relu (addRow (agg row col val (mm x W1)) b1)) W2)) b2)) W3)) b3)

/-- The readout: class k gets Σ_n Wlin n · H n k + blin (the weight written first, as the kernel multiplies). -/
def readoutWH (H : Mat 8192 8) (Wlin : Mat 1 8192) (blin : Row 1) : Mat 1 8 :=
  fun i => (∑ n : Fin 8192, Wlin (ix2 (n0 := 1) (n1 := 8192) 0 n) * H (ix2 (n0 := 8192) (n1 := 8) n (i 1))) + blin (ix1 (n := 1) 0)

/-- The readout with the feature written first, as the reference multiplies. -/
def readoutHW (H : Mat 8192 8) (Wlin : Mat 1 8192) (blin : Row 1) : Mat 1 8 :=
  fun i => (∑ n : Fin 8192, H (ix2 (n0 := 8192) (n1 := 8) n (i 1)) * Wlin (ix2 (n0 := 1) (n1 := 8192) 0 n)) + blin (ix1 (n := 1) 0)

end Cert.Gcn

end
-- ==== Proof.SpecK.lean ====
/-
  Two small forms the kernel's side needs beside the network's mathematics: a 1 × c matrix read as a vector, and the
  last launch's output. That launch handles the nodes in 16 blocks of 512; block t writes eight rows, the first
  holding the block's share of the readout, Σ_{n < 512} Wlin (512 t + n) · H (512 t + n) k, the other seven zero.
-/
import proofs.«403911_j69672959475883_2_alg».proof.Proof.Spec

noncomputable section

namespace Cert.Gcn

open Idealize.ShloMosaic Idealize.ShloMosaic.ValueIdx

/-- The single row of a 1 × c matrix. -/
def rowOf {c : Nat} (b : Mat 1 c) : Row c := fun j => b (ix2 (n0 := 1) (n1 := c) 0 (j 0))

/-- The 128 × 8 array of per-block partial readouts: row 8 t holds block t's partial sums, every other row is zero. -/
def partials (H : Mat 8192 8) (Wlin : Mat 1 8192) : Mat 128 8 := fun i =>
  if (i 0).val % 8 = 0 then
    ∑ n : Fin 512,
      Wlin (ix2 (n0 := 1) (n1 := 8192) 0 ⟨512 * ((i 0).val / 8) + n.val, by have h0 : (i 0).val < 128 := (i 0).isLt; have h1 := n.isLt; omega⟩)
        * H (ix2 (n0 := 8192) (n1 := 8) ⟨512 * ((i 0).val / 8) + n.val, by have h0 : (i 0).val < 128 := (i 0).isLt; have h1 := n.isLt; omega⟩ (i 1))
  else 0

end Cert.Gcn

end
-- ==== Proof.Region0.lean ====
/-
  The first launch: support1 = x · W1, computed 256 rows at a time. Block t of the output is rows [256 t, 256 t + 256) of
  the product; the 32 blocks tile the 8192 rows, so the array after the launch is the whole product.
-/
import proofs.«403911_j69672959475883_2_alg».proof.Proof.Gen.KernelIdeal.Frame
import proofs.«403911_j69672959475883_2_alg».proof.Proof.SpecK
import Idealize.ShloMosaic.Lib.Pipeline.Value
import Idealize.ShloMosaic.Lib.ValueIdx
import Idealize.ShloMosaic.PureOps.Ideal.Laws

set_option maxRecDepth 16384

noncomputable section

namespace Cert.KernelIdeal.Region0

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

-- the TensorCore's buffer contents when the launch is entered
variable (V : (c : Dev nD) → (b : Ref sig .tc) → Buf (Elt Ideal) ((c : Thread nD τ).loc b))

/-- The left operand's index of the block product at output row i, contraction index q: row axis. -/
theorem lhs_blockdot_0 (i : S256x64.Idx) (q : dot_S256x8192_S8192x64_S256x64_1_0_0_1_n_n.contr.Idx) :
    (dot_S256x8192_S8192x64_S256x64_1_0_0_1_n_n.lhsIdx i q 0).val = (i 0).val := by
  unfold DotDims.lhsIdx
  rw [dif_neg (show ¬(0 : Fin S256x8192.rank) ∈ dot_S256x8192_S8192x64_S256x64_1_0_0_1_n_n.lhsBatch by decide), dif_pos (show (0 : Fin S256x8192.rank) ∈ dot_S256x8192_S8192x64_S256x64_1_0_0_1_n_n.lhsNonContracting by decide)]
  rfl
theorem lhs_blockdot_1 (i : S256x64.Idx) (q : dot_S256x8192_S8192x64_S256x64_1_0_0_1_n_n.contr.Idx) :
    (dot_S256x8192_S8192x64_S256x64_1_0_0_1_n_n.lhsIdx i q 1).val = (q ⟨0, by decide⟩).val :=
  dot_S256x8192_S8192x64_S256x64_1_0_0_1_n_n.lhsIdx_val_of_single rfl i q
theorem rhs_blockdot_0 (i : S256x64.Idx) (q : dot_S256x8192_S8192x64_S256x64_1_0_0_1_n_n.contr.Idx) :
    (dot_S256x8192_S8192x64_S256x64_1_0_0_1_n_n.rhsIdx i q 0).val = (q ⟨0, by decide⟩).val :=
  dot_S256x8192_S8192x64_S256x64_1_0_0_1_n_n.rhsIdx_val_of_single rfl i q
theorem rhs_blockdot_1 (i : S256x64.Idx) (q : dot_S256x8192_S8192x64_S256x64_1_0_0_1_n_n.contr.Idx) :
    (dot_S256x8192_S8192x64_S256x64_1_0_0_1_n_n.rhsIdx i q 1).val = (i 1).val := by
  unfold DotDims.rhsIdx
  rw [dif_neg (show ¬(1 : Fin S8192x64.rank) ∈ dot_S256x8192_S8192x64_S256x64_1_0_0_1_n_n.rhsBatch by decide), dif_pos (show (1 : Fin S8192x64.rank) ∈ dot_S256x8192_S8192x64_S256x64_1_0_0_1_n_n.rhsNonContracting by decide)]
  rfl

/-- The body's arithmetic at one entry of the output block: the row of the x-block times the column of W. -/
theorem pay_apply (X : Vec Ideal S256x8192 .f32) (W : Vec Ideal S8192x64 .f32) (p : Fin 256) (q : Fin 64) :
    k0_pay1 (F := Ideal) X W (ix2 p q) = ∑ k : Fin 8192, X (ix2 p k) * W (ix2 k q) := by
  unfold k0_pay1
  simp only [matmul]
  rw [Ideal.matmul_constant_zero_apply, ← Equiv.sum_comp (ValueIdx.contrEquiv1 dot_S256x8192_S8192x64_S256x64_1_0_0_1_n_n 8192 rfl rfl).symm]
  refine Finset.sum_congr rfl fun k _ => ?_
  have hk := ValueIdx.contrEquiv1_symm_val dot_S256x8192_S8192x64_S256x64_1_0_0_1_n_n 8192 rfl rfl k
  have el : dot_S256x8192_S8192x64_S256x64_1_0_0_1_n_n.lhsIdx (ix2 p q) ((ValueIdx.contrEquiv1 dot_S256x8192_S8192x64_S256x64_1_0_0_1_n_n 8192 rfl rfl).symm k) = ix2 p k := funext fun a => Fin.ext (by
    match a with
    | ⟨0, _⟩ => exact lhs_blockdot_0 _ _
    | ⟨1, _⟩ => exact (lhs_blockdot_1 _ _).trans hk)
  have er : dot_S256x8192_S8192x64_S256x64_1_0_0_1_n_n.rhsIdx (ix2 p q) ((ValueIdx.contrEquiv1 dot_S256x8192_S8192x64_S256x64_1_0_0_1_n_n 8192 rfl rfl).symm k) = ix2 k q := funext fun a => Fin.ext (by
    match a with
    | ⟨0, _⟩ => exact (rhs_blockdot_0 _ _).trans hk
    | ⟨1, _⟩ => exact rhs_blockdot_1 _ _)
  rw [truncf_apply, truncf_apply, el, er]

theorem origin_eq : (![0, 0] : Fin 2 → Nat) = fun _ => 0 := funext fun a => by fin_cases a <;> rfl

/-- Which block each window reads at grid point t: the x-window and the output window sit at block row t, the
    weight window is the whole array at every point. -/
theorem block_index : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- What point t writes back is block t of the product: rows [256 t, 256 t + 256). -/
theorem flushed_eq (c : Dev nD) (x : Cert.Gcn.Mat 8192 8192) (W : Cert.Gcn.Mat 8192 64)
    (hx : V c (Pipeline.arrRef spec0 0) = x) (hW : V c (Pipeline.arrRef spec0 1) = W) (t : Fin cfg0.N) :
    (dat0 (F := Ideal) V c).flushed 2 t = ((cfg0.win 2).blk t).view.read (Elt Ideal) (Cert.Gcn.mm x W) := by
  show (cfg0.win 2).cut (grid0.coords t) ((dat0 V c).after 2 t) = _
  rw [after0_2]
  unfold out0_2
  rw [View.canon_unit_zero origin_eq]
  simp only [View.ld_unit_zero (S := S256x8192) origin_eq, View.ld_unit_zero (S := S8192x64) origin_eq]
  obtain ⟨e00, e01, e10, e11, e20, e21⟩ := block_index t
  funext j
  obtain ⟨p, q, rfl⟩ : ∃ (p : Fin 256) (q : Fin 64), j = ix2 p q := ⟨j 0, j 1, eq_ix2 j⟩
  show k0_pay1 (F := Ideal) (iblk0 V c 0 t) (iblk0 V c 1 t) (ix2 p q) = Cert.Gcn.mm x W (((cfg0.win 2).blk t).view.emb (ix2 p q))
  rw [pay_apply]
  unfold Cert.Gcn.mm
  refine Finset.sum_congr rfl fun k _ => ?_
  have hl : iblk0 V c 0 t (ix2 p k)
      = x (ix2 (n0 := 8192) (n1 := 8192) ((((cfg0.win 2).blk t).view.emb (ix2 p q)) 0) k) := by
    show V c (Pipeline.arrRef spec0 0) (((cfg0.win 0).blk t).view.emb (ix2 p k)) = _
    rw [hx]
    refine congrArg x (funext fun a => Fin.ext ?_)
    match a with
    | ⟨0, _⟩ => show win0_0.index t (0 : Fin 2) * 256 + 1 * p.val = win0_2.index t (0 : Fin 2) * 256 + 1 * p.val; omega
    | ⟨1, _⟩ => show win0_0.index t (1 : Fin 2) * 8192 + 1 * k.val = k.val; omega
  have hr : iblk0 V c 1 t (ix2 k q)
      = W (ix2 (n0 := 8192) (n1 := 64) k ((((cfg0.win 2).blk t).view.emb (ix2 p q)) 1)) := by
    show V c (Pipeline.arrRef spec0 1) (((cfg0.win 1).blk t).view.emb (ix2 k q)) = _
    rw [hW]
    refine congrArg W (funext fun a => Fin.ext ?_)
    match a with
    | ⟨0, _⟩ => show win0_1.index t (0 : Fin 2) * 8192 + 1 * k.val = k.val; omega
    | ⟨1, _⟩ => show win0_1.index t (1 : Fin 2) * 64 + 1 * q.val = win0_2.index t (1 : Fin 2) * 64 + 1 * q.val; omega
  rw [hl, hr]

/-- An index of the output array lies in point t's block iff each coordinate lies in the block's range on its axis. -/
theorem mem_blk (t : Fin cfg0.N) (i : S8192x64.Idx) :
    i ∈ ((cfg0.win 2).blk t).view.set ↔ ∀ a : Fin 2, win0_2.index t a * S256x64.size a ≤ (i a).val ∧ (i a).val < win0_2.index t a * S256x64.size a + S256x64.size a := by
  show i ∈ ((View.whole main_v18).slice (win0_2.rect t)).set ↔ _
  rw [View.set_slice_whole, Rect.mem_set_unit]
  exact Iff.rfl

/-- Row r of the output lies in block r / 256: the 32 blocks of 256 rows tile the 8192 rows. -/
theorem cover (i : S8192x64.Idx) :
    ∃ t : Fin cfg0.N, (cfg0.win 2).flush t = true ∧ i ∈ ((cfg0.win 2).blk t).view.set := by
  have hi0 : (i 0).val < 8192 := (i 0).isLt
  have hi1 : (i 1).val < 64 := (i 1).isLt
  have hN : cfg0.N = 32 := N_0
  let t : Fin cfg0.N := ⟨(i 0).val / 256, by rw [hN]; omega⟩
  obtain ⟨e00, e01, e10, e11, e20, e21⟩ := block_index t
  have ht : t.val = (i 0).val / 256 := rfl
  refine ⟨t, flush0_2 t, ?_⟩
  rw [mem_blk]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 64 ≤ (i 1).val ∧ (i 1).val < win0_2.index t (1 : Fin 2) * 64 + 64; omega

/-- After the launch the output array is the matrix product of the two input arrays as the launch found them. -/
theorem final (c : Dev nD) (x : Cert.Gcn.Mat 8192 8192) (W : Cert.Gcn.Mat 8192 64)
    (hx : V c (Pipeline.arrRef spec0 0) = x) (hW : V c (Pipeline.arrRef spec0 1) = W) :
    (dat0 (F := Ideal) V c).arrAt 2 cfg0.N = Cert.Gcn.mm x W :=
  (dat0 (F := Ideal) V c).arrAt_eq_of_cover 2 (Cert.Gcn.mm x W) (fun t _ => flushed_eq V c x W hx hW t) cover

end Cert.KernelIdeal.Region0

end
-- ==== Proof.Region1.lean ====
/-
  The second launch, 256 rows at a time: it copies the dense adjacency A (rounding to a narrower format, the identity on
  extended reals) and computes support2 = relu (A · support1 + b1) · W2. The 32 blocks tile the 8192 rows of both outputs.
-/
import proofs.«403911_j69672959475883_2_alg».proof.Proof.Gen.KernelIdeal.Frame
import proofs.«403911_j69672959475883_2_alg».proof.Proof.SpecK
import Idealize.ShloMosaic.Lib.Pipeline.Value
import Idealize.ShloMosaic.Lib.ValueIdx
import Idealize.ShloMosaic.PureOps.Ideal.Laws

set_option maxRecDepth 16384

noncomputable section

namespace Cert.KernelIdeal.Region1

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

-- the TensorCore's buffer contents when the launch is entered
variable (V : (c : Dev nD) → (b : Ref sig .tc) → Buf (Elt Ideal) ((c : Thread nD τ).loc b))

/-- The zero offsets, spelt both ways. -/
private theorem hz : (![0, 0] : Fin 2 → Nat) = fun _ => 0 := funext fun a => by fin_cases a <;> rfl

/-- Which block each window reads at grid point t: the row-blocked ones block t, the others their one block. -/
private theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-- The first payload: the loaded block itself (the same-shape cast and the narrowing are identities on extended reals). -/
private theorem pay1_eq (x0 : Vec Ideal S256x8192 .f32) : k1_pay1 (F := Ideal) x0 = x0 := by
  unfold k1_pay1
  simp only [shapeCast_self]
  rfl

/-- Grid point t writes back rows 256 t … 256 t + 255 of A. -/
private theorem flushed4_eq (c : Dev nD) (A : Cert.Gcn.Mat 8192 8192) (hA : V c (Pipeline.arrRef spec1 0) = A) (t : Fin cfg1.N) :
    (dat1 (F := Ideal) V c).flushed 4 t = ((cfg1.win 4).blk t).view.read (Elt Ideal) A := by
  show (cfg1.win 4).cut (grid1.coords t) ((dat1 (F := Ideal) V c).after 4 t) = _
  rw [after1_4]
  unfold out1_4
  rw [View.canon_unit_zero hz]
  simp only [View.ld_unit_zero (S := S256x8192) hz]
  rw [pay1_eq]
  obtain ⟨e00, e01, -, -, -, -, -, -, e40, e41, -, -⟩ := idx_facts t
  unfold iblk1
  rw [hA]
  funext j
  show A (((cfg1.win 0).blk t).view.emb j) = A (((cfg1.win 4).blk t).view.emb j)
  refine congrArg A ?_
  funext a; apply Fin.ext
  match a with
  | ⟨0, _⟩ => show win1_0.index t (0 : Fin 2) * 256 + 1 * (j 0).val = win1_4.index t (0 : Fin 2) * 256 + 1 * (j 0).val; rw [e00, e40]
  | ⟨1, _⟩ => show win1_0.index t (1 : Fin 2) * 8192 + 1 * (j 1).val = win1_4.index t (1 : Fin 2) * 8192 + 1 * (j 1).val; rw [e01, e41]

/-- An index lies in point t's block of the copy iff each coordinate lies in the block's range. -/
private theorem mem_blk4 (t : Fin cfg1.N) (i : S8192x8192.Idx) :
    i ∈ ((cfg1.win 4).blk t).view.set ↔ ∀ a : Fin 2, win1_4.index t a * S256x8192.size a ≤ (i a).val ∧ (i a).val < win1_4.index t a * S256x8192.size a + S256x8192.size a := by
  show i ∈ ((View.whole main_v19_0).slice (win1_4.rect t)).set ↔ _
  rw [View.set_slice_whole, Rect.mem_set_unit]
  exact Iff.rfl

/-- The copied adjacency is the adjacency. -/
theorem final_copy (c : Dev nD) (A : Cert.Gcn.Mat 8192 8192) (hA : V c (Pipeline.arrRef spec1 0) = A) :
    (dat1 (F := Ideal) V c).arrAt 4 cfg1.N = A :=
  -- row r lies in block r / 256
  (dat1 (F := Ideal) V c).arrAt_eq_of_cover 4 A (fun t _ => flushed4_eq V c A hA t) fun i => by
    have hi0 : (i 0).val < 8192 := (i 0).isLt
    have hi1 : (i 1).val < 8192 := (i 1).isLt
    refine ⟨⟨(i 0).val / 256, by show _ < 32; omega⟩, flush1_4 _, ?_⟩
    rw [mem_blk4]
    obtain ⟨-, -, -, -, -, -, -, -, e40, e41, -, -⟩ := idx_facts ⟨(i 0).val / 256, by show _ < 32; omega⟩
    intro a
    match a with
    | ⟨0, _⟩ =>
      show win1_4.index _ (0 : Fin 2) * 256 ≤ (i 0).val ∧ (i 0).val < win1_4.index _ (0 : Fin 2) * 256 + 256
      rw [e40]; show (i 0).val / 256 * 256 ≤ _ ∧ _ < (i 0).val / 256 * 256 + 256; omega
    | ⟨1, _⟩ =>
      show win1_4.index _ (1 : Fin 2) * 8192 ≤ (i 1).val ∧ (i 1).val < win1_4.index _ (1 : Fin 2) * 8192 + 8192
      rw [e41]; omega

/-! ## The two products' operand indices, axis by axis -/

private theorem lhsA_0 (i : S256x64.Idx) (q : dot_S256x8192_S8192x64_S256x64_1_0_0_1_n_n.contr.Idx) :
    (dot_S256x8192_S8192x64_S256x64_1_0_0_1_n_n.lhsIdx i q 0).val = (i 0).val := by
  unfold DotDims.lhsIdx
  rw [dif_neg (show ¬(0 : Fin S256x8192.rank) ∈ dot_S256x8192_S8192x64_S256x64_1_0_0_1_n_n.lhsBatch by decide), dif_pos (show (0 : Fin S256x8192.rank) ∈ dot_S256x8192_S8192x64_S256x64_1_0_0_1_n_n.lhsNonContracting by decide)]
  rfl
private theorem lhsA_1 (i : S256x64.Idx) (q : dot_S256x8192_S8192x64_S256x64_1_0_0_1_n_n.contr.Idx) :
    (dot_S256x8192_S8192x64_S256x64_1_0_0_1_n_n.lhsIdx i q 1).val = (q ⟨0, by decide⟩).val :=
  dot_S256x8192_S8192x64_S256x64_1_0_0_1_n_n.lhsIdx_val_of_single rfl i q
private theorem rhsA_0 (i : S256x64.Idx) (q : dot_S256x8192_S8192x64_S256x64_1_0_0_1_n_n.contr.Idx) :
    (dot_S256x8192_S8192x64_S256x64_1_0_0_1_n_n.rhsIdx i q 0).val = (q ⟨0, by decide⟩).val :=
  dot_S256x8192_S8192x64_S256x64_1_0_0_1_n_n.rhsIdx_val_of_single rfl i q
private theorem rhsA_1 (i : S256x64.Idx) (q : dot_S256x8192_S8192x64_S256x64_1_0_0_1_n_n.contr.Idx) :
    (dot_S256x8192_S8192x64_S256x64_1_0_0_1_n_n.rhsIdx i q 1).val = (i 1).val := by
  unfold DotDims.rhsIdx
  rw [dif_neg (show ¬(1 : Fin S8192x64.rank) ∈ dot_S256x8192_S8192x64_S256x64_1_0_0_1_n_n.rhsBatch by decide), dif_pos (show (1 : Fin S8192x64.rank) ∈ dot_S256x8192_S8192x64_S256x64_1_0_0_1_n_n.rhsNonContracting by decide)]
  rfl

private theorem lhsB_0 (i : S256x64.Idx) (q : dot_S256x64_S64x64_S256x64_1_0_0_1_n_n.contr.Idx) :
    (dot_S256x64_S64x64_S256x64_1_0_0_1_n_n.lhsIdx i q 0).val = (i 0).val := by
  unfold DotDims.lhsIdx
  rw [dif_neg (show ¬(0 : Fin S256x64.rank) ∈ dot_S256x64_S64x64_S256x64_1_0_0_1_n_n.lhsBatch by decide), dif_pos (show (0 : Fin S256x64.rank) ∈ dot_S256x64_S64x64_S256x64_1_0_0_1_n_n.lhsNonContracting by decide)]
  rfl
private theorem lhsB_1 (i : S256x64.Idx) (q : dot_S256x64_S64x64_S256x64_1_0_0_1_n_n.contr.Idx) :
    (dot_S256x64_S64x64_S256x64_1_0_0_1_n_n.lhsIdx i q 1).val = (q ⟨0, by decide⟩).val :=
  dot_S256x64_S64x64_S256x64_1_0_0_1_n_n.lhsIdx_val_of_single rfl i q
private theorem rhsB_0 (i : S256x64.Idx) (q : dot_S256x64_S64x64_S256x64_1_0_0_1_n_n.contr.Idx) :
    (dot_S256x64_S64x64_S256x64_1_0_0_1_n_n.rhsIdx i q 0).val = (q ⟨0, by decide⟩).val :=
  dot_S256x64_S64x64_S256x64_1_0_0_1_n_n.rhsIdx_val_of_single rfl i q
private theorem rhsB_1 (i : S256x64.Idx) (q : dot_S256x64_S64x64_S256x64_1_0_0_1_n_n.contr.Idx) :
    (dot_S256x64_S64x64_S256x64_1_0_0_1_n_n.rhsIdx i q 1).val = (i 1).val := by
  unfold DotDims.rhsIdx
  rw [dif_neg (show ¬(1 : Fin S64x64.rank) ∈ dot_S256x64_S64x64_S256x64_1_0_0_1_n_n.rhsBatch by decide), dif_pos (show (1 : Fin S64x64.rank) ∈ dot_S256x64_S64x64_S256x64_1_0_0_1_n_n.rhsNonContracting by decide)]
  rfl

/-- A [256, 8192] · [8192, 64] product into zero, entry (p, q): Σ_r L p r · R r q. -/
private theorem matmulA_apply (L : FVec Ideal S256x8192 .bf16) (R : FVec Ideal S8192x64 .bf16) (p : Fin 256) (q : Fin 64) :
    matmul dot_S256x8192_S8192x64_S256x64_1_0_0_1_n_n none L R (constant (F := Ideal) S256x64 .f32 0x00000000#32) (ix2 p q)
      = ∑ r : Fin 8192, L (ix2 p r) * R (ix2 r q) := by
  simp only [matmul]
  rw [Ideal.matmul_constant_zero_apply, ← Equiv.sum_comp (contrEquiv1 dot_S256x8192_S8192x64_S256x64_1_0_0_1_n_n 8192 rfl rfl).symm]
  refine Finset.sum_congr rfl fun k _ => ?_
  have hk := contrEquiv1_symm_val dot_S256x8192_S8192x64_S256x64_1_0_0_1_n_n 8192 rfl rfl k
  have el : dot_S256x8192_S8192x64_S256x64_1_0_0_1_n_n.lhsIdx (ix2 p q) ((contrEquiv1 dot_S256x8192_S8192x64_S256x64_1_0_0_1_n_n 8192 rfl rfl).symm k) = ix2 p k := funext fun a => Fin.ext (by
    match a with
    | ⟨0, _⟩ => exact lhsA_0 _ _
    | ⟨1, _⟩ => exact (lhsA_1 _ _).trans hk)
  have er : dot_S256x8192_S8192x64_S256x64_1_0_0_1_n_n.rhsIdx (ix2 p q) ((contrEquiv1 dot_S256x8192_S8192x64_S256x64_1_0_0_1_n_n 8192 rfl rfl).symm k) = ix2 k q := funext fun a => Fin.ext (by
    match a with
    | ⟨0, _⟩ => exact (rhsA_0 _ _).trans hk
    | ⟨1, _⟩ => exact rhsA_1 _ _)
  rw [el, er]

/-- A [256, 64] · [64, 64] product into zero, entry (p, q): Σ_k L p k · R k q. -/
private theorem matmulB_apply (L : FVec Ideal S256x64 .bf16) (R : FVec Ideal S64x64 .bf16) (p : Fin 256) (q : Fin 64) :
    matmul dot_S256x64_S64x64_S256x64_1_0_0_1_n_n none L R (constant (F := Ideal) S256x64 .f32 0x00000000#32) (ix2 p q)
      = ∑ k : Fin 64, L (ix2 p k) * R (ix2 k q) := by
  simp only [matmul]
  rw [Ideal.matmul_constant_zero_apply, ← Equiv.sum_comp (contrEquiv1 dot_S256x64_S64x64_S256x64_1_0_0_1_n_n 64 rfl rfl).symm]
  refine Finset.sum_congr rfl fun k _ => ?_
  have hk := contrEquiv1_symm_val dot_S256x64_S64x64_S256x64_1_0_0_1_n_n 64 rfl rfl k
  have el : dot_S256x64_S64x64_S256x64_1_0_0_1_n_n.lhsIdx (ix2 p q) ((contrEquiv1 dot_S256x64_S64x64_S256x64_1_0_0_1_n_n 64 rfl rfl).symm k) = ix2 p k := funext fun a => Fin.ext (by
    match a with
    | ⟨0, _⟩ => exact lhsB_0 _ _
    | ⟨1, _⟩ => exact (lhsB_1 _ _).trans hk)
  have er : dot_S256x64_S64x64_S256x64_1_0_0_1_n_n.rhsIdx (ix2 p q) ((contrEquiv1 dot_S256x64_S64x64_S256x64_1_0_0_1_n_n 64 rfl rfl).symm k) = ix2 k q := funext fun a => Fin.ext (by
    match a with
    | ⟨0, _⟩ => exact (rhsB_0 _ _).trans hk
    | ⟨1, _⟩ => exact rhsB_1 _ _)
  rw [el, er]

/-- The row vector spread over 256 rows, entry (p, k): the vector's entry k. -/
private theorem spread_apply (x2 : Vec Ideal S1x64 .f32) (p : Fin 256) (k : Fin 64) :
    broadcastTo S256x64 x2 broadcasts_S1x64_S256x64 (ix2 p k) = x2 (ix2 0 k) :=
  broadcastTo_apply x2 broadcasts_S1x64_S256x64 (ix2 p k) (ix2 0 k) fun a => by
    match a with
    | ⟨0, _⟩ => rfl
    | ⟨1, _⟩ => rfl

/-- The block's second result, entry (p, q): Σ_k max (Σ_r x0 p r · x1 r k + x2 0 k) 0 · x3 k q. -/
private theorem pay2_apply (x0 : Vec Ideal S256x8192 .f32) (x1 : Vec Ideal S8192x64 .f32) (x2 : Vec Ideal S1x64 .f32) (x3 : Vec Ideal S64x64 .f32)
    (p : Fin 256) (q : Fin 64) :
    k1_pay2 (F := Ideal) x0 x1 x2 x3 (ix2 p q)
      = ∑ k : Fin 64, max ((∑ r : Fin 8192, x0 (ix2 p r) * x1 (ix2 r k)) + x2 (ix2 0 k)) 0 * x3 (ix2 k q) := by
  unfold k1_pay2
  rw [pay1_eq, matmulB_apply]
  refine Finset.sum_congr rfl fun k _ => ?_
  rw [truncf_apply, truncf_apply, maximumf_apply, addf_apply, broadcast_apply, matmulA_apply, shapeCast_self, shapeCast_self,
    spread_apply, Ideal.ofBits_def, Ideal.ofBits_zero_f32]
  rfl

/-! ## The loaded blocks, entry by entry -/

/-- Block t of A holds rows 256 t … 256 t + 255. -/
private theorem blkA_apply (c : Dev nD) (A : Cert.Gcn.Mat 8192 8192) (hA : V c (Pipeline.arrRef spec1 0) = A) (t : Fin cfg1.N)
    (p : Fin 256) (r : Fin 8192) (P : Fin 8192) (hP : P.val = t.val * 256 + p.val) :
    iblk1 V c 0 t (ix2 p r) = A (ix2 P r) := by
  obtain ⟨e0, e1, -⟩ := idx_facts t
  unfold iblk1
  rw [hA]
  show A (((cfg1.win 0).blk t).view.emb (ix2 p r)) = _
  refine congrArg A (funext fun a => Fin.ext ?_)
  match a with
  | ⟨0, _⟩ => show win1_0.index t (0 : Fin 2) * 256 + 1 * p.val = P.val; rw [e0, hP]; omega
  | ⟨1, _⟩ => show win1_0.index t (1 : Fin 2) * 8192 + 1 * r.val = r.val; rw [e1]; omega

/-- S is loaded whole at every point. -/
private theorem blkS_apply (c : Dev nD) (S : Cert.Gcn.Mat 8192 64) (hS : V c (Pipeline.arrRef spec1 1) = S) (t : Fin cfg1.N)
    (r : Fin 8192) (k : Fin 64) : iblk1 V c 1 t (ix2 r k) = S (ix2 r k) := by
  obtain ⟨-, -, e0, e1, -⟩ := idx_facts t
  unfold iblk1
  rw [hS]
  show S (((cfg1.win 1).blk t).view.emb (ix2 r k)) = _
  refine congrArg S (funext fun a => Fin.ext ?_)
  match a with
  | ⟨0, _⟩ => show win1_1.index t (0 : Fin 2) * 8192 + 1 * r.val = r.val; rw [e0]; omega
  | ⟨1, _⟩ => show win1_1.index t (1 : Fin 2) * 64 + 1 * k.val = k.val; rw [e1]; omega

/-- b is loaded whole at every point. -/
private theorem blkb_apply (c : Dev nD) (b : Cert.Gcn.Mat 1 64) (hb : V c (Pipeline.arrRef spec1 2) = b) (t : Fin cfg1.N)
    (z : Fin 1) (k : Fin 64) : iblk1 V c 2 t (ix2 z k) = b (ix2 z k) := by
  obtain ⟨-, -, -, -, e0, e1, -⟩ := idx_facts t
  unfold iblk1
  rw [hb]
  show b (((cfg1.win 2).blk t).view.emb (ix2 z k)) = _
  refine congrArg b (funext fun a => Fin.ext ?_)
  match a with
  | ⟨0, _⟩ => show win1_2.index t (0 : Fin 2) * 1 + 1 * z.val = z.val; rw [e0]; omega
  | ⟨1, _⟩ => show win1_2.index t (1 : Fin 2) * 64 + 1 * k.val = k.val; rw [e1]; omega

/-- W is loaded whole at every point. -/
private theorem blkW_apply (c : Dev nD) (W : Cert.Gcn.Mat 64 64) (hW : V c (Pipeline.arrRef spec1 3) = W) (t : Fin cfg1.N)
    (k : Fin 64) (q : Fin 64) : iblk1 V c 3 t (ix2 k q) = W (ix2 k q) := by
  obtain ⟨-, -, -, -, -, -, e0, e1, -⟩ := idx_facts t
  unfold iblk1
  rw [hW]
  show W (((cfg1.win 3).blk t).view.emb (ix2 k q)) = _
  refine congrArg W (funext fun a => Fin.ext ?_)
  match a with
  | ⟨0, _⟩ => show win1_3.index t (0 : Fin 2) * 64 + 1 * k.val = k.val; rw [e0]; omega
  | ⟨1, _⟩ => show win1_3.index t (1 : Fin 2) * 64 + 1 * q.val = q.val; rw [e1]; omega

/-- Entry (P, q) of relu (A · S + b) · W. -/
private theorem layer_apply (A : Cert.Gcn.Mat 8192 8192) (S : Cert.Gcn.Mat 8192 64) (b : Cert.Gcn.Mat 1 64) (W : Cert.Gcn.Mat 64 64)
    (P : Fin 8192) (q : Fin 64) :
    Cert.Gcn.mm (Cert.Gcn.relu (Cert.Gcn.addRow (Cert.Gcn.mm A S) (Cert.Gcn.rowOf b))) W (ix2 P q)
      = ∑ k : Fin 64, max ((∑ r : Fin 8192, A (ix2 P r) * S (ix2 r k)) + b (ix2 0 k)) 0 * W (ix2 k q) := rfl

/-- Grid point t writes back rows 256 t … 256 t + 255 of relu (A · S + b) · W. -/
private theorem flushed5_eq (c : Dev nD) (A : Cert.Gcn.Mat 8192 8192) (S : Cert.Gcn.Mat 8192 64) (b : Cert.Gcn.Mat 1 64) (W : Cert.Gcn.Mat 64 64)
    (hA : V c (Pipeline.arrRef spec1 0) = A) (hS : V c (Pipeline.arrRef spec1 1) = S) (hb : V c (Pipeline.arrRef spec1 2) = b)
    (hW : V c (Pipeline.arrRef spec1 3) = W) (t : Fin cfg1.N) :
    (dat1 (F := Ideal) V c).flushed 5 t
      = ((cfg1.win 5).blk t).view.read (Elt Ideal) (Cert.Gcn.mm (Cert.Gcn.relu (Cert.Gcn.addRow (Cert.Gcn.mm A S) (Cert.Gcn.rowOf b))) W) := by
  show (cfg1.win 5).cut (grid1.coords t) ((dat1 (F := Ideal) V c).after 5 t) = _
  rw [after1_5]
  unfold out1_5
  rw [View.canon_unit_zero hz]
  simp only [View.ld_unit_zero (S := S256x8192) hz, View.ld_unit_zero (S := S8192x64) hz, View.ld_unit_zero (S := S1x64) hz,
    View.ld_unit_zero (S := S64x64) hz]
  obtain ⟨-, -, -, -, -, -, -, -, -, -, e0, e1⟩ := idx_facts t
  funext j
  obtain ⟨p, q, rfl⟩ : ∃ (p : Fin 256) (q : Fin 64), j = ix2 p q := ⟨j 0, j 1, eq_ix2 (n0 := 256) (n1 := 64) j⟩
  have ht : t.val < 32 := t.isLt
  have hemb : ((cfg1.win 5).blk t).view.emb (ix2 p q) = ix2 (n0 := 8192) (n1 := 64) ⟨t.val * 256 + p.val, by omega⟩ q :=
    funext fun a => Fin.ext (by
      match a with
      | ⟨0, _⟩ => show win1_5.index t (0 : Fin 2) * 256 + 1 * p.val = t.val * 256 + p.val; rw [e0]; omega
      | ⟨1, _⟩ => show win1_5.index t (1 : Fin 2) * 64 + 1 * q.val = q.val; rw [e1]; omega)
  show k1_pay2 (F := Ideal) (iblk1 V c 0 t) (iblk1 V c 1 t) (iblk1 V c 2 t) (iblk1 V c 3 t) (ix2 p q)
    = Cert.Gcn.mm (Cert.Gcn.relu (Cert.Gcn.addRow (Cert.Gcn.mm A S) (Cert.Gcn.rowOf b))) W (((cfg1.win 5).blk t).view.emb (ix2 p q))
  rw [hemb, layer_apply]
  refine (pay2_apply _ _ _ _ p q).trans ?_
  refine Finset.sum_congr rfl fun k _ => ?_
  rw [blkW_apply V c W hW t k q, blkb_apply V c b hb t 0 k]
  refine congrArg (fun z => max (z + b (ix2 0 k)) 0 * W (ix2 k q)) (Finset.sum_congr rfl fun r _ => ?_)
  rw [blkA_apply V c A hA t p r ⟨t.val * 256 + p.val, by omega⟩ rfl, blkS_apply V c S hS t r k]

/-- An index lies in point t's block of the result iff each coordinate lies in the block's range. -/
private theorem mem_blk5 (t : Fin cfg1.N) (i : S8192x64.Idx) :
    i ∈ ((cfg1.win 5).blk t).view.set ↔ ∀ a : Fin 2, win1_5.index t a * S256x64.size a ≤ (i a).val ∧ (i a).val < win1_5.index t a * S256x64.size a + S256x64.size a := by
  show i ∈ ((View.whole main_v19_1).slice (win1_5.rect t)).set ↔ _
  rw [View.set_slice_whole, Rect.mem_set_unit]
  exact Iff.rfl

/-- The second output is relu (A · S + b) · W of the input arrays as the launch found them. -/
theorem final (c : Dev nD) (A : Cert.Gcn.Mat 8192 8192) (S : Cert.Gcn.Mat 8192 64) (b : Cert.Gcn.Mat 1 64) (W : Cert.Gcn.Mat 64 64)
    (hA : V c (Pipeline.arrRef spec1 0) = A) (hS : V c (Pipeline.arrRef spec1 1) = S) (hb : V c (Pipeline.arrRef spec1 2) = b)
    (hW : V c (Pipeline.arrRef spec1 3) = W) :
    (dat1 (F := Ideal) V c).arrAt 5 cfg1.N
      = Cert.Gcn.mm (Cert.Gcn.relu (Cert.Gcn.addRow (Cert.Gcn.mm A S) (Cert.Gcn.rowOf b))) W :=
  -- row r lies in block r / 256
  (dat1 (F := Ideal) V c).arrAt_eq_of_cover 5 _ (fun t _ => flushed5_eq V c A S b W hA hS hb hW t) fun i => by
    have hi0 : (i 0).val < 8192 := (i 0).isLt
    have hi1 : (i 1).val < 64 := (i 1).isLt
    refine ⟨⟨(i 0).val / 256, by show _ < 32; omega⟩, flush1_5 _, ?_⟩
    rw [mem_blk5]
    obtain ⟨-, -, -, -, -, -, -, -, -, -, e0, e1⟩ := idx_facts ⟨(i 0).val / 256, by show _ < 32; omega⟩
    intro a
    match a with
    | ⟨0, _⟩ =>
      show win1_5.index _ (0 : Fin 2) * 256 ≤ (i 0).val ∧ (i 0).val < win1_5.index _ (0 : Fin 2) * 256 + 256
      rw [e0]; show (i 0).val / 256 * 256 ≤ _ ∧ _ < (i 0).val / 256 * 256 + 256; omega
    | ⟨1, _⟩ =>
      show win1_5.index _ (1 : Fin 2) * 64 ≤ (i 1).val ∧ (i 1).val < win1_5.index _ (1 : Fin 2) * 64 + 64
      rw [e1]; omega

end Cert.KernelIdeal.Region1

end
-- ==== Proof.Region2.lean ====
/-
  The third launch, 512 rows at a time: support3 = relu (A · support2 + b2) · W3. The 16 blocks tile the 8192 rows.
-/
import proofs.«403911_j69672959475883_2_alg».proof.Proof.Gen.KernelIdeal.Frame
import proofs.«403911_j69672959475883_2_alg».proof.Proof.SpecK
import Idealize.ShloMosaic.Lib.Pipeline.Value
import Idealize.ShloMosaic.Lib.ValueIdx
import Idealize.ShloMosaic.PureOps.Ideal.Laws

set_option maxRecDepth 16384

noncomputable section

namespace Cert.KernelIdeal.Region2

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

-- the TensorCore's buffer contents when the launch is entered
variable (V : (c : Dev nD) → (b : Ref sig .tc) → Buf (Elt Ideal) ((c : Thread nD τ).loc b))

/-! ## The two contractions' operand indices -/

private theorem lhsA_0 (i : S512x64.Idx) (q : dot_S512x8192_S8192x64_S512x64_1_0_0_1_n_n.contr.Idx) :
    (dot_S512x8192_S8192x64_S512x64_1_0_0_1_n_n.lhsIdx i q 0).val = (i 0).val := by
  unfold DotDims.lhsIdx
  rw [dif_neg (show ¬(0 : Fin S512x8192.rank) ∈ dot_S512x8192_S8192x64_S512x64_1_0_0_1_n_n.lhsBatch by decide), dif_pos (show (0 : Fin S512x8192.rank) ∈ dot_S512x8192_S8192x64_S512x64_1_0_0_1_n_n.lhsNonContracting by decide)]
  rfl
private theorem lhsA_1 (i : S512x64.Idx) (q : dot_S512x8192_S8192x64_S512x64_1_0_0_1_n_n.contr.Idx) :
    (dot_S512x8192_S8192x64_S512x64_1_0_0_1_n_n.lhsIdx i q 1).val = (q ⟨0, by decide⟩).val :=
  dot_S512x8192_S8192x64_S512x64_1_0_0_1_n_n.lhsIdx_val_of_single rfl i q
private theorem rhsA_0 (i : S512x64.Idx) (q : dot_S512x8192_S8192x64_S512x64_1_0_0_1_n_n.contr.Idx) :
    (dot_S512x8192_S8192x64_S512x64_1_0_0_1_n_n.rhsIdx i q 0).val = (q ⟨0, by decide⟩).val :=
  dot_S512x8192_S8192x64_S512x64_1_0_0_1_n_n.rhsIdx_val_of_single rfl i q
private theorem rhsA_1 (i : S512x64.Idx) (q : dot_S512x8192_S8192x64_S512x64_1_0_0_1_n_n.contr.Idx) :
    (dot_S512x8192_S8192x64_S512x64_1_0_0_1_n_n.rhsIdx i q 1).val = (i 1).val := by
  unfold DotDims.rhsIdx
  rw [dif_neg (show ¬(1 : Fin S8192x64.rank) ∈ dot_S512x8192_S8192x64_S512x64_1_0_0_1_n_n.rhsBatch by decide), dif_pos (show (1 : Fin S8192x64.rank) ∈ dot_S512x8192_S8192x64_S512x64_1_0_0_1_n_n.rhsNonContracting by decide)]
  rfl

/-- The first product at (p, j): the sum over k of lhs (p, k) · rhs (k, j). -/
private theorem matmulA_apply (lhs : FVec Ideal S512x8192 .bf16) (rhs : FVec Ideal S8192x64 .bf16) (p : Fin 512) (j : Fin 64) :
    matmul dot_S512x8192_S8192x64_S512x64_1_0_0_1_n_n none lhs rhs (constant S512x64 .f32 0x00000000#32) (ix2 p j)
      = ∑ k : Fin 8192, lhs (ix2 p k) * rhs (ix2 k j) := by
  simp only [matmul]
  rw [Ideal.matmul_constant_zero_apply, ← Equiv.sum_comp (ValueIdx.contrEquiv1 dot_S512x8192_S8192x64_S512x64_1_0_0_1_n_n 8192 rfl rfl).symm]
  refine Finset.sum_congr rfl fun k _ => ?_
  have hk := ValueIdx.contrEquiv1_symm_val dot_S512x8192_S8192x64_S512x64_1_0_0_1_n_n 8192 rfl rfl k
  have el : dot_S512x8192_S8192x64_S512x64_1_0_0_1_n_n.lhsIdx (ix2 p j) ((ValueIdx.contrEquiv1 dot_S512x8192_S8192x64_S512x64_1_0_0_1_n_n 8192 rfl rfl).symm k) = ix2 p k := funext fun a => Fin.ext (by
    match a with
    | ⟨0, _⟩ => exact lhsA_0 _ _
    | ⟨1, _⟩ => exact (lhsA_1 _ _).trans hk)
  have er : dot_S512x8192_S8192x64_S512x64_1_0_0_1_n_n.rhsIdx (ix2 p j) ((ValueIdx.contrEquiv1 dot_S512x8192_S8192x64_S512x64_1_0_0_1_n_n 8192 rfl rfl).symm k) = ix2 k j := funext fun a => Fin.ext (by
    match a with
    | ⟨0, _⟩ => exact (rhsA_0 _ _).trans hk
    | ⟨1, _⟩ => exact rhsA_1 _ _)
  rw [el, er]

private theorem lhsB_0 (i : S512x8.Idx) (q : dot_S512x64_S64x8_S512x8_1_0_0_1_n_n.contr.Idx) :
    (dot_S512x64_S64x8_S512x8_1_0_0_1_n_n.lhsIdx i q 0).val = (i 0).val := by
  unfold DotDims.lhsIdx
  rw [dif_neg (show ¬(0 : Fin S512x64.rank) ∈ dot_S512x64_S64x8_S512x8_1_0_0_1_n_n.lhsBatch by decide), dif_pos (show (0 : Fin S512x64.rank) ∈ dot_S512x64_S64x8_S512x8_1_0_0_1_n_n.lhsNonContracting by decide)]
  rfl
private theorem lhsB_1 (i : S512x8.Idx) (q : dot_S512x64_S64x8_S512x8_1_0_0_1_n_n.contr.Idx) :
    (dot_S512x64_S64x8_S512x8_1_0_0_1_n_n.lhsIdx i q 1).val = (q ⟨0, by decide⟩).val :=
  dot_S512x64_S64x8_S512x8_1_0_0_1_n_n.lhsIdx_val_of_single rfl i q
private theorem rhsB_0 (i : S512x8.Idx) (q : dot_S512x64_S64x8_S512x8_1_0_0_1_n_n.contr.Idx) :
    (dot_S512x64_S64x8_S512x8_1_0_0_1_n_n.rhsIdx i q 0).val = (q ⟨0, by decide⟩).val :=
  dot_S512x64_S64x8_S512x8_1_0_0_1_n_n.rhsIdx_val_of_single rfl i q
private theorem rhsB_1 (i : S512x8.Idx) (q : dot_S512x64_S64x8_S512x8_1_0_0_1_n_n.contr.Idx) :
    (dot_S512x64_S64x8_S512x8_1_0_0_1_n_n.rhsIdx i q 1).val = (i 1).val := by
  unfold DotDims.rhsIdx
  rw [dif_neg (show ¬(1 : Fin S64x8.rank) ∈ dot_S512x64_S64x8_S512x8_1_0_0_1_n_n.rhsBatch by decide), dif_pos (show (1 : Fin S64x8.rank) ∈ dot_S512x64_S64x8_S512x8_1_0_0_1_n_n.rhsNonContracting by decide)]
  rfl

/-- The second product at (p, q): the sum over j of lhs (p, j) · rhs (j, q). -/
private theorem matmulB_apply (lhs : FVec Ideal S512x64 .bf16) (rhs : FVec Ideal S64x8 .bf16) (p : Fin 512) (q : Fin 8) :
    matmul dot_S512x64_S64x8_S512x8_1_0_0_1_n_n none lhs rhs (constant S512x8 .f32 0x00000000#32) (ix2 p q)
      = ∑ j : Fin 64, lhs (ix2 p j) * rhs (ix2 j q) := by
  simp only [matmul]
  rw [Ideal.matmul_constant_zero_apply, ← Equiv.sum_comp (ValueIdx.contrEquiv1 dot_S512x64_S64x8_S512x8_1_0_0_1_n_n 64 rfl rfl).symm]
  refine Finset.sum_congr rfl fun k _ => ?_
  have hk := ValueIdx.contrEquiv1_symm_val dot_S512x64_S64x8_S512x8_1_0_0_1_n_n 64 rfl rfl k
  have el : dot_S512x64_S64x8_S512x8_1_0_0_1_n_n.lhsIdx (ix2 p q) ((ValueIdx.contrEquiv1 dot_S512x64_S64x8_S512x8_1_0_0_1_n_n 64 rfl rfl).symm k) = ix2 p k := funext fun a => Fin.ext (by
    match a with
    | ⟨0, _⟩ => exact lhsB_0 _ _
    | ⟨1, _⟩ => exact (lhsB_1 _ _).trans hk)
  have er : dot_S512x64_S64x8_S512x8_1_0_0_1_n_n.rhsIdx (ix2 p q) ((ValueIdx.contrEquiv1 dot_S512x64_S64x8_S512x8_1_0_0_1_n_n 64 rfl rfl).symm k) = ix2 k q := funext fun a => Fin.ext (by
    match a with
    | ⟨0, _⟩ => exact (rhsB_0 _ _).trans hk
    | ⟨1, _⟩ => exact rhsB_1 _ _)
  rw [el, er]

/-- The bias row broadcast down the 512 rows reads the row's entry in the same column. -/
private theorem biasRow_apply (x : FVec Ideal S1x64 .f32) (p : Fin 512) (j : Fin 64) :
    broadcastTo S512x64 x broadcasts_S1x64_S512x64 (ix2 p j) = x (ix2 (0 : Fin 1) j) := by
  refine broadcastTo_apply x broadcasts_S1x64_S512x64 (ix2 p j) (ix2 (0 : Fin 1) j) fun a => ?_
  match a with
  | ⟨0, _⟩ => rfl
  | ⟨1, _⟩ => rfl

/-- The body's payload at (p, q): relu (x0 · x1 + x2) · x3 there, as two nested sums. -/
private theorem pay_apply (x0 : Vec Ideal S512x8192 .bf16) (x1 : Vec Ideal S8192x64 .f32) (x2 : Vec Ideal S1x64 .f32) (x3 : Vec Ideal S64x8 .f32)
    (p : Fin 512) (q : Fin 8) :
    k2_pay1 (F := Ideal) x0 x1 x2 x3 (ix2 p q)
      = ∑ j : Fin 64, max ((∑ k : Fin 8192, x0 (ix2 p k) * x1 (ix2 k j)) + x2 (ix2 (0 : Fin 1) j)) 0 * x3 (ix2 j q) := by
  unfold k2_pay1
  rw [matmulB_apply]
  refine Finset.sum_congr rfl fun j _ => ?_
  rw [truncf_apply, truncf_apply, maximumf_apply, addf_apply, broadcast_apply, matmulA_apply, shapeCast_self, shapeCast_self, shapeCast_self, biasRow_apply]
  have hz0 : (FloatOps.ofBits (F := Ideal) .f32 0x00000000#32) = (0 : EReal) := Ideal.ofBits_zero_f32
  rw [hz0]
  simp only [truncf_apply]

/-! ## From the payload to the target, one block at a time -/

/-- The launch's target: relu (A · S + b) · W. -/
private abbrev target (A : Cert.Gcn.Mat 8192 8192) (S : Cert.Gcn.Mat 8192 64) (b : Cert.Gcn.Mat 1 64) (W : Cert.Gcn.Mat 64 8) : Cert.Gcn.Mat 8192 8 :=
  Cert.Gcn.mm (Cert.Gcn.relu (Cert.Gcn.addRow (Cert.Gcn.mm A S) (Cert.Gcn.rowOf b))) W

/-- The payload of a block whose rows are rows of A, at an index whose row of the block is row i 0 of A, is the
    target there. -/
private theorem block_value (x0 : Vec Ideal S512x8192 .bf16) (x1 : Vec Ideal S8192x64 .f32) (x2 : Vec Ideal S1x64 .f32) (x3 : Vec Ideal S64x8 .f32)
    (A : Cert.Gcn.Mat 8192 8192) (S : Cert.Gcn.Mat 8192 64) (b : Cert.Gcn.Mat 1 64) (W : Cert.Gcn.Mat 64 8)
    (y : S512x8.Idx) (i : S8192x8.Idx)
    (h0 : ∀ k : Fin 8192, x0 (ix2 (n0 := 512) (n1 := 8192) ⟨(y 0).val, idx2_lt0 y⟩ k) = A (ix2 (n0 := 8192) (n1 := 8192) ⟨(i 0).val, idx2_lt0 i⟩ k))
    (h1 : x1 = S) (h2 : x2 = b) (h3 : x3 = W) (hq : (y 1).val = (i 1).val) :
    k2_pay1 (F := Ideal) x0 x1 x2 x3 y = target A S b W i := by
  obtain ⟨p, q, rfl⟩ : ∃ (p : Fin 512) (q : Fin 8), y = ix2 p q := ⟨y 0, y 1, eq_ix2 y⟩
  obtain ⟨r, q', rfl⟩ : ∃ (r : Fin 8192) (q' : Fin 8), i = ix2 r q' := ⟨i 0, i 1, eq_ix2 i⟩
  obtain rfl : q = q' := Fin.ext hq
  subst h1 h2 h3
  rw [pay_apply]
  show _ = ∑ j : Fin 64, max ((∑ k : Fin 8192, A (ix2 r k) * x1 (ix2 k j)) + x2 (ix2 (0 : Fin 1) j)) 0 * x3 (ix2 j q)
  refine Finset.sum_congr rfl fun j _ => ?_
  congr 2
  congr 1
  refine Finset.sum_congr rfl fun k _ => ?_
  rw [show x0 (ix2 p k) = A (ix2 r k) from h0 k]

/-! ## The blocks each point reads and writes -/

private theorem hz : (![0, 0] : Fin 2 → Nat) = fun _ => 0 := funext fun a => by fin_cases a <;> rfl

/-- The printed index maps over the grid: the row-blocked windows (A and the output) are at block (t, 0), the whole-array
    windows (S, b, W) at block (0, 0). -/
private theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- What point t writes back is block t of the target of the input arrays as the launch found them. -/
private theorem flushed_eq (c : Dev nD) (A : Cert.Gcn.Mat 8192 8192) (S : Cert.Gcn.Mat 8192 64) (b : Cert.Gcn.Mat 1 64) (W : Cert.Gcn.Mat 64 8)
    (hA : V c (Pipeline.arrRef spec2 0) = A) (hS : V c (Pipeline.arrRef spec2 1) = S) (hb : V c (Pipeline.arrRef spec2 2) = b)
    (hW : V c (Pipeline.arrRef spec2 3) = W) (t : Fin cfg2.N) :
    (dat2 (F := Ideal) V c).flushed 4 t = ((cfg2.win 4).blk t).view.read (Elt Ideal) (target A S b W) := by
  show (cfg2.win 4).cut (grid2.coords t) ((dat2 (F := Ideal) V c).after 4 t) = _
  rw [after2_4]
  unfold out2_4
  rw [View.canon_unit_zero hz]
  simp only [View.ld_unit_zero (S := S512x8192) hz, View.ld_unit_zero (S := S8192x64) hz, View.ld_unit_zero (S := S1x64) hz,
    View.ld_unit_zero (S := S64x8) hz]
  obtain ⟨e00, e01, e10, e11, e20, e21, e30, e31, e40, e41⟩ := idx_facts t
  funext y
  show k2_pay1 (F := Ideal) (iblk2 V c 0 t) (iblk2 V c 1 t) (iblk2 V c 2 t) (iblk2 V c 3 t) ((cfg2.win 4).xinj (grid2.coords t) y)
    = target A S b W (((cfg2.win 4).blk t).view.emb y)
  refine block_value (iblk2 V c 0 t) (iblk2 V c 1 t) (iblk2 V c 2 t) (iblk2 V c 3 t) A S b W _ _ ?_ ?_ ?_ ?_ ?_
  · intro k
    unfold iblk2
    rw [View.read_apply, hA]
    show A _ = A _
    refine congrArg A (funext fun a => Fin.ext ?_)
    match a with
    | ⟨0, _⟩ => show win2_0.index t (0 : Fin 2) * 512 + 1 * (y 0).val = win2_4.index t (0 : Fin 2) * 512 + 1 * (y 0).val; rw [e00, e40]
    | ⟨1, _⟩ => show win2_0.index t (1 : Fin 2) * 8192 + 1 * k.val = k.val; rw [e01]; omega
  · unfold iblk2
    rw [hS]
    funext x
    rw [View.read_apply]
    show S _ = S x
    refine congrArg S (funext fun a => Fin.ext ?_)
    match a with
    | ⟨0, _⟩ => show win2_1.index t (0 : Fin 2) * 8192 + 1 * (x 0).val = (x 0).val; rw [e10]; omega
    | ⟨1, _⟩ => show win2_1.index t (1 : Fin 2) * 64 + 1 * (x 1).val = (x 1).val; rw [e11]; omega
  · unfold iblk2
    rw [hb]
    funext x
    rw [View.read_apply]
    show b _ = b x
    refine congrArg b (funext fun a => Fin.ext ?_)
    match a with
    | ⟨0, _⟩ => show win2_2.index t (0 : Fin 2) * 1 + 1 * (x 0).val = (x 0).val; rw [e20]; omega
    | ⟨1, _⟩ => show win2_2.index t (1 : Fin 2) * 64 + 1 * (x 1).val = (x 1).val; rw [e21]; omega
  · unfold iblk2
    rw [hW]
    funext x
    rw [View.read_apply]
    show W _ = W x
    refine congrArg W (funext fun a => Fin.ext ?_)
    match a with
    | ⟨0, _⟩ => show win2_3.index t (0 : Fin 2) * 64 + 1 * (x 0).val = (x 0).val; rw [e30]; omega
    | ⟨1, _⟩ => show win2_3.index t (1 : Fin 2) * 8 + 1 * (x 1).val = (x 1).val; rw [e31]; omega
  · show (y 1).val = win2_4.index t (1 : Fin 2) * 8 + 1 * (y 1).val
    rw [e41]; omega

/-- An index of the output array is in point t's block iff each coordinate is in the block's range on its axis. -/
private theorem mem_blk (t : Fin cfg2.N) (i : S8192x8.Idx) :
    i ∈ ((cfg2.win 4).blk t).view.set ↔ ∀ a : Fin 2, win2_4.index t a * S512x8.size a ≤ (i a).val ∧ (i a).val < win2_4.index t a * S512x8.size a + S512x8.size a := by
  show i ∈ ((View.whole main_v20).slice (win2_4.rect t)).set ↔ _
  rw [View.set_slice_whole, Rect.mem_set_unit]
  exact Iff.rfl

/-- Row r of the output lies in the block of point r / 512: the 16 blocks of 512 rows tile the 8192 rows. -/
private theorem cover (i : S8192x8.Idx) : ∃ t : Fin cfg2.N, (cfg2.win 4).flush t = true ∧ i ∈ ((cfg2.win 4).blk t).view.set := by
  have hi0 : (i 0).val < 8192 := (i 0).isLt
  have hi1 : (i 1).val < 8 := (i 1).isLt
  have hN : grid2.N = 16 := N_2
  obtain ⟨t, ht⟩ : ∃ t : Fin cfg2.N, t.val = (i 0).val / 512 := ⟨⟨(i 0).val / 512, by show (i 0).val / 512 < grid2.N; rw [hN]; omega⟩, rfl⟩
  obtain ⟨e00, e01, e10, e11, e20, e21, e30, e31, e40, e41⟩ := idx_facts t
  refine ⟨t, flush2_4 t, ?_⟩
  rw [mem_blk]
  intro a
  match a with
  | ⟨0, _⟩ => show win2_4.index t (0 : Fin 2) * 512 ≤ (i 0).val ∧ (i 0).val < win2_4.index t (0 : Fin 2) * 512 + 512; rw [e40, ht]; omega
  | ⟨1, _⟩ => show win2_4.index t (1 : Fin 2) * 8 ≤ (i 1).val ∧ (i 1).val < win2_4.index t (1 : Fin 2) * 8 + 8; rw [e41]; omega

/-- The output is relu (A · S + b) · W of the input arrays as the launch found them. -/
theorem final (c : Dev nD) (A : Cert.Gcn.Mat 8192 8192) (S : Cert.Gcn.Mat 8192 64) (b : Cert.Gcn.Mat 1 64) (W : Cert.Gcn.Mat 64 8)
    (hA : V c (Pipeline.arrRef spec2 0) = A) (hS : V c (Pipeline.arrRef spec2 1) = S) (hb : V c (Pipeline.arrRef spec2 2) = b)
    (hW : V c (Pipeline.arrRef spec2 3) = W) :
    (dat2 (F := Ideal) V c).arrAt 4 cfg2.N
      = Cert.Gcn.mm (Cert.Gcn.relu (Cert.Gcn.addRow (Cert.Gcn.mm A S) (Cert.Gcn.rowOf b))) W :=
  (dat2 (F := Ideal) V c).arrAt_eq_of_cover 4 (target A S b W) (fun t _ => flushed_eq V c A S b W hA hS hb hW t) cover

end Cert.KernelIdeal.Region2

end
-- ==== Proof.MathLayer.lean ====
/-
  Real-valuedness is kept by every operation of the network, and on real entries the dense and the sparse form of
  one aggregation agree: (Σ_e a_e) · s = Σ_e a_e · s holds for reals (it fails at the infinities of the extended
  reals), and summing over the column c first, then over the edges with col e = c, visits every edge once.
-/
import proofs.«403911_j69672959475883_2_alg».proof.Proof.Spec

noncomputable section

namespace Cert.Gcn

open Idealize.ShloMosaic Idealize.ShloMosaic.ValueIdx

/-- A finite sum of coerced reals is the coercion of the real sum. -/
private theorem coe_finset_sum {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- On coerced reals the product distributes over a finite sum. -/
private theorem sum_coe_mul_coe {ι : Type} (t : Finset ι) (v : ι → ℝ) (s : ℝ) :
    (∑ e ∈ t, ((v e : ℝ) : EReal)) * (s : EReal) = ∑ e ∈ t, ((v e : ℝ) : EReal) * (s : EReal) := by
  rw [coe_finset_sum, ← EReal.coe_mul, Finset.sum_mul, ← coe_finset_sum]
  exact Finset.sum_congr rfl fun e _ => EReal.coe_mul _ _

/-- Summing over the fibres of a map, then over each fibre, visits every element once. -/
private theorem sum_fibres {ι κ M : Type} [AddCommMonoid M] [Fintype κ] [DecidableEq κ] (t : Finset ι)
    (Q : κ → ι → Prop) [∀ q, DecidablePred (Q q)] (n : ι → κ) (hQ : ∀ e ∈ t, ∀ q, Q q e ↔ q = n e)
    (g : ι → κ → M) : ∑ q, ∑ e ∈ t.filter (Q q), g e q = ∑ e ∈ t, g e (n e) := by
  simp only [Finset.sum_filter]
  rw [Finset.sum_comm]
  refine Finset.sum_congr rfl fun e he => ?_
  have h : ∀ q, (if Q q e then g e q else 0) = if q = n e then g e q else 0 := fun q => by
    simp only [hQ e he q]
  simp only [h, Finset.sum_ite_eq', Finset.mem_univ, if_true]

/-- A word in [0, 8192) read as an integer is the number of the node it names. -/
private theorem toInt_eq_iff_nodeOf (w : BitVec 32) (h0 : 0 ≤ w.toInt) (h1 : w.toInt < 8192) (q : Fin 8192) :
    w.toInt = (q.val : Int) ↔ q = nodeOf w := by
  have hw := w.isLt
  rw [BitVec.toInt_eq_toNat_cond] at h0 h1 ⊢
  unfold nodeOf
  rw [Fin.ext_iff]
  simp only
  split_ifs at h0 h1 ⊢ <;> omega

theorem isReal_mm {r k c : Nat} {L : Mat r k} {R : Mat k c} (hL : IsReal L) (hR : IsReal R) : IsReal (mm L R) := by
  choose l hl using hL
  choose r' hr using hR
  intro i
  refine ⟨∑ q : Fin k, l (ix2 (n0 := r) (n1 := k) (i 0) q) * r' (ix2 (n0 := k) (n1 := c) q (i 1)), ?_⟩
  rw [← coe_finset_sum]
  exact Finset.sum_congr rfl fun q _ => by rw [hl, hr, EReal.coe_mul]

theorem isReal_addRow {r c : Nat} {X : Mat r c} {b : Row c} (hX : IsReal X) (hb : IsReal b) : IsReal (addRow X b) := by
  intro i
  obtain ⟨x, hx⟩ := hX i
  obtain ⟨y, hy⟩ := hb (ix1 (n := c) (i 1))
  exact ⟨x + y, by rw [EReal.coe_add, ← hx, ← hy]; rfl⟩

theorem isReal_relu {r c : Nat} {X : Mat r c} (hX : IsReal X) : IsReal (relu X) := by
  intro i
  obtain ⟨x, hx⟩ := hX i
  refine ⟨max x 0, ?_⟩
  show max (X i) 0 = _
  rw [hx, ← EReal.coe_zero]
  exact (EReal.coe_strictMono.monotone.map_max).symm

theorem isReal_adj (row col : Words 262144) {val : Row 262144} (hv : IsReal val) : IsReal (adj row col val) := by
  choose v hv' using hv
  intro i
  exact ⟨_, (Finset.sum_congr rfl fun e _ => hv' (ix1 e)).trans (coe_finset_sum _ fun e => v (ix1 e))⟩

theorem isReal_agg {c : Nat} (row col : Words 262144) {val : Row 262144} {S : Mat 8192 c} (hv : IsReal val) (hS : IsReal S) :
    IsReal (agg row col val S) := by
  choose v hv' using hv
  choose s hs using hS
  intro i
  refine ⟨_, (Finset.sum_congr rfl fun e _ => ?_).trans
    (coe_finset_sum _ fun e : Fin 262144 => v (ix1 e) * s (ix2 (n0 := 8192) (n1 := c) (nodeOf (col (ix1 e))) (i 1)))⟩
  rw [hv', hs, EReal.coe_mul]

/-- One aggregation, dense against sparse. -/
theorem mm_adj_eq_agg {c : Nat} (row col : Words 262144) {val : Row 262144} {S : Mat 8192 c} (hv : IsReal val) (hS : IsReal S)
    (hcol : ∀ e, 0 ≤ (col e).toInt ∧ (col e).toInt < 8192) : mm (adj row col val) S = agg row col val S := by
  choose v hv' using hv
  choose s hs using hS
  funext i
  obtain ⟨r, f, rfl⟩ : ∃ (r : Fin 8192) (f : Fin c), i = ix2 r f := ⟨i 0, i 1, eq_ix2 i⟩
  show ∑ q : Fin 8192, (∑ e ∈ Finset.univ.filter (fun e : Fin 262144 =>
        (row (ix1 e)).toInt = (r.val : Int) ∧ (col (ix1 e)).toInt = (q.val : Int)), val (ix1 e)) *
        S (ix2 (n0 := 8192) (n1 := c) q f)
      = ∑ e ∈ Finset.univ.filter (fun e : Fin 262144 => (row (ix1 e)).toInt = (r.val : Int)),
        val (ix1 e) * S (ix2 (n0 := 8192) (n1 := c) (nodeOf (col (ix1 e))) f)
  have hdist : ∀ q : Fin 8192, (∑ e ∈ Finset.univ.filter (fun e : Fin 262144 =>
        (row (ix1 e)).toInt = (r.val : Int) ∧ (col (ix1 e)).toInt = (q.val : Int)), val (ix1 e)) *
        S (ix2 (n0 := 8192) (n1 := c) q f)
      = ∑ e ∈ (Finset.univ.filter (fun e : Fin 262144 => (row (ix1 e)).toInt = (r.val : Int))).filter
          (fun e : Fin 262144 => (col (ix1 e)).toInt = (q.val : Int)),
        val (ix1 e) * S (ix2 (n0 := 8192) (n1 := c) q f) := fun q => by
    rw [Finset.filter_filter, hs]
    simp only [hv']
    exact sum_coe_mul_coe _ (fun e : Fin 262144 => v (ix1 e)) _
  simp only [hdist]
  exact sum_fibres _ (fun (q : Fin 8192) (e : Fin 262144) => (col (ix1 e)).toInt = (q.val : Int))
    (fun e => nodeOf (col (ix1 e)))
    (fun e _ q => toInt_eq_iff_nodeOf _ (hcol (ix1 e)).1 (hcol (ix1 e)).2 q)
    (fun e q => val (ix1 e) * S (ix2 (n0 := 8192) (n1 := c) q f))

end Cert.Gcn

end
-- ==== Proof.MathFinal.lean ====
/-
  The whole network, dense against sparse; the log-softmax's two shifted spellings against the shift-free one
  (for real x and M: Σ_j exp (x_j - M) = exp (-M) · Σ_j exp x_j, so log of it is log Σ_j exp x_j - M); and the
  readout's sums re-bracketed.
-/
import proofs.«403911_j69672959475883_2_alg».proof.Proof.MathLayer

noncomputable section

namespace Cert.Gcn

open Idealize.ShloMosaic Idealize.ShloMosaic.ValueIdx

/-! ## Coercions of finite maxima and sums -/

/-- The coercion of the larger of two reals is the larger of the coercions. -/
private theorem coe_max_real (a b : ℝ) : ((max a b : ℝ) : EReal) = max (a : EReal) (b : EReal) :=
  EReal.coe_strictMono.monotone.map_max

/-- A max of coerced reals folded from -∞ over a finite set is -∞ or a coerced real. -/
private theorem fold_max_bot_or_coe {ι : Type} [DecidableEq ι] (s : Finset ι) (f : ι → EReal) (hf : IsReal f) :
    s.fold max ⊥ f = ⊥ ∨ ∃ x : ℝ, s.fold max ⊥ f = (x : EReal) := by
  induction s using Finset.induction_on with
  | empty => exact Or.inl Finset.fold_empty
  | insert a s ha ih =>
    right
    rw [Finset.fold_insert ha]
    obtain ⟨y, hy⟩ := hf a
    rcases ih with h | ⟨x, hx⟩
    · exact ⟨y, by rw [h, hy, max_bot_right]⟩
    · exact ⟨max y x, by rw [hx, hy, coe_max_real]⟩

/-- The maximum of eight reals, folded from -∞, is a real. -/
theorem fold_max_isReal (f : Fin 8 → EReal) (hf : IsReal f) : ∃ x : ℝ, (Finset.univ : Finset (Fin 8)).fold max ⊥ f = (x : EReal) := by
  rw [← Finset.insert_erase (Finset.mem_univ (0 : Fin 8)), Finset.fold_insert (Finset.notMem_erase _ _)]
  obtain ⟨y, hy⟩ := hf 0
  rcases fold_max_bot_or_coe (Finset.univ.erase (0 : Fin 8)) f hf with h | ⟨x, hx⟩
  · exact ⟨y, by rw [h, hy, max_bot_right]⟩
  · exact ⟨max y x, by rw [hx, hy, coe_max_real]⟩

/-- The coercion of a finite sum of reals is the sum of the coercions. -/
private theorem coe_sum_real {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## The log-softmax on real entries -/

/-- A sum of exponentials of reals is positive. -/
private theorem sum_exp_pos (xs : Fin 8 → ℝ) : 0 < ∑ j : Fin 8, Real.exp (xs j) :=
  Finset.sum_pos (fun j _ => Real.exp_pos _) Finset.univ_nonempty

/-- log Σ_j exp x_j of coerced reals is the coercion of the real log Σ_j exp x_j. -/
private theorem log_sum_exp_coe (xs : Fin 8 → ℝ) :
    Ideal.log (∑ j : Fin 8, Ideal.exp ((xs j : ℝ) : EReal)) = ((Real.log (∑ j : Fin 8, Real.exp (xs j)) : ℝ) : EReal) := by
  simp only [Ideal.exp_coe]
  rw [← coe_sum_real, Ideal.log_coe, if_neg (not_le.mpr (sum_exp_pos xs))]

/-- log Σ_j exp (x_j - m) = log Σ_j exp x_j - m over the reals. -/
private theorem log_sum_exp_shift (xs : Fin 8 → ℝ) (m : ℝ) :
    Real.log (∑ j : Fin 8, Real.exp (xs j - m)) = Real.log (∑ j : Fin 8, Real.exp (xs j)) - m := by
  have h : ∑ j : Fin 8, Real.exp (xs j - m) = (∑ j : Fin 8, Real.exp (xs j)) * Real.exp (-m) := by
    rw [Finset.sum_mul]
    refine Finset.sum_congr rfl fun j _ => ?_
    rw [← Real.exp_add, sub_eq_add_neg]
  rw [h, Real.log_mul (ne_of_gt (sum_exp_pos xs)) (Real.exp_ne_zero _), Real.log_exp]
  ring

/-- The shifted log Σ exp on coerced reals. -/
private theorem log_sum_exp_shift_coe (xs : Fin 8 → ℝ) (m : ℝ) :
    Ideal.log (∑ j : Fin 8, Ideal.exp ((xs j : EReal) - (m : EReal)))
      = ((Real.log (∑ j : Fin 8, Real.exp (xs j)) - m : ℝ) : EReal) := by
  simp only [← EReal.coe_sub]
  rw [log_sum_exp_coe (fun j => xs j - m), log_sum_exp_shift]

theorem isReal_lsm {X : Mat 8192 8} (hX : IsReal X) : IsReal (lsm X) := by
  choose xs hxs using hX
  intro i
  refine ⟨xs i - Real.log (∑ j : Fin 8, Real.exp (xs (ix2 (n0 := 8192) (n1 := 8) (i 0) j))), ?_⟩
  simp only [lsm, hxs]
  rw [log_sum_exp_coe (fun j => xs (ix2 (n0 := 8192) (n1 := 8) (i 0) j)), EReal.coe_sub]

/-- The kernel's spelling: x_k - (log Σ_j exp (x_j - M) + M). -/
theorem lsm_shift_outer (X : Mat 8192 8) (hX : IsReal X) (M : Fin 8192 → EReal) (hM : IsReal M) :
    (fun i : (⟨2, ![8192, 8]⟩ : Shape).Idx =>
      X i - (Ideal.log (∑ j : Fin 8, Ideal.exp (X (ix2 (n0 := 8192) (n1 := 8) (i 0) j) - M (i 0))) + M (i 0))) = lsm X := by
  choose xs hxs using hX
  choose m hm using hM
  funext i
  have hmi : M (i 0) = ((m (i 0) : ℝ) : EReal) := hm (i 0)
  simp only [lsm, hxs, hmi]
  rw [log_sum_exp_shift_coe (fun j => xs (ix2 (n0 := 8192) (n1 := 8) (i 0) j)) (m (i 0)),
    log_sum_exp_coe (fun j => xs (ix2 (n0 := 8192) (n1 := 8) (i 0) j)),
    ← EReal.coe_add, ← EReal.coe_sub, ← EReal.coe_sub]
  congr 1
  ring

/-- The reference's spelling: (x_k - M) - log (0 + Σ_j exp (x_j - M)). -/
theorem lsm_shift_inner (X : Mat 8192 8) (hX : IsReal X) (M : Fin 8192 → EReal) (hM : IsReal M) :
    (fun i : (⟨2, ![8192, 8]⟩ : Shape).Idx =>
      (X i - M (i 0)) - Ideal.log (0 + ∑ j : Fin 8, Ideal.exp (X (ix2 (n0 := 8192) (n1 := 8) (i 0) j) - M (i 0)))) = lsm X := by
  choose xs hxs using hX
  choose m hm using hM
  funext i
  have hmi : M (i 0) = ((m (i 0) : ℝ) : EReal) := hm (i 0)
  simp only [lsm, hxs, hmi, zero_add]
  rw [log_sum_exp_shift_coe (fun j => xs (ix2 (n0 := 8192) (n1 := 8) (i 0) j)) (m (i 0)),
    log_sum_exp_coe (fun j => xs (ix2 (n0 := 8192) (n1 := 8) (i 0) j)),
    ← EReal.coe_sub, ← EReal.coe_sub, ← EReal.coe_sub]
  congr 1
  ring

/-! ## The whole network -/

/-- The network's log-probabilities: the dense form over the dense adjacency is the sparse form. -/
theorem logitsDense_eq_logitsSparse (x : Mat 8192 8192) (row col : Words 262144) (val : Row 262144) (W1 : Mat 8192 64) (b1 : Row 64)
    (W2 : Mat 64 64) (b2 : Row 64) (W3 : Mat 64 8) (b3 : Row 8)
    (hx : IsReal x) (hv : IsReal val) (hW1 : IsReal W1) (hb1 : IsReal b1) (hW2 : IsReal W2) (hb2 : IsReal b2) (hW3 : IsReal W3)
    (hcol : ∀ e, 0 ≤ (col e).toInt ∧ (col e).toInt < 8192) :
    logitsDense x (adj row col val) W1 b1 W2 b2 W3 b3 = logitsSparse x row col val W1 b1 W2 b2 W3 b3 := by
  have h1 : IsReal (mm x W1) := isReal_mm hx hW1
  have h2 : IsReal (mm (relu (addRow (agg row col val (mm x W1)) b1)) W2) :=
    isReal_mm (isReal_relu (isReal_addRow (isReal_agg row col hv h1) hb1)) hW2
  have h3 : IsReal (mm (relu (addRow (agg row col val (mm (relu (addRow (agg row col val (mm x W1)) b1)) W2)) b2)) W3) :=
    isReal_mm (isReal_relu (isReal_addRow (isReal_agg row col hv h2) hb2)) hW3
  unfold logitsDense support3Dense logitsSparse
  rw [mm_adj_eq_agg row col hv h1 hcol, mm_adj_eq_agg row col hv h2 hcol, mm_adj_eq_agg row col hv h3 hcol]

/-- The features entering the last aggregation are real (dense form). -/
theorem isReal_support3Dense (x : Mat 8192 8192) (A : Mat 8192 8192) (W1 : Mat 8192 64) (b1 : Row 64) (W2 : Mat 64 64) (b2 : Row 64)
    (W3 : Mat 64 8) (hx : IsReal x) (hA : IsReal A) (hW1 : IsReal W1) (hb1 : IsReal b1) (hW2 : IsReal W2) (hb2 : IsReal b2)
    (hW3 : IsReal W3) : IsReal (support3Dense x A W1 b1 W2 b2 W3) := by
  unfold support3Dense
  exact isReal_mm (isReal_relu (isReal_addRow (isReal_mm hA
    (isReal_mm (isReal_relu (isReal_addRow (isReal_mm hA (isReal_mm hx hW1)) hb1)) hW2)) hb2)) hW3

/-- The two readouts differ by the order of each product. -/
theorem readoutWH_eq_readoutHW (H : Mat 8192 8) (Wlin : Mat 1 8192) (blin : Row 1) : readoutWH H Wlin blin = readoutHW H Wlin blin := by
  funext i
  unfold readoutWH readoutHW
  congr 1
  exact Finset.sum_congr rfl fun n _ => mul_comm _ _

/-! ## Re-bracketing the readout's sums -/

/-- (t, n) ↦ 512 t + n identifies sixteen blocks of 512 with 8192. -/
private def blockEquiv : Fin 16 × Fin 512 ≃ Fin 8192 where
  toFun p := ⟨512 * p.1.val + p.2.val, by have := p.1.isLt; have := p.2.isLt; omega⟩
  invFun k := (⟨k.val / 512, by have := k.isLt; omega⟩, ⟨k.val % 512, Nat.mod_lt _ (by decide)⟩)
  left_inv p := by
    obtain ⟨t, n⟩ := p
    have := t.isLt; have := n.isLt
    refine Prod.ext (Fin.ext ?_) (Fin.ext ?_)
    · show (512 * t.val + n.val) / 512 = t.val
      omega
    · show (512 * t.val + n.val) % 512 = n.val
      omega
  right_inv k := by
    refine Fin.ext ?_
    show 512 * (k.val / 512) + k.val % 512 = k.val
    omega

/-- Sixteen blocks of 512 consecutive terms are all 8192 terms. -/
theorem sum_blocks_512 (g : Fin 8192 → EReal) :
    ∑ t : Fin 16, ∑ n : Fin 512, g ⟨512 * t.val + n.val, by have := t.isLt; have := n.isLt; omega⟩ = ∑ n : Fin 8192, g n :=
  (Fintype.sum_prod_type (fun p : Fin 16 × Fin 512 => g (blockEquiv p))).symm.trans (Equiv.sum_comp blockEquiv g)

/-- (t, i) ↦ 8 t + i identifies sixteen groups of eight with 128. -/
private def eighthEquiv : Fin 16 × Fin 8 ≃ Fin 128 where
  toFun p := ⟨8 * p.1.val + p.2.val, by have := p.1.isLt; have := p.2.isLt; omega⟩
  invFun k := (⟨k.val / 8, by have := k.isLt; omega⟩, ⟨k.val % 8, Nat.mod_lt _ (by decide)⟩)
  left_inv p := by
    obtain ⟨t, n⟩ := p
    have := t.isLt; have := n.isLt
    refine Prod.ext (Fin.ext ?_) (Fin.ext ?_)
    · show (8 * t.val + n.val) / 8 = t.val
      omega
    · show (8 * t.val + n.val) % 8 = n.val
      omega
  right_inv k := by
    refine Fin.ext ?_
    show 8 * (k.val / 8) + k.val % 8 = k.val
    omega

/-- In group t, only the row 8 t carries P t. -/
private theorem eighth_term (P : Fin 16 → EReal) (t : Fin 16) (i : Fin 8) :
    (if (8 * t.val + i.val) % 8 = 0 then P ⟨(8 * t.val + i.val) / 8, by have := t.isLt; have := i.isLt; omega⟩ else 0)
      = if i = 0 then P t else 0 := by
  have := t.isLt; have := i.isLt
  by_cases h : i = 0
  · subst h
    have h0 : ((0 : Fin 8) : ℕ) = 0 := rfl
    rw [if_pos (by rw [h0]; omega), if_pos rfl]
    congr 1
    refine Fin.ext ?_
    show (8 * t.val + ((0 : Fin 8) : ℕ)) / 8 = t.val
    rw [h0]; omega
  · have hi : i.val ≠ 0 := fun h' => h (Fin.ext h')
    rw [if_neg (by omega), if_neg h]

/-- Of 128 rows only every eighth carries a block's partial sum; the others are zero. -/
theorem sum_every_eighth (P : Fin 16 → EReal) :
    ∑ j : Fin 128, (if j.val % 8 = 0 then P ⟨j.val / 8, by have := j.isLt; omega⟩ else 0) = ∑ t : Fin 16, P t := by
  rw [← Equiv.sum_comp eighthEquiv, Fintype.sum_prod_type]
  refine Finset.sum_congr rfl fun t _ => ?_
  have h : ∀ i : Fin 8, (if (eighthEquiv (t, i)).val % 8 = 0 then
      P ⟨(eighthEquiv (t, i)).val / 8, by have := (eighthEquiv (t, i)).isLt; omega⟩ else 0) = if i = 0 then P t else 0 :=
    fun i => eighth_term P t i
  simp only [h]
  rw [Finset.sum_ite_eq' Finset.univ (0 : Fin 8) (fun _ => P t), if_pos (Finset.mem_univ _)]

end Cert.Gcn

end
-- ==== Proof.Region3.lean ====
/-
  The last launch, 512 rows at a time: the rows' log-softmax of A · support3 + b3, then the block's share of the readout,
  Σ_{n < 512} Wlin (512 t + n) · H (512 t + n) k, written into the first of the block's eight output rows, zeros in the
  other seven. The log-softmax is computed with the row's maximum M as x_k - (log Σ_j exp (x_j - M) + M), which for real
  entries is x_k - log Σ_j exp x_j.
-/
import proofs.«403911_j69672959475883_2_alg».proof.Proof.Gen.KernelIdeal.Frame
import proofs.«403911_j69672959475883_2_alg».proof.Proof.SpecK
import proofs.«403911_j69672959475883_2_alg».proof.Proof.MathFinal
import Idealize.ShloMosaic.Lib.Pipeline.Value
import Idealize.ShloMosaic.Lib.ValueIdx
import Idealize.ShloMosaic.PureOps.Ideal.Laws

set_option maxRecDepth 16384

noncomputable section

namespace Cert.KernelIdeal.Region3

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

-- the TensorCore's buffer contents when the launch is entered
variable (V : (c : Dev nD) → (b : Ref sig .tc) → Buf (Elt Ideal) ((c : Thread nD τ).loc b))

/-! ## The two products read at an index -/

private theorem lhsA_0 (i : S512x8.Idx) (q : dot_S512x8192_S8192x8_S512x8_1_0_0_1_n_n.contr.Idx) :
    (dot_S512x8192_S8192x8_S512x8_1_0_0_1_n_n.lhsIdx i q 0).val = (i 0).val := by
  unfold DotDims.lhsIdx
  rw [dif_neg (show ¬(0 : Fin S512x8192.rank) ∈ dot_S512x8192_S8192x8_S512x8_1_0_0_1_n_n.lhsBatch by decide), dif_pos (show (0 : Fin S512x8192.rank) ∈ dot_S512x8192_S8192x8_S512x8_1_0_0_1_n_n.lhsNonContracting by decide)]
  rfl
private theorem lhsA_1 (i : S512x8.Idx) (q : dot_S512x8192_S8192x8_S512x8_1_0_0_1_n_n.contr.Idx) :
    (dot_S512x8192_S8192x8_S512x8_1_0_0_1_n_n.lhsIdx i q 1).val = (q ⟨0, by decide⟩).val :=
  dot_S512x8192_S8192x8_S512x8_1_0_0_1_n_n.lhsIdx_val_of_single rfl i q
private theorem rhsA_0 (i : S512x8.Idx) (q : dot_S512x8192_S8192x8_S512x8_1_0_0_1_n_n.contr.Idx) :
    (dot_S512x8192_S8192x8_S512x8_1_0_0_1_n_n.rhsIdx i q 0).val = (q ⟨0, by decide⟩).val :=
  dot_S512x8192_S8192x8_S512x8_1_0_0_1_n_n.rhsIdx_val_of_single rfl i q
private theorem rhsA_1 (i : S512x8.Idx) (q : dot_S512x8192_S8192x8_S512x8_1_0_0_1_n_n.contr.Idx) :
    (dot_S512x8192_S8192x8_S512x8_1_0_0_1_n_n.rhsIdx i q 1).val = (i 1).val := by
  unfold DotDims.rhsIdx
  rw [dif_neg (show ¬(1 : Fin S8192x8.rank) ∈ dot_S512x8192_S8192x8_S512x8_1_0_0_1_n_n.rhsBatch by decide), dif_pos (show (1 : Fin S8192x8.rank) ∈ dot_S512x8192_S8192x8_S512x8_1_0_0_1_n_n.rhsNonContracting by decide)]
  rfl

/-- The aggregation's product into a zero accumulator, at (p, k): Σ_q x (p, q) · y (q, k). -/
private theorem matmulA_apply (x : FVec Ideal S512x8192 .bf16) (y : FVec Ideal S8192x8 .bf16) (p : Fin 512) (k : Fin 8) :
    matmul dot_S512x8192_S8192x8_S512x8_1_0_0_1_n_n none x y (constant (F := Ideal) S512x8 .f32 0x00000000#32) (ix2 p k)
      = ∑ q : Fin 8192, x (ix2 p q) * y (ix2 q k) := by
  simp only [matmul]
  rw [Ideal.matmul_constant_zero_apply, ← Equiv.sum_comp (ValueIdx.contrEquiv1 dot_S512x8192_S8192x8_S512x8_1_0_0_1_n_n 8192 rfl rfl).symm]
  refine Finset.sum_congr rfl fun q _ => ?_
  have hk := ValueIdx.contrEquiv1_symm_val dot_S512x8192_S8192x8_S512x8_1_0_0_1_n_n 8192 rfl rfl q
  have el : dot_S512x8192_S8192x8_S512x8_1_0_0_1_n_n.lhsIdx (ix2 p k) ((ValueIdx.contrEquiv1 dot_S512x8192_S8192x8_S512x8_1_0_0_1_n_n 8192 rfl rfl).symm q) = ix2 p q := funext fun a => Fin.ext (by
    match a with
    | ⟨0, _⟩ => exact lhsA_0 _ _
    | ⟨1, _⟩ => exact (lhsA_1 _ _).trans hk)
  have er : dot_S512x8192_S8192x8_S512x8_1_0_0_1_n_n.rhsIdx (ix2 p k) ((ValueIdx.contrEquiv1 dot_S512x8192_S8192x8_S512x8_1_0_0_1_n_n 8192 rfl rfl).symm q) = ix2 q k := funext fun a => Fin.ext (by
    match a with
    | ⟨0, _⟩ => exact (rhsA_0 _ _).trans hk
    | ⟨1, _⟩ => exact rhsA_1 _ _)
  rw [el, er]

private theorem lhsR_0 (i : S1x8.Idx) (q : dot_S1x512_S512x8_S1x8_1_0_0_1_n_n.contr.Idx) :
    (dot_S1x512_S512x8_S1x8_1_0_0_1_n_n.lhsIdx i q 0).val = (i 0).val := by
  unfold DotDims.lhsIdx
  rw [dif_neg (show ¬(0 : Fin S1x512.rank) ∈ dot_S1x512_S512x8_S1x8_1_0_0_1_n_n.lhsBatch by decide), dif_pos (show (0 : Fin S1x512.rank) ∈ dot_S1x512_S512x8_S1x8_1_0_0_1_n_n.lhsNonContracting by decide)]
  rfl
private theorem lhsR_1 (i : S1x8.Idx) (q : dot_S1x512_S512x8_S1x8_1_0_0_1_n_n.contr.Idx) :
    (dot_S1x512_S512x8_S1x8_1_0_0_1_n_n.lhsIdx i q 1).val = (q ⟨0, by decide⟩).val :=
  dot_S1x512_S512x8_S1x8_1_0_0_1_n_n.lhsIdx_val_of_single rfl i q
private theorem rhsR_0 (i : S1x8.Idx) (q : dot_S1x512_S512x8_S1x8_1_0_0_1_n_n.contr.Idx) :
    (dot_S1x512_S512x8_S1x8_1_0_0_1_n_n.rhsIdx i q 0).val = (q ⟨0, by decide⟩).val :=
  dot_S1x512_S512x8_S1x8_1_0_0_1_n_n.rhsIdx_val_of_single rfl i q
private theorem rhsR_1 (i : S1x8.Idx) (q : dot_S1x512_S512x8_S1x8_1_0_0_1_n_n.contr.Idx) :
    (dot_S1x512_S512x8_S1x8_1_0_0_1_n_n.rhsIdx i q 1).val = (i 1).val := by
  unfold DotDims.rhsIdx
  rw [dif_neg (show ¬(1 : Fin S512x8.rank) ∈ dot_S1x512_S512x8_S1x8_1_0_0_1_n_n.rhsBatch by decide), dif_pos (show (1 : Fin S512x8.rank) ∈ dot_S1x512_S512x8_S1x8_1_0_0_1_n_n.rhsNonContracting by decide)]
  rfl

/-- The readout's product into a zero accumulator, at (0, k): Σ_n x (0, n) · y (n, k). -/
private theorem matmulR_apply (x : FVec Ideal S1x512 .bf16) (y : FVec Ideal S512x8 .bf16) (r : Fin 1) (k : Fin 8) :
    matmul dot_S1x512_S512x8_S1x8_1_0_0_1_n_n none x y (constant (F := Ideal) S1x8 .f32 0x00000000#32) (ix2 r k)
      = ∑ n : Fin 512, x (ix2 r n) * y (ix2 n k) := by
  simp only [matmul]
  rw [Ideal.matmul_constant_zero_apply, ← Equiv.sum_comp (ValueIdx.contrEquiv1 dot_S1x512_S512x8_S1x8_1_0_0_1_n_n 512 rfl rfl).symm]
  refine Finset.sum_congr rfl fun q _ => ?_
  have hk := ValueIdx.contrEquiv1_symm_val dot_S1x512_S512x8_S1x8_1_0_0_1_n_n 512 rfl rfl q
  have el : dot_S1x512_S512x8_S1x8_1_0_0_1_n_n.lhsIdx (ix2 r k) ((ValueIdx.contrEquiv1 dot_S1x512_S512x8_S1x8_1_0_0_1_n_n 512 rfl rfl).symm q) = ix2 r q := funext fun a => Fin.ext (by
    match a with
    | ⟨0, _⟩ => exact lhsR_0 _ _
    | ⟨1, _⟩ => exact (lhsR_1 _ _).trans hk)
  have er : dot_S1x512_S512x8_S1x8_1_0_0_1_n_n.rhsIdx (ix2 r k) ((ValueIdx.contrEquiv1 dot_S1x512_S512x8_S1x8_1_0_0_1_n_n 512 rfl rfl).symm q) = ix2 q k := funext fun a => Fin.ext (by
    match a with
    | ⟨0, _⟩ => exact (rhsR_0 _ _).trans hk
    | ⟨1, _⟩ => exact rhsR_1 _ _)
  rw [el, er]

/-! ## The body's stages, named -/

/-- The aggregated features of the block's rows: the product plus the bias row. -/
private def aggK (a : FVec Ideal S512x8192 .bf16) (s : FVec Ideal S8192x8 .f32) (b : FVec Ideal S1x8 .f32) : FVec Ideal S512x8 .f32 :=
  addf (matmul dot_S512x8192_S8192x8_S512x8_1_0_0_1_n_n none (shapeCast S512x8192 a shapeCasts_S512x8192_S512x8192)
      (truncf .bf16 (shapeCast S8192x8 s shapeCasts_S8192x8_S8192x8) bitsLt_bf16_f32) (constant S512x8 .f32 0x00000000#32))
    (broadcastTo S512x8 (shapeCast S1x8 b shapeCasts_S1x8_S1x8) broadcasts_S1x8_S512x8)

/-- The rows' maxima, as a column. -/
private def rmaxK (x : FVec Ideal S512x8 .f32) : FVec Ideal S512x1 .f32 :=
  shapeCast S512x1 (multiReduction .maximumf [1] S512 x 0xFF800000#32 reduces_S512x8_S512 (.inl rfl) rfl) shapeCasts_S512_S512x1

/-- The rows' log Σ exp (x - max) + max, as a column. -/
private def lseK (x : FVec Ideal S512x8 .f32) : FVec Ideal S512x1 .f32 :=
  addf (log (shapeCast S512x1 (multiReduction .add [1] S512 (exp (subf x (broadcastTo S512x8 (rmaxK x) broadcasts_S512x1_S512x8)))
      0x00000000#32 reduces_S512x8_S512 (.inl rfl) rfl) shapeCasts_S512_S512x1)) (rmaxK x)

/-- The block's share of the readout: the weights' row times the log-softmaxed rows. -/
private def partK (w : FVec Ideal S1x512 .f32) (x : FVec Ideal S512x8 .f32) : FVec Ideal S1x8 .f32 :=
  matmul dot_S1x512_S512x8_S1x8_1_0_0_1_n_n none (truncf .bf16 w bitsLt_bf16_f32)
    (truncf .bf16 (subf x (broadcastTo S512x8 (lseK x) broadcasts_S512x1_S512x8)) bitsLt_bf16_f32) (constant S1x8 .f32 0x00000000#32)

/-- One in the first row, zero in the other seven. -/
private def maskK : FVec Ideal S8x8 .f32 :=
  have v25 : IVec S8x8 32 := iota .tc S8x8 32 [0] iota_S8x8_d0_w32
  have v26 : IVec S8x8 32 := broadcast S8x8 0#32
  have v27 : IVec S8x8 1 := cmpi .eq v25 v26
  have v28 : IVec S8x8 32 := extui 32 v27 natLt_1_32
  sitofp .f32 v28

/-- The body's stored value is the mask times the broadcast share. -/
private theorem pay_eq (a : Vec Ideal S512x8192 .bf16) (s : Vec Ideal S8192x8 .f32) (b : Vec Ideal S1x8 .f32) (w : Vec Ideal S1x512 .f32) :
    k3_pay1 (F := Ideal) a s b w
      = mulf maskK (broadcastTo S8x8 (shapeCast S1x8 (partK w (aggK a s b)) shapeCasts_S1x8_S1x8) broadcasts_S1x8_S8x8) := rfl

/-! ## The stages read at an index -/

private theorem aggK_apply (a : FVec Ideal S512x8192 .bf16) (s : FVec Ideal S8192x8 .f32) (b : FVec Ideal S1x8 .f32) (p : Fin 512) (k : Fin 8) :
    aggK a s b (ix2 p k) = (∑ q : Fin 8192, a (ix2 p q) * s (ix2 q k)) + b (ix2 0 k) := by
  unfold aggK
  rw [shapeCast_self, shapeCast_self, shapeCast_self]
  simp only [addf_apply]
  rw [matmulA_apply, broadcastTo_apply b broadcasts_S1x8_S512x8 (ix2 p k) (ix2 0 k) (fun a => by
    match a with
    | ⟨0, _⟩ => rfl
    | ⟨1, _⟩ => rfl)]
  rfl

/-- The bit pattern of -∞. -/
private theorem ofBits_neg_inf : Ideal.ofBits .f32 0xFF800000#32 = ⊥ := by simp [Ideal.ofBits, Ideal.ieee]

/-- The largest entry of row r, folded from -∞. -/
private def rowMax (x : FVec Ideal S512x8 .f32) (r : Fin 512) : EReal := (Finset.univ : Finset (Fin 8)).fold max ⊥ (fun j => x (ix2 r j))

/-- The reduced index r with the coordinate j put back on axis 1 is (r, j). -/
private theorem lift_eq (r : Fin 512) (j : Fin 8) : reduces_S512x8_S512.lift (ix1 r) j = ix2 r j :=
  funext fun a => Fin.ext (by
    match a with
    | ⟨0, _⟩ => rfl
    | ⟨1, _⟩ => rfl)

/-- A length-512 vector viewed as a column reads its entry r at (r, 0). -/
private theorem col_apply (v : FVec Ideal S512 .f32) (r : Fin 512) (z : Fin 1) :
    shapeCast S512x1 v shapeCasts_S512_S512x1 (ix2 r z) = v (ix1 r) := by
  refine shapeCast_apply v shapeCasts_S512_S512x1 (ix2 r z) (ix1 r) ?_
  rw [Shape.rowMajor_val_one, Shape.rowMajor_val_two]
  show r.val = r.val * 1 + z.val
  omega

/-- A column broadcast along the rows reads its entry (r, 0) at (r, j). -/
private theorem bcol_apply (v : FVec Ideal S512x1 .f32) (r : Fin 512) (j : Fin 8) :
    broadcastTo S512x8 v broadcasts_S512x1_S512x8 (ix2 r j) = v (ix2 r 0) :=
  broadcastTo_apply v broadcasts_S512x1_S512x8 (ix2 r j) (ix2 r 0) (fun a => by
    match a with
    | ⟨0, _⟩ => rfl
    | ⟨1, _⟩ => rfl)

/-- The row sum at r. -/
private theorem rowsum_apply (y : FVec Ideal S512x8 .f32) (r : Fin 512) :
    multiReduction .add [1] S512 y 0x00000000#32 reduces_S512x8_S512 (.inl rfl) rfl (ix1 r) = ∑ j : Fin 8, y (ix2 r j) :=
  (Ideal.multiReduction_add_single y 0x00000000#32 reduces_S512x8_S512 (.inl rfl) rfl (ix1 r)).trans
    (Finset.sum_congr rfl fun j _ => congrArg y (lift_eq r j))

private theorem rmaxK_apply (x : FVec Ideal S512x8 .f32) (r : Fin 512) (z : Fin 1) : rmaxK x (ix2 r z) = rowMax x r := by
  unfold rmaxK
  rw [col_apply]
  refine (Ideal.multiReduction_maximumf_single x 0xFF800000#32 reduces_S512x8_S512 (.inl rfl) rfl (ix1 r)).trans ?_
  show (Finset.univ : Finset (Fin 8)).fold max (Ideal.ofBits .f32 0xFF800000#32) (fun j => x (reduces_S512x8_S512.lift (ix1 r) j)) = _
  rw [ofBits_neg_inf]
  have hf : (fun j : Fin (S512x8.size 1) => x (reduces_S512x8_S512.lift (ix1 r) j)) = (fun j : Fin 8 => x (ix2 r j)) :=
    funext fun j => congrArg x (lift_eq r j)
  exact congrArg (fun f => Finset.fold max ⊥ f (Finset.univ : Finset (Fin 8))) hf

private theorem lseK_apply (x : FVec Ideal S512x8 .f32) (r : Fin 512) (z : Fin 1) :
    lseK x (ix2 r z) = Ideal.log (∑ j : Fin 8, Ideal.exp (x (ix2 r j) - rowMax x r)) + rowMax x r := by
  unfold lseK
  simp only [addf_apply]
  rw [rmaxK_apply]
  congr 1
  show Ideal.log (shapeCast S512x1 _ shapeCasts_S512_S512x1 (ix2 r z)) = _
  rw [col_apply]
  congr 1
  refine (rowsum_apply _ r).trans ?_
  refine Finset.sum_congr rfl fun j _ => ?_
  show Ideal.exp (x (ix2 r j) - broadcastTo S512x8 (rmaxK x) broadcasts_S512x1_S512x8 (ix2 r j)) = _
  rw [bcol_apply, rmaxK_apply]

/-- The log-softmax entry in the shifted spelling: x_k - (log Σ_j exp (x_j - M) + M), M the row's maximum. -/
private def hK (x : FVec Ideal S512x8 .f32) (n : Fin 512) (k : Fin 8) : EReal :=
  x (ix2 n k) - (Ideal.log (∑ j : Fin 8, Ideal.exp (x (ix2 n j) - rowMax x n)) + rowMax x n)

private theorem partK_apply (w : FVec Ideal S1x512 .f32) (x : FVec Ideal S512x8 .f32) (z : Fin 1) (k : Fin 8) :
    partK w x (ix2 z k) = ∑ n : Fin 512, w (ix2 z n) * hK x n k := by
  unfold partK
  rw [matmulR_apply]
  refine Finset.sum_congr rfl fun n _ => ?_
  show w (ix2 z n) * (x (ix2 n k) - broadcastTo S512x8 (lseK x) broadcasts_S512x1_S512x8 (ix2 n k)) = _
  rw [bcol_apply, lseK_apply]
  rfl

/-- Comparing a row number below 8 with zero. -/
private theorem cmp_zero (n : Nat) (hn : n < 8) : IntOp.cmpi .eq (BitVec.ofNat 32 n) 0#32 = if n = 0 then 1#1 else 0#1 := by
  interval_cases n <;> rfl

private theorem maskK_apply (i k : Fin 8) : maskK (ix2 i k) = if i = 0 then 1 else 0 := by
  have h1 : (((1#1 : BitVec 1).setWidth 32).toInt) = 1 := by decide
  have h0 : (((0#1 : BitVec 1).setWidth 32).toInt) = 0 := by decide
  unfold maskK
  show ((((IntOp.cmpi .eq (iota .tc S8x8 32 [0] iota_S8x8_d0_w32 (ix2 i k)) 0#32).setWidth 32).toInt : ℝ) : EReal) = _
  rw [iota_single_apply]
  show ((((IntOp.cmpi .eq (BitVec.ofNat 32 i.val) 0#32).setWidth 32).toInt : ℝ) : EReal) = _
  rw [cmp_zero i.val i.isLt]
  by_cases hi : i = 0
  · have hv : i.val = 0 := congrArg Fin.val hi
    rw [if_pos hv, if_pos hi, h1]
    simp
  · have hv : i.val ≠ 0 := fun h => hi (Fin.ext h)
    rw [if_neg hv, if_neg hi, h0]
    simp

/-- The stored value at (i, k): the block's share of the readout in row 0, zero in the other rows. -/
private theorem pay_apply (a : FVec Ideal S512x8192 .bf16) (s : FVec Ideal S8192x8 .f32) (b : FVec Ideal S1x8 .f32) (w : FVec Ideal S1x512 .f32)
    (i k : Fin 8) :
    k3_pay1 (F := Ideal) a s b w (ix2 i k) = if i = 0 then ∑ n : Fin 512, w (ix2 0 n) * hK (aggK a s b) n k else 0 := by
  rw [pay_eq]
  simp only [mulf_apply]
  rw [maskK_apply, broadcastTo_apply _ broadcasts_S1x8_S8x8 (ix2 i k) (ix2 0 k) (fun a => by
    match a with
    | ⟨0, _⟩ => rfl
    | ⟨1, _⟩ => rfl), shapeCast_self, partK_apply]
  by_cases hi : i = 0
  · rw [if_pos hi, if_pos hi, one_mul]
  · rw [if_neg hi, if_neg hi, zero_mul]

/-! ## The target in the body's spelling -/

/-- The largest entry of row r of an 8192 × 8 matrix, folded from -∞. -/
private def rowMaxG (X : Cert.Gcn.Mat 8192 8) (r : Fin 8192) : EReal := (Finset.univ : Finset (Fin 8)).fold max ⊥ (fun j => X (ix2 r j))

/-- The row-wise log-softmax shifted by the row's maximum: x_k - (log Σ_j exp (x_j - M) + M). -/
private def lsmShift (X : Cert.Gcn.Mat 8192 8) : Cert.Gcn.Mat 8192 8 :=
  fun i => X i - (Ideal.log (∑ j : Fin 8, Ideal.exp (X (ix2 (n0 := 8192) (n1 := 8) (i 0) j) - rowMaxG X (i 0))) + rowMaxG X (i 0))

/-- On real entries the shift cancels. -/
private theorem lsmShift_eq (X : Cert.Gcn.Mat 8192 8) (hX : Cert.Gcn.IsReal X) : lsmShift X = Cert.Gcn.lsm X :=
  Cert.Gcn.lsm_shift_outer X hX (rowMaxG X) (fun r => Cert.Gcn.fold_max_isReal (fun j => X (ix2 r j)) (fun j => hX _))

/-- Row 8 t + i of the partial readouts: block t's sum when i = 0, zero otherwise. -/
private theorem partials_row (H : Cert.Gcn.Mat 8192 8) (Wlin : Cert.Gcn.Mat 1 8192) (tv : Nat) (ht : tv < 16) (i k : Fin 8) :
    Cert.Gcn.partials H Wlin (ix2 (n0 := 128) (n1 := 8) ⟨8 * tv + i.val, by have := i.isLt; omega⟩ k)
      = if i = 0 then ∑ n : Fin 512, Wlin (ix2 (n0 := 1) (n1 := 8192) 0 ⟨512 * tv + n.val, by have := n.isLt; omega⟩)
          * H (ix2 (n0 := 8192) (n1 := 8) ⟨512 * tv + n.val, by have := n.isLt; omega⟩ k) else 0 := by
  have hi := i.isLt
  unfold Cert.Gcn.partials
  show (if (8 * tv + i.val) % 8 = 0 then
      ∑ n : Fin 512, Wlin (ix2 (n0 := 1) (n1 := 8192) 0 ⟨512 * ((8 * tv + i.val) / 8) + n.val, _⟩)
        * H (ix2 (n0 := 8192) (n1 := 8) ⟨512 * ((8 * tv + i.val) / 8) + n.val, _⟩ k) else 0) = _
  by_cases h0 : i = 0
  · have hv : i.val = 0 := congrArg Fin.val h0
    rw [if_pos (by omega), if_pos h0]
    refine Finset.sum_congr rfl fun n _ => ?_
    have e : (⟨512 * ((8 * tv + i.val) / 8) + n.val, by have := n.isLt; omega⟩ : Fin 8192)
        = ⟨512 * tv + n.val, by have := n.isLt; omega⟩ := Fin.ext (by show 512 * ((8 * tv + i.val) / 8) + n.val = 512 * tv + n.val; omega)
    rw [e]
  · have hv : i.val ≠ 0 := fun h => h0 (Fin.ext h)
    rw [if_neg (by omega), if_neg h0]

/-! ## From the blocks to the array -/

private theorem hz : (![0, 0] : Fin 2 → Nat) = fun _ => 0 := funext fun a => by fin_cases a <;> rfl

/-- Which block each window reads at point t: the adjacency's and the output's move down their rows with t, the readout
    weights' along their row, the features and the bias stay. -/
private theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = t.val
    ∧ win3_4.index t (0 : Fin 2) = t.val ∧ win3_4.index t (1 : Fin 2) = 0 :=
  (by decide +kernel : ∀ t : Fin grid3.N, _)

/-- The adjacency's block at t is its rows 512 t … 512 t + 511. -/
private theorem blkA (c : Dev nD) (A : Cert.Gcn.Mat 8192 8192) (hA : V c (Pipeline.arrRef spec3 0) = A) (t : Fin cfg3.N) (n : Fin 512) (q : Fin 8192) :
    iblk3 (F := Ideal) V c 0 t (ix2 n q)
      = A (ix2 ⟨512 * t.val + n.val, by have ht : t.val < 16 := t.isLt; have := n.isLt; omega⟩ q) := by
  obtain ⟨e0, e1, -⟩ := idx_facts t
  show V c (Pipeline.arrRef spec3 0) (((cfg3.win 0).blk t).view.emb (ix2 n q)) = _
  rw [hA]
  refine congrArg A (funext fun a => Fin.ext ?_)
  match a with
  | ⟨0, _⟩ => show win3_0.index t (0 : Fin 2) * 512 + 1 * n.val = 512 * t.val + n.val; rw [e0]; omega
  | ⟨1, _⟩ => show win3_0.index t (1 : Fin 2) * 8192 + 1 * q.val = q.val; rw [e1]; omega

/-- The features' block is the whole array at every point. -/
private theorem blkS (c : Dev nD) (S : Cert.Gcn.Mat 8192 8) (hS : V c (Pipeline.arrRef spec3 1) = S) (t : Fin cfg3.N) (q : Fin 8192) (j : Fin 8) :
    iblk3 (F := Ideal) V c 1 t (ix2 q j) = S (ix2 q j) := by
  obtain ⟨-, -, e0, e1, -⟩ := idx_facts t
  show V c (Pipeline.arrRef spec3 1) (((cfg3.win 1).blk t).view.emb (ix2 q j)) = _
  rw [hS]
  refine congrArg S (funext fun a => Fin.ext ?_)
  match a with
  | ⟨0, _⟩ => show win3_1.index t (0 : Fin 2) * 8192 + 1 * q.val = q.val; rw [e0]; omega
  | ⟨1, _⟩ => show win3_1.index t (1 : Fin 2) * 8 + 1 * j.val = j.val; rw [e1]; omega

/-- The bias's block is the whole row at every point. -/
private theorem blkb (c : Dev nD) (b : Cert.Gcn.Mat 1 8) (hb : V c (Pipeline.arrRef spec3 2) = b) (t : Fin cfg3.N) (z : Fin 1) (j : Fin 8) :
    iblk3 (F := Ideal) V c 2 t (ix2 z j) = b (ix2 z j) := by
  obtain ⟨-, -, -, -, e0, e1, -⟩ := idx_facts t
  show V c (Pipeline.arrRef spec3 2) (((cfg3.win 2).blk t).view.emb (ix2 z j)) = _
  rw [hb]
  refine congrArg b (funext fun a => Fin.ext ?_)
  match a with
  | ⟨0, _⟩ => show win3_2.index t (0 : Fin 2) * 1 + 1 * z.val = z.val; rw [e0]; omega
  | ⟨1, _⟩ => show win3_2.index t (1 : Fin 2) * 8 + 1 * j.val = j.val; rw [e1]; omega

/-- The readout weights' block at t is their entries 512 t … 512 t + 511. -/
private theorem blkW (c : Dev nD) (Wlin : Cert.Gcn.Mat 1 8192) (hW : V c (Pipeline.arrRef spec3 3) = Wlin) (t : Fin cfg3.N) (z : Fin 1) (n : Fin 512) :
    iblk3 (F := Ideal) V c 3 t (ix2 z n)
      = Wlin (ix2 z ⟨512 * t.val + n.val, by have ht : t.val < 16 := t.isLt; have := n.isLt; omega⟩) := by
  obtain ⟨-, -, -, -, -, -, e0, e1, -⟩ := idx_facts t
  show V c (Pipeline.arrRef spec3 3) (((cfg3.win 3).blk t).view.emb (ix2 z n)) = _
  rw [hW]
  refine congrArg Wlin (funext fun a => Fin.ext ?_)
  match a with
  | ⟨0, _⟩ => show win3_3.index t (0 : Fin 2) * 1 + 1 * z.val = z.val; rw [e0]; omega
  | ⟨1, _⟩ => show win3_3.index t (1 : Fin 2) * 512 + 1 * n.val = 512 * t.val + n.val; rw [e1]; omega

/-- The output's block at t is rows 8 t … 8 t + 7. -/
private theorem emb_out (t : Fin cfg3.N) (i k : Fin 8) :
    ((cfg3.win 4).blk t).view.emb (ix2 i k)
      = ix2 (n0 := 128) (n1 := 8) ⟨8 * t.val + i.val, by have ht : t.val < 16 := t.isLt; have := i.isLt; omega⟩ k := by
  obtain ⟨-, -, -, -, -, -, -, -, e0, e1⟩ := idx_facts t
  funext a; apply Fin.ext
  match a with
  | ⟨0, _⟩ => show win3_4.index t (0 : Fin 2) * 8 + 1 * i.val = 8 * t.val + i.val; rw [e0]; omega
  | ⟨1, _⟩ => show win3_4.index t (1 : Fin 2) * 8 + 1 * k.val = k.val; rw [e1]; omega

/-- The block's aggregated features are the array's at the block's rows. -/
private theorem agg_blk (c : Dev nD) (A : Cert.Gcn.Mat 8192 8192) (S : Cert.Gcn.Mat 8192 8) (b : Cert.Gcn.Mat 1 8)
    (hA : V c (Pipeline.arrRef spec3 0) = A) (hS : V c (Pipeline.arrRef spec3 1) = S) (hb : V c (Pipeline.arrRef spec3 2) = b)
    (t : Fin cfg3.N) (n : Fin 512) (j : Fin 8) :
    aggK (iblk3 (F := Ideal) V c 0 t) (iblk3 (F := Ideal) V c 1 t) (iblk3 (F := Ideal) V c 2 t) (ix2 n j)
      = Cert.Gcn.addRow (Cert.Gcn.mm A S) (Cert.Gcn.rowOf b)
          (ix2 ⟨512 * t.val + n.val, by have ht : t.val < 16 := t.isLt; have := n.isLt; omega⟩ j) := by
  rw [aggK_apply]
  simp only [blkA V c A hA t, blkS V c S hS t, blkb V c b hb t]
  rfl

/-- So are the rows' maxima. -/
private theorem rowMax_blk (c : Dev nD) (A : Cert.Gcn.Mat 8192 8192) (S : Cert.Gcn.Mat 8192 8) (b : Cert.Gcn.Mat 1 8)
    (hA : V c (Pipeline.arrRef spec3 0) = A) (hS : V c (Pipeline.arrRef spec3 1) = S) (hb : V c (Pipeline.arrRef spec3 2) = b)
    (t : Fin cfg3.N) (n : Fin 512) :
    rowMax (aggK (iblk3 (F := Ideal) V c 0 t) (iblk3 (F := Ideal) V c 1 t) (iblk3 (F := Ideal) V c 2 t)) n
      = rowMaxG (Cert.Gcn.addRow (Cert.Gcn.mm A S) (Cert.Gcn.rowOf b))
          ⟨512 * t.val + n.val, by have ht : t.val < 16 := t.isLt; have := n.isLt; omega⟩ := by
  unfold rowMax rowMaxG
  exact congrArg (fun f => Finset.fold max ⊥ f (Finset.univ : Finset (Fin 8))) (funext fun j => agg_blk V c A S b hA hS hb t n j)

/-- And the shifted log-softmax. -/
private theorem hK_blk (c : Dev nD) (A : Cert.Gcn.Mat 8192 8192) (S : Cert.Gcn.Mat 8192 8) (b : Cert.Gcn.Mat 1 8)
    (hA : V c (Pipeline.arrRef spec3 0) = A) (hS : V c (Pipeline.arrRef spec3 1) = S) (hb : V c (Pipeline.arrRef spec3 2) = b)
    (t : Fin cfg3.N) (n : Fin 512) (k : Fin 8) :
    hK (aggK (iblk3 (F := Ideal) V c 0 t) (iblk3 (F := Ideal) V c 1 t) (iblk3 (F := Ideal) V c 2 t)) n k
      = lsmShift (Cert.Gcn.addRow (Cert.Gcn.mm A S) (Cert.Gcn.rowOf b))
          (ix2 ⟨512 * t.val + n.val, by have ht : t.val < 16 := t.isLt; have := n.isLt; omega⟩ k) := by
  unfold hK
  rw [rowMax_blk V c A S b hA hS hb t n]
  simp only [agg_blk V c A S b hA hS hb t n]
  rfl

/-- What point t stores at (i, k) is the target's entry (8 t + i, k). -/
private theorem blk_value (c : Dev nD) (A : Cert.Gcn.Mat 8192 8192) (S : Cert.Gcn.Mat 8192 8) (b : Cert.Gcn.Mat 1 8) (Wlin : Cert.Gcn.Mat 1 8192)
    (hA : V c (Pipeline.arrRef spec3 0) = A) (hS : V c (Pipeline.arrRef spec3 1) = S) (hb : V c (Pipeline.arrRef spec3 2) = b)
    (hW : V c (Pipeline.arrRef spec3 3) = Wlin) (t : Fin cfg3.N) (i k : Fin 8) :
    k3_pay1 (F := Ideal) (iblk3 V c 0 t) (iblk3 V c 1 t) (iblk3 V c 2 t) (iblk3 V c 3 t) (ix2 i k)
      = Cert.Gcn.partials (lsmShift (Cert.Gcn.addRow (Cert.Gcn.mm A S) (Cert.Gcn.rowOf b))) Wlin
          (ix2 (n0 := 128) (n1 := 8) ⟨8 * t.val + i.val, by have ht : t.val < 16 := t.isLt; have := i.isLt; omega⟩ k) := by
  have ht : t.val < 16 := t.isLt
  refine (pay_apply _ _ _ _ i k).trans ?_
  rw [partials_row _ _ t.val ht]
  by_cases h0 : i = 0
  · rw [if_pos h0, if_pos h0]
    refine Finset.sum_congr rfl fun n _ => ?_
    rw [blkW V c Wlin hW t 0 n, hK_blk V c A S b hA hS hb t n k]
  · rw [if_neg h0, if_neg h0]

/-- What point t writes back is block t of the target. -/
private theorem flushed_eq (c : Dev nD) (A : Cert.Gcn.Mat 8192 8192) (S : Cert.Gcn.Mat 8192 8) (b : Cert.Gcn.Mat 1 8) (Wlin : Cert.Gcn.Mat 1 8192)
    (hA : V c (Pipeline.arrRef spec3 0) = A) (hS : V c (Pipeline.arrRef spec3 1) = S) (hb : V c (Pipeline.arrRef spec3 2) = b)
    (hW : V c (Pipeline.arrRef spec3 3) = Wlin) (t : Fin cfg3.N) :
    (dat3 (F := Ideal) V c).flushed 4 t
      = ((cfg3.win 4).blk t).view.read (Elt Ideal)
          (Cert.Gcn.partials (lsmShift (Cert.Gcn.addRow (Cert.Gcn.mm A S) (Cert.Gcn.rowOf b))) Wlin) := by
  show (cfg3.win 4).cut (grid3.coords t) ((dat3 V c).after 4 t) = _
  rw [after3_4]
  unfold out3_4
  rw [View.canon_unit_zero hz]
  simp only [View.ld_unit_zero (S := S512x8192) hz, View.ld_unit_zero (S := S8192x8) hz, View.ld_unit_zero (S := S1x8) hz,
    View.ld_unit_zero (S := S1x512) hz]
  refine funext fun (j : S8x8.Idx) => ?_
  obtain ⟨i, k, rfl⟩ : ∃ (i : Fin 8) (k : Fin 8), j = ix2 i k := ⟨j 0, j 1, eq_ix2 j⟩
  show k3_pay1 (F := Ideal) (iblk3 V c 0 t) (iblk3 V c 1 t) (iblk3 V c 2 t) (iblk3 V c 3 t) (ix2 i k)
    = Cert.Gcn.partials (lsmShift (Cert.Gcn.addRow (Cert.Gcn.mm A S) (Cert.Gcn.rowOf b))) Wlin (((cfg3.win 4).blk t).view.emb (ix2 i k))
  rw [emb_out t i k]
  exact blk_value V c A S b Wlin hA hS hb hW t i k

/-- An index of the array is in point t's block iff each coordinate is in the block's range on its axis. -/
private theorem mem_blk (t : Fin cfg3.N) (i : S128x8.Idx) :
    i ∈ ((cfg3.win 4).blk t).view.set ↔ ∀ a : Fin 2, win3_4.index t a * S8x8.size a ≤ (i a).val ∧ (i a).val < win3_4.index t a * S8x8.size a + S8x8.size a := by
  show i ∈ ((View.whole main_v21).slice (win3_4.rect t)).set ↔ _
  rw [View.set_slice_whole, Rect.mem_set_unit]
  exact Iff.rfl

/-- Row r lies in the block of point r / 8. -/
private theorem cover (i : S128x8.Idx) : ∃ t : Fin cfg3.N, (cfg3.win 4).flush t = true ∧ i ∈ ((cfg3.win 4).blk t).view.set := by
  have hi0 : (i 0).val < 128 := (i 0).isLt
  have hi1 : (i 1).val < 8 := (i 1).isLt
  have hN : cfg3.N = 16 := rfl
  have hq : (i 0).val / 8 < cfg3.N := by rw [hN]; omega
  refine ⟨⟨(i 0).val / 8, hq⟩, flush3_4 _, ?_⟩
  rw [mem_blk]
  obtain ⟨-, -, -, -, -, -, -, -, e0, e1⟩ := idx_facts ⟨(i 0).val / 8, hq⟩
  have e0' : win3_4.index ⟨(i 0).val / 8, hq⟩ (0 : Fin 2) = (i 0).val / 8 := e0
  intro a
  match a with
  | ⟨0, _⟩ =>
    show win3_4.index ⟨(i 0).val / 8, hq⟩ (0 : Fin 2) * 8 ≤ (i 0).val ∧ (i 0).val < win3_4.index ⟨(i 0).val / 8, hq⟩ (0 : Fin 2) * 8 + 8
    rw [e0']; omega
  | ⟨1, _⟩ =>
    show win3_4.index ⟨(i 0).val / 8, hq⟩ (1 : Fin 2) * 8 ≤ (i 1).val ∧ (i 1).val < win3_4.index ⟨(i 0).val / 8, hq⟩ (1 : Fin 2) * 8 + 8
    rw [e1]; omega

/-- The output is the array of per-block partial readouts of the log-softmaxed features. -/
theorem final (c : Dev nD) (A : Cert.Gcn.Mat 8192 8192) (S : Cert.Gcn.Mat 8192 8) (b : Cert.Gcn.Mat 1 8) (Wlin : Cert.Gcn.Mat 1 8192)
    (hA : V c (Pipeline.arrRef spec3 0) = A) (hS : V c (Pipeline.arrRef spec3 1) = S) (hb : V c (Pipeline.arrRef spec3 2) = b)
    (hW : V c (Pipeline.arrRef spec3 3) = Wlin)
    (rA : Cert.Gcn.IsReal A) (rS : Cert.Gcn.IsReal S) (rb : Cert.Gcn.IsReal b) :
    (dat3 (F := Ideal) V c).arrAt 4 cfg3.N
      = Cert.Gcn.partials (Cert.Gcn.lsm (Cert.Gcn.addRow (Cert.Gcn.mm A S) (Cert.Gcn.rowOf b))) Wlin := by
  have hX : Cert.Gcn.IsReal (Cert.Gcn.addRow (Cert.Gcn.mm A S) (Cert.Gcn.rowOf b)) :=
    Cert.Gcn.isReal_addRow (Cert.Gcn.isReal_mm rA rS) (fun j => rb (ix2 (n0 := 1) (n1 := 8) 0 (j 0)))
  rw [← lsmShift_eq _ hX]
  exact (dat3 (F := Ideal) V c).arrAt_eq_of_cover 4 _ (fun t _ => flushed_eq V c A S b Wlin hA hS hb hW t) cover

end Cert.KernelIdeal.Region3

end
-- ==== Proof.HostPre.lean ====
/-
  The kernel's host prologue, read at the first launch's entry. The program wraps a negative node number n to n + 8192,
  pairs the destination and source numbers, and scatter-adds the edge weights into a zero 8192 × 8192 array, an update
  whose pair lies outside the array being dropped: with every destination ≥ 0 and every source in [0, 8192) no number is
  wrapped, and entry (r, c) ends as the sum of the weights of the edges with destination r and source c, the dense
  adjacency. The three bias vectors are reshaped to 1 × n, and the other arguments are untouched.
-/
import proofs.«403911_j69672959475883_2_alg».proof.Proof.Gen.KernelIdeal.Frame
import proofs.«403911_j69672959475883_2_alg».proof.Proof.SpecK
import Idealize.ShloMosaic.Lib.StableHlo.Run
import Idealize.ShloMosaic.Lib.StableHlo.Predicate
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HostPre

open Cert.KernelIdeal Cert.KernelIdeal.Gen Cert.Gcn
open Idealize.ShloMosaic Idealize.ShloMosaic.TcCoe Idealize.ShloMosaic.ValueIdx Idealize.ShloMosaic.StableHlo
open Idealize.SL Idealize.SL.Sem

variable (m : (ℓ : Loc nD τ sig) → Buf (Elt Ideal) ℓ) (ρ : Dev nD → PrngReg)

/-! ### The prologue's terms -/

/-- The wrap of a node number: n + 8192 where n < 0, else n. -/
private def wrap (w : IVec S262144 32) : IVec S262144 32 :=
  select (cmpi .slt w (broadcastInDim S262144 ![] bcast_S_S262144 (constantI S_ 32 0#32)))
    (addi w (broadcastInDim S262144 ![] bcast_S_S262144 (constantI S_ 32 8192#32))) w

/-- Two columns side by side. -/
private def pair (a b : IVec S262144x1 32) : IVec S262144x2 32 :=
  concatenate S262144x2 1 [⟨S262144x1, a⟩, ⟨S262144x1, b⟩] concatenates_S262144x1_S262144x1_S262144x2_d1

private theorem pair_def (a b : IVec S262144x1 32) :
    concatenate S262144x2 1 [⟨S262144x1, a⟩, ⟨S262144x1, b⟩] concatenates_S262144x1_S262144x1_S262144x2_d1 = pair a b := rfl

/-- A vector as a column. -/
private def colOf (w : IVec S262144 32) : IVec S262144x1 32 :=
  broadcastInDim S262144x1 ![0] bcast_S262144_S262144x1_0 w

/-- The scattered array as the program composes it from the destinations, sources and weights. -/
private def scat (row col : IVec S262144 32) (val : Row 262144) : Mat 8192 8192 :=
  Host.scatterAdd (F := Ideal) (φ := .f32) scatter_S8192x8192_S262144x2_S262144_n_01_01_1
    (broadcastInDim S8192x8192 ![] bcast_S_S8192x8192 (constant (F := Ideal) S_ .f32 0x00000000#32))
    (pair (colOf (wrap row)) (colOf (wrap col))) val

set_option maxHeartbeats 1000000 in
/-- The scatter's result buffer holds that composition of the three launch arguments. -/
private theorem v14_eq (c : Dev nD) :
    W1 (F := Ideal) m ρ c (Proc.devRef .tc main_v14)
      = scat (m ((c : Thread nD τ).loc main_arg1)) (m ((c : Thread nD τ).loc main_arg2)) (m ((c : Thread nD τ).loc main_arg3)) := by
  show StableHlo.after hostOps0 _ (Proc.devRef .tc main_v14) = _
  after_results_simp
  rw [pair_def]
  after_results_simp
  rfl

/-! ### Reading the terms -/

/-- A node number that is not negative is not wrapped. -/
private theorem wrap_eq (w : IVec S262144 32) (hw : ∀ e, 0 ≤ (w e).toInt) : wrap w = w := by
  funext e
  unfold wrap
  rw [select_apply]
  have h0 : cmpi .slt w (broadcastInDim S262144 ![] bcast_S_S262144 (constantI S_ 32 0#32)) e = 0#1 := by
    show BitVec.ofBool (decide ((w e).toInt < (0#32).toInt)) = 0#1
    have hn : ¬ ((w e).toInt < (0#32).toInt) := by
      rw [BitVec.toInt_zero]; exact not_lt.2 (hw e)
    rw [decide_eq_false hn]; rfl
  rw [h0, select_zero]

/-- A vector as an n × 1 column reads, at (p, ·), the vector at p. -/
private theorem colOf_apply (w : IVec S262144 32) (j : S262144x1.Idx) : colOf w j = w (ix1 (j 0 : Fin 262144)) := by
  unfold colOf
  simp only [broadcastInDim]
  congr 1
  funext a
  have ha : a = 0 := Subsingleton.elim _ _
  subst ha
  rfl

/-- The pair array: column 0 is the first vector, column 1 the second. -/
private theorem pair_zero (r c : IVec S262144 32) (e : Fin 262144) :
    pair (colOf r) (colOf c) (ix2 e (0 : Fin 2)) = r (ix1 e) := by
  unfold pair
  rw [concatenate_pair_apply_left (1 : Fin 2) (colOf r) (colOf c) concatenates_S262144x1_S262144x1_S262144x2_d1
    (ix2 e (0 : Fin 2)) rfl (ix2 e (0 : Fin 1)) (by intro b; match b with | ⟨0, _⟩ => rfl | ⟨1, _⟩ => rfl)]
  exact colOf_apply r _

private theorem pair_one (r c : IVec S262144 32) (e : Fin 262144) :
    pair (colOf r) (colOf c) (ix2 e (1 : Fin 2)) = c (ix1 e) := by
  unfold pair
  rw [concatenate_pair_apply_right (1 : Fin 2) (colOf r) (colOf c) concatenates_S262144x1_S262144x1_S262144x2_d1
    (ix2 e (1 : Fin 2)) rfl rfl (ix2 e (0 : Fin 1))
    (by intro b hb; match b, hb with | ⟨0, _⟩, _ => rfl | ⟨1, _⟩, hb => exact absurd rfl hb) rfl]
  exact colOf_apply c _

/-! ### Where an update lands -/

/-- An update lands at i exactly when its start plus its window coordinate is i's coordinate on every axis. -/
private theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  constructor
  · intro h
    split at h
    · next hh =>
      intro a
      have h1 := congrArg Fin.val (congrFun (Option.some.inj h) a)
      have h3 := hh a
      simp only at h1
      omega
    · exact absurd h (by simp)
  · intro h
    have hh : ∀ a, 0 ≤ d.start j idx a + (d.window j a : Int) ∧ d.start j idx a + (d.window j a : Int) < s.size a := by
      intro a
      rw [h a]
      exact ⟨Int.natCast_nonneg _, by exact_mod_cast (i a).isLt⟩
    rw [dif_pos hh]
    congr 1
    funext a
    apply Fin.ext
    show (d.start j idx a + (d.window j a : Int)).toNat = (i a).val
    rw [h a]; exact Int.toNat_natCast _

/-- The scatter's dimension numbers. -/
private abbrev dS : ScatterDims S8192x8192 S262144x2 S262144 := scatter_S8192x8192_S262144x2_S262144_n_01_01_1

/-- On axis 0 update e starts at the pair's column 0 read signed, with no window offset. -/
private theorem land0 (j : S262144.Idx) (idx : IVec S262144x2 32) :
    dS.start j idx (0 : Fin 2) + (dS.window j (0 : Fin 2) : Int) = (idx (ix2 (j 0 : Fin 262144) (0 : Fin 2))).toInt := by
  have hw : dS.window j (0 : Fin 2) = 0 := by unfold ScatterDims.window; exact dif_neg (by decide)
  have hs : dS.start j idx (0 : Fin 2) = (idx (ix2 (j 0 : Fin 262144) (0 : Fin 2))).toInt := by
    unfold ScatterDims.start
    rw [dif_pos (by decide)]
    refine congrArg (fun x => (idx x).toInt) ?_
    funext b
    match b with
    | ⟨0, _⟩ => rfl
    | ⟨1, _⟩ => rfl
  rw [hw, hs]; simp

/-- On axis 1 it starts at the pair's column 1. -/
private theorem land1 (j : S262144.Idx) (idx : IVec S262144x2 32) :
    dS.start j idx (1 : Fin 2) + (dS.window j (1 : Fin 2) : Int) = (idx (ix2 (j 0 : Fin 262144) (1 : Fin 2))).toInt := by
  have hw : dS.window j (1 : Fin 2) = 0 := by unfold ScatterDims.window; exact dif_neg (by decide)
  have hs : dS.start j idx (1 : Fin 2) = (idx (ix2 (j 0 : Fin 262144) (1 : Fin 2))).toInt := by
    unfold ScatterDims.start
    rw [dif_pos (by decide)]
    refine congrArg (fun x => (idx x).toInt) ?_
    funext b
    match b with
    | ⟨0, _⟩ => rfl
    | ⟨1, _⟩ => rfl
  rw [hw, hs]; simp

/-- Update e lands at (r, c) exactly when the pair's row e, read signed, is (r, c). -/
private theorem lands_iff (j : S262144.Idx) (idx : IVec S262144x2 32) (i : S8192x8192.Idx) :
    dS.resultIdx? j idx = some i ↔
      (idx (ix2 (j 0 : Fin 262144) (0 : Fin 2))).toInt = ((i 0).val : Int)
        ∧ (idx (ix2 (j 0 : Fin 262144) (1 : Fin 2))).toInt = ((i 1).val : Int) := by
  rw [resultIdx?_eq_some_iff]
  constructor
  · intro h
    exact ⟨(land0 j idx).symm.trans (h 0), (land1 j idx).symm.trans (h 1)⟩
  · intro h a
    match a with
    | ⟨0, _⟩ => exact (land0 j idx).trans h.1
    | ⟨1, _⟩ => exact (land1 j idx).trans h.2

/-! ### The sum -/

/-- A rank-1 index is its coordinate. -/
private def idx1Equiv (n : Nat) : (⟨1, ![n]⟩ : Shape).Idx ≃ Fin n where
  toFun j := j 0
  invFun e := ix1 e
  left_inv j := (eq_ix1 j).symm
  right_inv _ := rfl

/-- With no number wrapped, the scattered array is the dense adjacency. -/
private theorem scat_eq_adj (row col : Words 262144) (val : Row 262144)
    (hrow : ∀ e, 0 ≤ (row e).toInt) (hcol : ∀ e, 0 ≤ (col e).toInt) :
    scat row col val = adj row col val := by
  funext i
  unfold scat
  rw [wrap_eq row hrow, wrap_eq col hcol]
  show Ideal.hostScatterAdd dS _ _ val i = _
  unfold Ideal.hostScatterAdd
  rw [show broadcastInDim S8192x8192 ![] bcast_S_S8192x8192 (constant (F := Ideal) S_ .f32 0x00000000#32) i = 0
    from Ideal.ofBits_zero_f32, zero_add]
  unfold adj
  refine Finset.sum_equiv (idx1Equiv 262144) ?_ ?_
  · intro j
    simp only [Finset.mem_filter, Finset.mem_univ, true_and]
    refine (lands_iff j _ i).trans ?_
    exact Iff.of_eq (congrArg₂ And
      (congrArg (fun x : BitVec 32 => x.toInt = ((i 0).val : Int)) (pair_zero row col (j 0 : Fin 262144)))
      (congrArg (fun x : BitVec 32 => x.toInt = ((i 1).val : Int)) (pair_one row col (j 0 : Fin 262144))))
  · intro j _
    exact congrArg val (eq_ix1 j)

/-- The scattered array is the dense adjacency. -/
theorem adj_eq (c : Dev nD) (row col : Words 262144) (val : Row 262144)
    (hr : m ((c : Thread nD τ).loc main_arg1) = row) (hc : m ((c : Thread nD τ).loc main_arg2) = col)
    (hv : m ((c : Thread nD τ).loc main_arg3) = val)
    (hrow : ∀ e, 0 ≤ (row e).toInt) (hcol : ∀ e, 0 ≤ (col e).toInt ∧ (col e).toInt < 8192) :
    W1 (F := Ideal) m ρ c (Proc.devRef .tc main_v14) = adj row col val := by
  rw [v14_eq m ρ c, hr, hc, hv]
  exact scat_eq_adj row col val hrow (fun e => (hcol e).1)

/-- A vector reshaped to one row, read back as a vector, is the vector. -/
private theorem rowOf_shapeCast {n : Nat} (x : Row n) (h : (⟨1, ![n]⟩ : Shape).ShapeCasts ⟨2, ![1, n]⟩) :
    rowOf (fun i => shapeCast ⟨2, ![1, n]⟩ x h i) = x := by
  funext j
  exact (shapeCast_a_1a_apply x h (0 : Fin 1) (j 0 : Fin n)).trans (congrArg x (eq_ix1 j).symm)

/-- The reshaped biases, read back as vectors. -/
theorem b1_eq (c : Dev nD) (b : Row 64) (hb : m ((c : Thread nD τ).loc main_arg5) = b) :
    rowOf (W1 (F := Ideal) m ρ c (Proc.devRef .tc main_v15)) = b := by
  have h : W1 (F := Ideal) m ρ c (Proc.devRef .tc main_v15)
      = fun i => shapeCast S1x64 (m ((c : Thread nD τ).loc main_arg5)) shapeCasts_S64_S1x64 i := by
    show StableHlo.after hostOps0 _ (Proc.devRef .tc main_v15) = _
    after_results
    rfl
  rw [h, hb]
  exact rowOf_shapeCast b _

theorem b2_eq (c : Dev nD) (b : Row 64) (hb : m ((c : Thread nD τ).loc main_arg7) = b) :
    rowOf (W1 (F := Ideal) m ρ c (Proc.devRef .tc main_v16)) = b := by
  have h : W1 (F := Ideal) m ρ c (Proc.devRef .tc main_v16)
      = fun i => shapeCast S1x64 (m ((c : Thread nD τ).loc main_arg7)) shapeCasts_S64_S1x64 i := by
    show StableHlo.after hostOps0 _ (Proc.devRef .tc main_v16) = _
    after_results
    rfl
  rw [h, hb]
  exact rowOf_shapeCast b _

theorem b3_eq (c : Dev nD) (b : Row 8) (hb : m ((c : Thread nD τ).loc main_arg9) = b) :
    rowOf (W1 (F := Ideal) m ρ c (Proc.devRef .tc main_v17)) = b := by
  have h : W1 (F := Ideal) m ρ c (Proc.devRef .tc main_v17)
      = fun i => shapeCast S1x8 (m ((c : Thread nD τ).loc main_arg9)) shapeCasts_S8_S1x8 i := by
    show StableHlo.after hostOps0 _ (Proc.devRef .tc main_v17) = _
    after_results
    rfl
  rw [h, hb]
  exact rowOf_shapeCast b _

/-- A reference no operation of the prologue writes keeps its launch contents. -/
local macro "untouched" : tactic =>
  `(tactic| (refine (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl))

/-- The prologue writes none of the arguments the launches read. -/
theorem arg0_eq (c : Dev nD) : W1 (F := Ideal) m ρ c (Proc.devRef .tc main_arg0) = m ((c : Thread nD τ).loc main_arg0) := by
  untouched
theorem arg4_eq (c : Dev nD) : W1 (F := Ideal) m ρ c (Proc.devRef .tc main_arg4) = m ((c : Thread nD τ).loc main_arg4) := by
  untouched
theorem arg6_eq (c : Dev nD) : W1 (F := Ideal) m ρ c (Proc.devRef .tc main_arg6) = m ((c : Thread nD τ).loc main_arg6) := by
  untouched
theorem arg8_eq (c : Dev nD) : W1 (F := Ideal) m ρ c (Proc.devRef .tc main_arg8) = m ((c : Thread nD τ).loc main_arg8) := by
  untouched
theorem arg10_eq (c : Dev nD) : W1 (F := Ideal) m ρ c (Proc.devRef .tc main_arg10) = m ((c : Thread nD τ).loc main_arg10) := by
  untouched
theorem arg11_eq (c : Dev nD) : W1 (F := Ideal) m ρ c (Proc.devRef .tc main_arg11) = m ((c : Thread nD τ).loc main_arg11) := by
  untouched

end Cert.KernelIdeal.HostPre

end
-- ==== Proof.Tail.lean ====
/-
  The kernel's host epilogue: the 128 rows of per-block partial readouts are summed column by column (from zero) and
  blin is added. Only every eighth row is nonzero and holds a block's share, and the sixteen blocks' shares are the sum over
  all 8192 nodes, so the result is the readout Σ_n Wlin n · H n k + blin.
-/
import proofs.«403911_j69672959475883_2_alg».proof.Proof.Gen.KernelIdeal
import proofs.«403911_j69672959475883_2_alg».proof.Proof.SpecK
import proofs.«403911_j69672959475883_2_alg».proof.Proof.MathFinal
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Tail

open Cert.KernelIdeal Cert.KernelIdeal.Gen Cert.Gcn
open Idealize.ShloMosaic Idealize.ShloMosaic.ValueIdx

/-- The epilogue applied to the array of partial readouts is the readout. -/
theorem epilogue_eq (H : Mat 8192 8) (Wlin : Mat 1 8192) (blin : Row 1) :
    addf (F := Ideal)
        (broadcastInDim S1x8 ![1] bcast_S8_S1x8_1
          (Host.reduceAdd (F := Ideal) (partials H Wlin) (constant (F := Ideal) S_ .f32 0x00000000#32) reducesTo_S128x8_S8_d0 h_S_))
        (broadcastInDim S1x8 ![0, 1] bcast_S1x1_S1x8_0_1 (broadcastInDim S1x1 ![1] bcast_S1_S1x1_1 blin))
      = readoutWH H Wlin blin := by
  funext i
  obtain ⟨z, k, rfl⟩ : ∃ (z : Fin 1) (k : Fin 8), i = ix2 z k := ⟨i 0, i 1, eq_ix2 i⟩
  -- the sixteen blocks' shares, summed over the 128 rows, are the sum over all 8192 nodes
  have key : ∑ j : Fin 128, partials H Wlin (ix2 (n0 := 128) (n1 := 8) j k)
      = ∑ n : Fin 8192, Wlin (ix2 (n0 := 1) (n1 := 8192) 0 n) * H (ix2 (n0 := 8192) (n1 := 8) n k) :=
    (sum_every_eighth (fun t : Fin 16 => ∑ n : Fin 512,
        (fun m : Fin 8192 => Wlin (ix2 (n0 := 1) (n1 := 8192) 0 m) * H (ix2 (n0 := 8192) (n1 := 8) m k))
          ⟨512 * t.val + n.val, by have := t.isLt; have := n.isLt; omega⟩)).trans
      (sum_blocks_512 (fun m : Fin 8192 => Wlin (ix2 (n0 := 1) (n1 := 8192) 0 m) * H (ix2 (n0 := 8192) (n1 := 8) m k)))
  -- the reduced axis's coordinate is the row
  have hsum : ∀ h : S128x8.Reduces [0] S8, ∑ j : Fin 128, partials H Wlin (h.lift (ix1 k) j)
      = ∑ j : Fin 128, partials H Wlin (ix2 (n0 := 128) (n1 := 8) j k) := fun h =>
    Finset.sum_congr rfl fun j _ => congrArg (partials H Wlin)
      (funext fun a => Fin.ext (by match a with | ⟨0, _⟩ => rfl | ⟨1, _⟩ => rfl))
  rw [addf_apply]
  rw [broadcastInDim_apply _ bcast_S8_S1x8_1 _ (ix2 z k) (ix1 k) (fun a => match a with
    | ⟨0, _⟩ => by show k.val = if (8 : Nat) = 1 then 0 else k.val; rw [if_neg (by decide)])]
  rw [broadcastInDim_apply _ bcast_S1x1_S1x8_0_1 _ (ix2 z k) (ix2 (0 : Fin 1) (0 : Fin 1)) (fun a => match a with
    | ⟨0, _⟩ => by show 0 = if (1 : Nat) = 1 then 0 else z.val; rw [if_pos rfl]
    | ⟨1, _⟩ => by show 0 = if (1 : Nat) = 1 then 0 else k.val; rw [if_pos rfl])]
  rw [broadcastInDim_apply _ bcast_S1_S1x1_1 _ (ix2 (0 : Fin 1) (0 : Fin 1)) (ix1 (0 : Fin 1)) (fun a => match a with
    | ⟨0, _⟩ => by show 0 = if (1 : Nat) = 1 then 0 else 0; rw [if_pos rfl])]
  simp only [Host.reduceAdd, Ideal.hostReduceAdd_def]
  rw [Ideal.hostReduceAdd_single reducesTo_S128x8_S8_d0 (by decide), constant_apply, Ideal.ofBits_zero_f32, zero_add]
  unfold readoutWH
  exact congrArg (· + blin (ix1 (n := 1) 0)) ((hsum _).trans key)

end Cert.KernelIdeal.Tail

end
-- ==== Proof.Thread.lean ====
/-
  What the kernel program's result buffer ends holding, followed through the program: the host prologue builds the dense
  adjacency A and reshapes the biases; the first launch leaves x · W1; the second copies A and leaves
  relu (A · (x · W1) + b1) · W2; the third leaves relu (A · that + b2) · W3; the fourth leaves the per-block partial
  readouts of the log-softmaxed A · that + b3; the host epilogue sums them and adds blin. Each launch reads arrays an
  earlier item wrote and no later item has touched, so each is read back through the boundaries to where it was written.
-/
import proofs.«403911_j69672959475883_2_alg».proof.Proof.Gen.KernelIdeal.Frame
import proofs.«403911_j69672959475883_2_alg».proof.Proof.Region0
import proofs.«403911_j69672959475883_2_alg».proof.Proof.Region1
import proofs.«403911_j69672959475883_2_alg».proof.Proof.Region2
import proofs.«403911_j69672959475883_2_alg».proof.Proof.Region3
import proofs.«403911_j69672959475883_2_alg».proof.Proof.HostPre
import proofs.«403911_j69672959475883_2_alg».proof.Proof.Tail
import proofs.«403911_j69672959475883_2_alg».proof.Proof.MathFinal
import Idealize.ShloMosaic.Lib.StableHlo.Run

set_option maxRecDepth 16384

noncomputable section

namespace Cert.KernelIdeal.Thread

open Cert.KernelIdeal Cert.KernelIdeal.Gen Cert.Gcn
open Idealize.ShloMosaic Idealize.ShloMosaic.TcCoe Idealize.ShloMosaic.ValueIdx Idealize.ShloMosaic.StableHlo
open Idealize.SL Idealize.SL.Sem
open Idealize.ShloMosaic.Pipeline (Dat Cfg Window)

/-- A 1 × c matrix whose single row is real is real. -/
theorem isReal_of_rowOf {c : Nat} (b : Mat 1 c) (h : IsReal (rowOf b)) : IsReal b := by
  intro i
  obtain ⟨z, k, rfl⟩ : ∃ (z : Fin 1) (k : Fin c), i = ix2 z k := ⟨i 0, i 1, eq_ix2 i⟩
  obtain ⟨y, hy⟩ := h (ix1 k)
  have hz : z = 0 := Subsingleton.elim _ _
  subst hz
  exact ⟨y, hy⟩

variable (m : (ℓ : Loc nD τ sig) → Buf (Elt Ideal) ℓ) (ρ : Dev nD → PrngReg)

/-- The result buffer after the run is the readout of the dense network over the arguments. -/
theorem result_eq (c : Dev nD) (x : Mat 8192 8192) (row col : Words 262144) (val : Row 262144) (W1' : Mat 8192 64) (b1 : Row 64)
    (W2' : Mat 64 64) (b2 : Row 64) (W3' : Mat 64 8) (b3 : Row 8) (Wlin : Mat 1 8192) (blin : Row 1)
    (h0 : m ((c : Thread nD τ).loc main_arg0) = x) (h1 : m ((c : Thread nD τ).loc main_arg1) = row)
    (h2 : m ((c : Thread nD τ).loc main_arg2) = col) (h3 : m ((c : Thread nD τ).loc main_arg3) = val)
    (h4 : m ((c : Thread nD τ).loc main_arg4) = W1') (h5 : m ((c : Thread nD τ).loc main_arg5) = b1)
    (h6 : m ((c : Thread nD τ).loc main_arg6) = W2') (h7 : m ((c : Thread nD τ).loc main_arg7) = b2)
    (h8 : m ((c : Thread nD τ).loc main_arg8) = W3') (h9 : m ((c : Thread nD τ).loc main_arg9) = b3)
    (h10 : m ((c : Thread nD τ).loc main_arg10) = Wlin) (h11 : m ((c : Thread nD τ).loc main_arg11) = blin)
    (rx : IsReal x) (rv : IsReal val) (rW1 : IsReal W1') (rb1 : IsReal b1) (rW2 : IsReal W2') (rb2 : IsReal b2)
    (rW3 : IsReal W3') (rb3 : IsReal b3)
    (hrow : ∀ e, 0 ≤ (row e).toInt) (hcol : ∀ e, 0 ≤ (col e).toInt ∧ (col e).toInt < 8192) :
    W6 (F := Ideal) m ρ c (Proc.devRef .tc main_v26)
      = readoutWH (logitsDense x (adj row col val) W1' b1 W2' b2 W3' b3) Wlin blin := by
  -- the first launch's entry
  have eA1 : W1 (F := Ideal) m ρ c (Proc.devRef .tc main_v14) = adj row col val := HostPre.adj_eq m ρ c row col val h1 h2 h3 hrow hcol
  have ex1 : W1 (F := Ideal) m ρ c (Proc.devRef .tc main_arg0) = x := (HostPre.arg0_eq m ρ c).trans h0
  have eW1 : W1 (F := Ideal) m ρ c (Proc.devRef .tc main_arg4) = W1' := (HostPre.arg4_eq m ρ c).trans h4
  -- the first launch: x · W1
  have e18 : W2 (F := Ideal) m ρ c (Proc.devRef .tc main_v18) = mm x W1' :=
    (W2_arr m ρ c 2).trans (Region0.final (V1 m ρ) c x W1' ex1 eW1)
  -- the second launch's entry
  have eA2 : W2 (F := Ideal) m ρ c (Proc.devRef .tc main_v14) = adj row col val := (W2_of_ne m ρ c main_v14 (by decide)).trans eA1
  have eb1 : rowOf (W2 (F := Ideal) m ρ c (Proc.devRef .tc main_v15)) = b1 := by
    rw [W2_of_ne m ρ c main_v15 (by decide)]; exact HostPre.b1_eq m ρ c b1 h5
  have eW2 : W2 (F := Ideal) m ρ c (Proc.devRef .tc main_arg6) = W2' :=
    (W2_of_ne m ρ c main_arg6 (by decide)).trans ((HostPre.arg6_eq m ρ c).trans h6)
  -- the second launch: the copy of A, and relu (A · (x · W1) + b1) · W2
  have e190 : W3 (F := Ideal) m ρ c (Proc.devRef .tc main_v19_0) = adj row col val :=
    (W3_arr m ρ c 4).trans (Region1.final_copy (V2 m ρ) c _ eA2)
  have e191 : W3 (F := Ideal) m ρ c (Proc.devRef .tc main_v19_1)
      = mm (relu (addRow (mm (adj row col val) (mm x W1')) b1)) W2' := by
    rw [W3_arr m ρ c 5, Region1.final (V2 m ρ) c _ _ _ _ eA2 e18 rfl eW2, eb1]
  -- the third launch's entry
  have eb2 : rowOf (W3 (F := Ideal) m ρ c (Proc.devRef .tc main_v16)) = b2 := by
    rw [W3_of_ne m ρ c main_v16 (by decide), W2_of_ne m ρ c main_v16 (by decide)]; exact HostPre.b2_eq m ρ c b2 h7
  have eW3 : W3 (F := Ideal) m ρ c (Proc.devRef .tc main_arg8) = W3' :=
    (W3_of_ne m ρ c main_arg8 (by decide)).trans ((W2_of_ne m ρ c main_arg8 (by decide)).trans ((HostPre.arg8_eq m ρ c).trans h8))
  -- the third launch: the features entering the last aggregation
  have e20 : W4 (F := Ideal) m ρ c (Proc.devRef .tc main_v20) = support3Dense x (adj row col val) W1' b1 W2' b2 W3' := by
    rw [W4_arr m ρ c 4, Region2.final (V3 m ρ) c _ _ _ _ e190 e191 rfl eW3, eb2]; rfl
  -- the fourth launch's entry
  have eA4 : W4 (F := Ideal) m ρ c (Proc.devRef .tc main_v19_0) = adj row col val :=
    (W4_arr m ρ c 0).trans ((((dat2 (V3 m ρ) c).arrAt_in 0 rfl _).trans (A_eq2 (V3 m ρ) c 0)).trans e190)
  have eb3 : rowOf (W4 (F := Ideal) m ρ c (Proc.devRef .tc main_v17)) = b3 := by
    rw [W4_of_ne m ρ c main_v17 (by decide), W3_of_ne m ρ c main_v17 (by decide), W2_of_ne m ρ c main_v17 (by decide)]
    exact HostPre.b3_eq m ρ c b3 h9
  have eWl : W4 (F := Ideal) m ρ c (Proc.devRef .tc main_arg10) = Wlin :=
    (W4_of_ne m ρ c main_arg10 (by decide)).trans ((W3_of_ne m ρ c main_arg10 (by decide)).trans
      ((W2_of_ne m ρ c main_arg10 (by decide)).trans ((HostPre.arg10_eq m ρ c).trans h10)))
  -- the fourth launch: the per-block partial readouts
  have rA : IsReal (adj row col val) := isReal_adj row col rv
  have rS : IsReal (support3Dense x (adj row col val) W1' b1 W2' b2 W3') :=
    isReal_support3Dense x _ W1' b1 W2' b2 W3' rx rA rW1 rb1 rW2 rb2 rW3
  have rB3 : IsReal (W4 (F := Ideal) m ρ c (Proc.devRef .tc main_v17) : Mat 1 8) := isReal_of_rowOf _ (by rw [eb3]; exact rb3)
  have e21 : W5 (F := Ideal) m ρ c (Proc.devRef .tc main_v21)
      = partials (logitsDense x (adj row col val) W1' b1 W2' b2 W3' b3) Wlin := by
    rw [W5_arr m ρ c 4, Region3.final (V4 m ρ) c _ _ _ _ eA4 e20 rfl eWl rA rS rB3, eb3]; rfl
  -- the epilogue's other operand
  have ebl : W5 (F := Ideal) m ρ c (Proc.devRef .tc main_arg11) = blin :=
    (W5_of_ne m ρ c main_arg11 (by decide)).trans ((W4_of_ne m ρ c main_arg11 (by decide)).trans
      ((W3_of_ne m ρ c main_arg11 (by decide)).trans ((W2_of_ne m ρ c main_arg11 (by decide)).trans
        ((HostPre.arg11_eq m ρ c).trans h11))))
  -- the host epilogue
  have hW6 : W6 (F := Ideal) m ρ c (Proc.devRef .tc main_v26)
      = addf (F := Ideal)
          (broadcastInDim S1x8 ![1] bcast_S8_S1x8_1
            (Host.reduceAdd (F := Ideal) (W5 (F := Ideal) m ρ c (Proc.devRef .tc main_v21)) (constant (F := Ideal) S_ .f32 0x00000000#32)
              reducesTo_S128x8_S8_d0 h_S_))
          (broadcastInDim S1x8 ![0, 1] bcast_S1x1_S1x8_0_1
            (broadcastInDim S1x1 ![1] bcast_S1_S1x1_1 (W5 (F := Ideal) m ρ c (Proc.devRef .tc main_arg11)))) := by
    show StableHlo.after hostOps4 (W5 (F := Ideal) m ρ c) (Proc.devRef .tc main_v26) = _
    after_results
  rw [hW6, e21, ebl]
  exact Tail.epilogue_eq _ Wlin blin

end Cert.KernelIdeal.Thread

end
-- ==== Proof.RefOpsA.lean ====
/-
  The reference's dense pieces read as the network's operations: each host matrix product is the sum over the contracted
  index, a bias added through two broadcasts is the bias added to every row, and the maximum with a broadcast zero is relu.
-/
import proofs.«403911_j69672959475883_2_alg».proof.Proof.Gen.ReferenceIdeal
import proofs.«403911_j69672959475883_2_alg».proof.Proof.MathFinal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefOps

open Cert.ReferenceIdeal Cert.ReferenceIdeal.Gen Cert.Gcn
open Idealize.ShloMosaic Idealize.ShloMosaic.ValueIdx

/-- The first product's operand indices at output index i and contraction index q, axis by axis. -/
theorem lhs_xW1_0 (i : S8192x64.Idx) (q : dot_S8192x8192_S8192x64_S8192x64_1_0_0_1_n_n.contr.Idx) :
    (dot_S8192x8192_S8192x64_S8192x64_1_0_0_1_n_n.lhsIdx i q 0).val = (i 0).val := by
  unfold DotDims.lhsIdx
  rw [dif_neg (show ¬(0 : Fin S8192x8192.rank) ∈ dot_S8192x8192_S8192x64_S8192x64_1_0_0_1_n_n.lhsBatch by decide), dif_pos (show (0 : Fin S8192x8192.rank) ∈ dot_S8192x8192_S8192x64_S8192x64_1_0_0_1_n_n.lhsNonContracting by decide)]
  rfl
theorem lhs_xW1_1 (i : S8192x64.Idx) (q : dot_S8192x8192_S8192x64_S8192x64_1_0_0_1_n_n.contr.Idx) :
    (dot_S8192x8192_S8192x64_S8192x64_1_0_0_1_n_n.lhsIdx i q 1).val = (q ⟨0, by decide⟩).val :=
  dot_S8192x8192_S8192x64_S8192x64_1_0_0_1_n_n.lhsIdx_val_of_single rfl i q
theorem rhs_xW1_0 (i : S8192x64.Idx) (q : dot_S8192x8192_S8192x64_S8192x64_1_0_0_1_n_n.contr.Idx) :
    (dot_S8192x8192_S8192x64_S8192x64_1_0_0_1_n_n.rhsIdx i q 0).val = (q ⟨0, by decide⟩).val :=
  dot_S8192x8192_S8192x64_S8192x64_1_0_0_1_n_n.rhsIdx_val_of_single rfl i q
theorem rhs_xW1_1 (i : S8192x64.Idx) (q : dot_S8192x8192_S8192x64_S8192x64_1_0_0_1_n_n.contr.Idx) :
    (dot_S8192x8192_S8192x64_S8192x64_1_0_0_1_n_n.rhsIdx i q 1).val = (i 1).val := by
  unfold DotDims.rhsIdx
  rw [dif_neg (show ¬(1 : Fin S8192x64.rank) ∈ dot_S8192x8192_S8192x64_S8192x64_1_0_0_1_n_n.rhsBatch by decide), dif_pos (show (1 : Fin S8192x64.rank) ∈ dot_S8192x8192_S8192x64_S8192x64_1_0_0_1_n_n.rhsNonContracting by decide)]
  rfl

theorem dot_x_W1 (L : FVec Ideal S8192x8192 .f32) (R : FVec Ideal S8192x64 .f32) :
    Host.dotGeneral (F := Ideal) dot_S8192x8192_S8192x64_S8192x64_1_0_0_1_n_n none L R = mm (r := 8192) (k := 8192) (c := 64) L R := by
  funext i
  obtain ⟨p, q, rfl⟩ : ∃ (p : Fin 8192) (q : Fin 64), i = ix2 p q := ⟨i 0, i 1, eq_ix2 i⟩
  simp only [Host.dotGeneral]
  rw [Ideal.dotGeneral_apply, ← Equiv.sum_comp (ValueIdx.contrEquiv1 dot_S8192x8192_S8192x64_S8192x64_1_0_0_1_n_n 8192 rfl rfl).symm]
  unfold mm
  refine Finset.sum_congr rfl fun k _ => ?_
  have hk := ValueIdx.contrEquiv1_symm_val dot_S8192x8192_S8192x64_S8192x64_1_0_0_1_n_n 8192 rfl rfl k
  have el : dot_S8192x8192_S8192x64_S8192x64_1_0_0_1_n_n.lhsIdx (ix2 p q) ((ValueIdx.contrEquiv1 dot_S8192x8192_S8192x64_S8192x64_1_0_0_1_n_n 8192 rfl rfl).symm k) = ix2 p k := funext fun a => Fin.ext (by
    match a with
    | ⟨0, _⟩ => exact lhs_xW1_0 _ _
    | ⟨1, _⟩ => exact (lhs_xW1_1 _ _).trans hk)
  have er : dot_S8192x8192_S8192x64_S8192x64_1_0_0_1_n_n.rhsIdx (ix2 p q) ((ValueIdx.contrEquiv1 dot_S8192x8192_S8192x64_S8192x64_1_0_0_1_n_n 8192 rfl rfl).symm k) = ix2 k q := funext fun a => Fin.ext (by
    match a with
    | ⟨0, _⟩ => exact (rhs_xW1_0 _ _).trans hk
    | ⟨1, _⟩ => exact rhs_xW1_1 _ _)
  rw [el, er]

/-- The second product's operand indices, axis by axis. -/
theorem lhs_hW2_0 (i : S8192x64.Idx) (q : dot_S8192x64_S64x64_S8192x64_1_0_0_1_n_n.contr.Idx) :
    (dot_S8192x64_S64x64_S8192x64_1_0_0_1_n_n.lhsIdx i q 0).val = (i 0).val := by
  unfold DotDims.lhsIdx
  rw [dif_neg (show ¬(0 : Fin S8192x64.rank) ∈ dot_S8192x64_S64x64_S8192x64_1_0_0_1_n_n.lhsBatch by decide), dif_pos (show (0 : Fin S8192x64.rank) ∈ dot_S8192x64_S64x64_S8192x64_1_0_0_1_n_n.lhsNonContracting by decide)]
  rfl
theorem lhs_hW2_1 (i : S8192x64.Idx) (q : dot_S8192x64_S64x64_S8192x64_1_0_0_1_n_n.contr.Idx) :
    (dot_S8192x64_S64x64_S8192x64_1_0_0_1_n_n.lhsIdx i q 1).val = (q ⟨0, by decide⟩).val :=
  dot_S8192x64_S64x64_S8192x64_1_0_0_1_n_n.lhsIdx_val_of_single rfl i q
theorem rhs_hW2_0 (i : S8192x64.Idx) (q : dot_S8192x64_S64x64_S8192x64_1_0_0_1_n_n.contr.Idx) :
    (dot_S8192x64_S64x64_S8192x64_1_0_0_1_n_n.rhsIdx i q 0).val = (q ⟨0, by decide⟩).val :=
  dot_S8192x64_S64x64_S8192x64_1_0_0_1_n_n.rhsIdx_val_of_single rfl i q
theorem rhs_hW2_1 (i : S8192x64.Idx) (q : dot_S8192x64_S64x64_S8192x64_1_0_0_1_n_n.contr.Idx) :
    (dot_S8192x64_S64x64_S8192x64_1_0_0_1_n_n.rhsIdx i q 1).val = (i 1).val := by
  unfold DotDims.rhsIdx
  rw [dif_neg (show ¬(1 : Fin S64x64.rank) ∈ dot_S8192x64_S64x64_S8192x64_1_0_0_1_n_n.rhsBatch by decide), dif_pos (show (1 : Fin S64x64.rank) ∈ dot_S8192x64_S64x64_S8192x64_1_0_0_1_n_n.rhsNonContracting by decide)]
  rfl

theorem dot_h_W2 (L : FVec Ideal S8192x64 .f32) (R : FVec Ideal S64x64 .f32) :
    Host.dotGeneral (F := Ideal) dot_S8192x64_S64x64_S8192x64_1_0_0_1_n_n none L R = mm (r := 8192) (k := 64) (c := 64) L R := by
  funext i
  obtain ⟨p, q, rfl⟩ : ∃ (p : Fin 8192) (q : Fin 64), i = ix2 p q := ⟨i 0, i 1, eq_ix2 i⟩
  simp only [Host.dotGeneral]
  rw [Ideal.dotGeneral_apply, ← Equiv.sum_comp (ValueIdx.contrEquiv1 dot_S8192x64_S64x64_S8192x64_1_0_0_1_n_n 64 rfl rfl).symm]
  unfold mm
  refine Finset.sum_congr rfl fun k _ => ?_
  have hk := ValueIdx.contrEquiv1_symm_val dot_S8192x64_S64x64_S8192x64_1_0_0_1_n_n 64 rfl rfl k
  have el : dot_S8192x64_S64x64_S8192x64_1_0_0_1_n_n.lhsIdx (ix2 p q) ((ValueIdx.contrEquiv1 dot_S8192x64_S64x64_S8192x64_1_0_0_1_n_n 64 rfl rfl).symm k) = ix2 p k := funext fun a => Fin.ext (by
    match a with
    | ⟨0, _⟩ => exact lhs_hW2_0 _ _
    | ⟨1, _⟩ => exact (lhs_hW2_1 _ _).trans hk)
  have er : dot_S8192x64_S64x64_S8192x64_1_0_0_1_n_n.rhsIdx (ix2 p q) ((ValueIdx.contrEquiv1 dot_S8192x64_S64x64_S8192x64_1_0_0_1_n_n 64 rfl rfl).symm k) = ix2 k q := funext fun a => Fin.ext (by
    match a with
    | ⟨0, _⟩ => exact (rhs_hW2_0 _ _).trans hk
    | ⟨1, _⟩ => exact rhs_hW2_1 _ _)
  rw [el, er]

/-- The third product's operand indices, axis by axis. -/
theorem lhs_hW3_0 (i : S8192x8.Idx) (q : dot_S8192x64_S64x8_S8192x8_1_0_0_1_n_n.contr.Idx) :
    (dot_S8192x64_S64x8_S8192x8_1_0_0_1_n_n.lhsIdx i q 0).val = (i 0).val := by
  unfold DotDims.lhsIdx
  rw [dif_neg (show ¬(0 : Fin S8192x64.rank) ∈ dot_S8192x64_S64x8_S8192x8_1_0_0_1_n_n.lhsBatch by decide), dif_pos (show (0 : Fin S8192x64.rank) ∈ dot_S8192x64_S64x8_S8192x8_1_0_0_1_n_n.lhsNonContracting by decide)]
  rfl
theorem lhs_hW3_1 (i : S8192x8.Idx) (q : dot_S8192x64_S64x8_S8192x8_1_0_0_1_n_n.contr.Idx) :
    (dot_S8192x64_S64x8_S8192x8_1_0_0_1_n_n.lhsIdx i q 1).val = (q ⟨0, by decide⟩).val :=
  dot_S8192x64_S64x8_S8192x8_1_0_0_1_n_n.lhsIdx_val_of_single rfl i q
theorem rhs_hW3_0 (i : S8192x8.Idx) (q : dot_S8192x64_S64x8_S8192x8_1_0_0_1_n_n.contr.Idx) :
    (dot_S8192x64_S64x8_S8192x8_1_0_0_1_n_n.rhsIdx i q 0).val = (q ⟨0, by decide⟩).val :=
  dot_S8192x64_S64x8_S8192x8_1_0_0_1_n_n.rhsIdx_val_of_single rfl i q
theorem rhs_hW3_1 (i : S8192x8.Idx) (q : dot_S8192x64_S64x8_S8192x8_1_0_0_1_n_n.contr.Idx) :
    (dot_S8192x64_S64x8_S8192x8_1_0_0_1_n_n.rhsIdx i q 1).val = (i 1).val := by
  unfold DotDims.rhsIdx
  rw [dif_neg (show ¬(1 : Fin S64x8.rank) ∈ dot_S8192x64_S64x8_S8192x8_1_0_0_1_n_n.rhsBatch by decide), dif_pos (show (1 : Fin S64x8.rank) ∈ dot_S8192x64_S64x8_S8192x8_1_0_0_1_n_n.rhsNonContracting by decide)]
  rfl

theorem dot_h_W3 (L : FVec Ideal S8192x64 .f32) (R : FVec Ideal S64x8 .f32) :
    Host.dotGeneral (F := Ideal) dot_S8192x64_S64x8_S8192x8_1_0_0_1_n_n none L R = mm (r := 8192) (k := 64) (c := 8) L R := by
  funext i
  obtain ⟨p, q, rfl⟩ : ∃ (p : Fin 8192) (q : Fin 8), i = ix2 p q := ⟨i 0, i 1, eq_ix2 i⟩
  simp only [Host.dotGeneral]
  rw [Ideal.dotGeneral_apply, ← Equiv.sum_comp (ValueIdx.contrEquiv1 dot_S8192x64_S64x8_S8192x8_1_0_0_1_n_n 64 rfl rfl).symm]
  unfold mm
  refine Finset.sum_congr rfl fun k _ => ?_
  have hk := ValueIdx.contrEquiv1_symm_val dot_S8192x64_S64x8_S8192x8_1_0_0_1_n_n 64 rfl rfl k
  have el : dot_S8192x64_S64x8_S8192x8_1_0_0_1_n_n.lhsIdx (ix2 p q) ((ValueIdx.contrEquiv1 dot_S8192x64_S64x8_S8192x8_1_0_0_1_n_n 64 rfl rfl).symm k) = ix2 p k := funext fun a => Fin.ext (by
    match a with
    | ⟨0, _⟩ => exact lhs_hW3_0 _ _
    | ⟨1, _⟩ => exact (lhs_hW3_1 _ _).trans hk)
  have er : dot_S8192x64_S64x8_S8192x8_1_0_0_1_n_n.rhsIdx (ix2 p q) ((ValueIdx.contrEquiv1 dot_S8192x64_S64x8_S8192x8_1_0_0_1_n_n 64 rfl rfl).symm k) = ix2 k q := funext fun a => Fin.ext (by
    match a with
    | ⟨0, _⟩ => exact (rhs_hW3_0 _ _).trans hk
    | ⟨1, _⟩ => exact rhs_hW3_1 _ _)
  rw [el, er]

theorem addRow64 (X : FVec Ideal S8192x64 .f32) (b : FVec Ideal S64 .f32) :
    addf X (broadcastInDim S8192x64 ![0, 1] bcast_S1x64_S8192x64_0_1 (broadcastInDim S1x64 ![1] bcast_S64_S1x64_1 b))
      = addRow (r := 8192) (c := 64) X b := by
  funext i
  obtain ⟨p, q, rfl⟩ : ∃ (p : Fin 8192) (q : Fin 64), i = ix2 p q := ⟨i 0, i 1, eq_ix2 i⟩
  rw [addf_apply]
  -- the outer broadcast repeats the single row; the inner one lays the vector along that row
  have h1 : broadcastInDim S8192x64 ![0, 1] bcast_S1x64_S8192x64_0_1 (broadcastInDim S1x64 ![1] bcast_S64_S1x64_1 b) (ix2 p q)
      = broadcastInDim S1x64 ![1] bcast_S64_S1x64_1 b (ix2 (0 : Fin 1) q) := by
    generalize broadcastInDim S1x64 ![1] bcast_S64_S1x64_1 b = y
    exact broadcastInDim_apply _ bcast_S1x64_S8192x64_0_1 y (ix2 p q) (ix2 (0 : Fin 1) q) (fun a => match a with
      | ⟨0, _⟩ => by show 0 = if (1 : Nat) = 1 then 0 else p.val; rw [if_pos rfl]
      | ⟨1, _⟩ => by show q.val = if (64 : Nat) = 1 then 0 else q.val; rw [if_neg (by decide)])
  have h2 : broadcastInDim S1x64 ![1] bcast_S64_S1x64_1 b (ix2 (0 : Fin 1) q) = b (ix1 q) :=
    broadcastInDim_apply _ bcast_S64_S1x64_1 b (ix2 (0 : Fin 1) q) (ix1 q) (fun a => match a with
      | ⟨0, _⟩ => by show q.val = if (64 : Nat) = 1 then 0 else q.val; rw [if_neg (by decide)])
  rw [h1, h2]
  rfl

theorem addRow8 (X : FVec Ideal S8192x8 .f32) (b : FVec Ideal S8 .f32) :
    addf X (broadcastInDim S8192x8 ![0, 1] bcast_S1x8_S8192x8_0_1 (broadcastInDim S1x8 ![1] bcast_S8_S1x8_1 b))
      = addRow (r := 8192) (c := 8) X b := by
  funext i
  obtain ⟨p, q, rfl⟩ : ∃ (p : Fin 8192) (q : Fin 8), i = ix2 p q := ⟨i 0, i 1, eq_ix2 i⟩
  rw [addf_apply]
  have h1 : broadcastInDim S8192x8 ![0, 1] bcast_S1x8_S8192x8_0_1 (broadcastInDim S1x8 ![1] bcast_S8_S1x8_1 b) (ix2 p q)
      = broadcastInDim S1x8 ![1] bcast_S8_S1x8_1 b (ix2 (0 : Fin 1) q) := by
    generalize broadcastInDim S1x8 ![1] bcast_S8_S1x8_1 b = y
    exact broadcastInDim_apply _ bcast_S1x8_S8192x8_0_1 y (ix2 p q) (ix2 (0 : Fin 1) q) (fun a => match a with
      | ⟨0, _⟩ => by show 0 = if (1 : Nat) = 1 then 0 else p.val; rw [if_pos rfl]
      | ⟨1, _⟩ => by show q.val = if (8 : Nat) = 1 then 0 else q.val; rw [if_neg (by decide)])
  have h2 : broadcastInDim S1x8 ![1] bcast_S8_S1x8_1 b (ix2 (0 : Fin 1) q) = b (ix1 q) :=
    broadcastInDim_apply _ bcast_S8_S1x8_1 b (ix2 (0 : Fin 1) q) (ix1 q) (fun a => match a with
      | ⟨0, _⟩ => by show q.val = if (8 : Nat) = 1 then 0 else q.val; rw [if_neg (by decide)])
  rw [h1, h2]
  rfl

theorem relu64 (X : FVec Ideal S8192x64 .f32) :
    maximumf X (broadcastInDim S8192x64 ![] bcast_S_S8192x64 (constant (F := Ideal) S_ .f32 0x00000000#32)) = relu (r := 8192) (c := 64) X := by
  funext i
  rw [maximumf_apply]
  -- a scalar broadcast reads its one element everywhere; the zero word is the real number 0
  have h : broadcastInDim S8192x64 ![] bcast_S_S8192x64 (constant (F := Ideal) S_ .f32 0x00000000#32) i
      = constant (F := Ideal) S_ .f32 0x00000000#32 (fun a => a.elim0) := by
    generalize constant (F := Ideal) S_ .f32 0x00000000#32 = y
    exact broadcastInDim_apply _ bcast_S_S8192x64 y i (fun a => a.elim0) (fun a => a.elim0)
  rw [h, constant_apply, Ideal.ofBits_zero_f32]
  rfl

end Cert.ReferenceIdeal.RefOps

end
-- ==== Proof.RefOpsB.lean ====
/-
  The reference's log-softmax and readout. The log-softmax subtracts the row maximum M first:
  (x_k - M) - log (0 + Σ_j exp (x_j - M)), which for real entries is x_k - log Σ_j exp x_j (M, the maximum of eight
  reals, is real). The readout transposes the features and the weight row, multiplies them, adds blin and transposes
  back: class k gets Σ_n H n k · Wlin n + blin.
-/
import proofs.«403911_j69672959475883_2_alg».proof.Proof.Gen.ReferenceIdeal
import proofs.«403911_j69672959475883_2_alg».proof.Proof.MathFinal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefOps

open Cert.ReferenceIdeal Cert.ReferenceIdeal.Gen Cert.Gcn
open Idealize.ShloMosaic Idealize.ShloMosaic.ValueIdx

/-! ## The program's layout operations, reductions and pointwise functions read at an index -/

/-- The bit pattern of -∞. -/
private theorem ofBits_neg_inf : Ideal.ofBits .f32 0xFF800000#32 = ⊥ := by simp [Ideal.ofBits, Ideal.ieee]

/-- A column broadcast along the eight classes reads its row. -/
private theorem bcast_cols_apply (w : FVec Ideal S8192x1 .f32) (n : Fin 8192) (k : Fin 8) :
    broadcastInDim S8192x8 ![0, 1] bcast_S8192x1_S8192x8_0_1 w (ix2 n k) = w (ix2 n (0 : Fin 1)) :=
  broadcastInDim_apply _ bcast_S8192x1_S8192x8_0_1 w (ix2 n k) (ix2 n (0 : Fin 1)) (fun a => match a with
    | ⟨0, _⟩ => by show n.val = if (8192 : Nat) = 1 then 0 else n.val; rw [if_neg (by decide)]
    | ⟨1, _⟩ => by show 0 = if (1 : Nat) = 1 then 0 else k.val; rw [if_pos rfl])

/-- A vector written as a column reads its entry. -/
private theorem bcast_col_apply (v : FVec Ideal S8192 .f32) (n : Fin 8192) :
    broadcastInDim S8192x1 ![0] bcast_S8192_S8192x1_0 v (ix2 n (0 : Fin 1)) = v (ix1 n) :=
  broadcastInDim_apply _ bcast_S8192_S8192x1_0 v (ix2 n (0 : Fin 1)) (ix1 n) (fun a => match a with
    | ⟨0, _⟩ => by show n.val = if (8192 : Nat) = 1 then 0 else n.val; rw [if_neg (by decide)])

/-- The host's exponential, entry by entry. -/
private theorem hostExp_apply {s : Shape} (Y : FVec Ideal s .f32) (i : s.Idx) : Host.exp Y i = Ideal.exp (Y i) := rfl

/-- The host's logarithm, entry by entry. -/
private theorem hostLog_apply {s : Shape} (Y : FVec Ideal s .f32) (i : s.Idx) : Host.log Y i = Ideal.log (Y i) := rfl

/-- The row sum from zero: 0 + Σ_j Y n j. -/
private theorem reduceAdd_rows_apply (Y : FVec Ideal S8192x8 .f32) (n : Fin 8192) :
    Host.reduceAdd Y (constant S_ .f32 0x00000000#32) reducesTo_S8192x8_S8192_d1 h_S_ (ix1 n) = 0 + ∑ j : Fin 8, Y (ix2 n j) := by
  simp only [Host.reduceAdd, Ideal.hostReduceAdd_def]
  rw [Ideal.hostReduceAdd_single reducesTo_S8192x8_S8192_d1 (by decide), constant_apply, Ideal.ofBits_zero_f32]
  refine congrArg (0 + ·) (Finset.sum_congr rfl fun j _ => ?_)
  exact congrArg Y (funext fun a => Fin.ext (by match a with | ⟨0, _⟩ => rfl | ⟨1, _⟩ => rfl))

/-- The row maximum from -∞ (taken once more against -∞): the fold of max over the row. -/
private theorem rowMax_apply (X : FVec Ideal S8192x8 .f32) (n : Fin 8192) :
    maximumf (broadcastInDim S8192 ![] bcast_S_S8192 (constant S_ .f32 0xFF800000#32))
        (Host.reduce FloatOps.maximumf X (constant S_ .f32 0xFF800000#32) reducesTo_S8192x8_S8192_d1 h_S_) (ix1 n)
      = (Finset.univ : Finset (Fin 8)).fold max ⊥ (fun j => X (ix2 n j)) := by
  rw [maximumf_apply, broadcastInDim_apply _ bcast_S_S8192 _ (ix1 n) ix0 (fun a => a.elim0), constant_apply, ofBits_neg_inf,
    max_bot_left]
  rw [Host.reduce_eq_fold_single FloatOps.maximumf X _ reducesTo_S8192x8_S8192_d1 (by decide) h_S_ (ix1 n), constant_apply,
    ofBits_neg_inf]
  refine congrArg (fun f => (Finset.univ : Finset (Fin 8)).fold max ⊥ f) (funext fun j => ?_)
  exact congrArg X (funext fun a => Fin.ext (by match a with | ⟨0, _⟩ => rfl | ⟨1, _⟩ => rfl))

/-- The reference's chain of operations around a row-offset vector Mv, read at (n, k):
    (x_k - Mv n) - log (0 + Σ_j exp (x_j - Mv n)). -/
private theorem lsm_ops_apply (X : FVec Ideal S8192x8 .f32) (Mv : FVec Ideal S8192 .f32) (n : Fin 8192) (k : Fin 8) :
    (subf (subf X (broadcastInDim S8192x8 ![0, 1] bcast_S8192x1_S8192x8_0_1 (broadcastInDim S8192x1 ![0] bcast_S8192_S8192x1_0 Mv)))
        (broadcastInDim S8192x8 ![0, 1] bcast_S8192x1_S8192x8_0_1 (Host.log (broadcastInDim S8192x1 ![0] bcast_S8192_S8192x1_0
          (Host.reduceAdd (Host.exp (subf X (broadcastInDim S8192x8 ![0, 1] bcast_S8192x1_S8192x8_0_1
            (broadcastInDim S8192x1 ![0] bcast_S8192_S8192x1_0 Mv)))) (constant S_ .f32 0x00000000#32)
            reducesTo_S8192x8_S8192_d1 h_S_))))) (ix2 n k)
      = (X (ix2 n k) - Mv (ix1 n)) - Ideal.log (0 + ∑ j : Fin 8, Ideal.exp (X (ix2 n j) - Mv (ix1 n))) := by
  rw [subf_apply, subf_apply, bcast_cols_apply, bcast_col_apply, bcast_cols_apply, hostLog_apply, bcast_col_apply,
    reduceAdd_rows_apply]
  refine congrArg (fun s => (X (ix2 n k) - Mv (ix1 n)) - Ideal.log (0 + s)) (Finset.sum_congr rfl fun j _ => ?_)
  rw [hostExp_apply, subf_apply, bcast_cols_apply, bcast_col_apply]

theorem lsm_eq (X : FVec Ideal S8192x8 .f32) (hX : IsReal X) :
    (subf (subf X (broadcastInDim S8192x8 ![0, 1] bcast_S8192x1_S8192x8_0_1 (broadcastInDim S8192x1 ![0] bcast_S8192_S8192x1_0 (maximumf (broadcastInDim S8192 ![] bcast_S_S8192 (constant S_ .f32 0xFF800000#32)) (Host.reduce FloatOps.maximumf X (constant S_ .f32 0xFF800000#32) reducesTo_S8192x8_S8192_d1 h_S_))))) (broadcastInDim S8192x8 ![0, 1] bcast_S8192x1_S8192x8_0_1 (Host.log (broadcastInDim S8192x1 ![0] bcast_S8192_S8192x1_0 (Host.reduceAdd (Host.exp (subf X (broadcastInDim S8192x8 ![0, 1] bcast_S8192x1_S8192x8_0_1 (broadcastInDim S8192x1 ![0] bcast_S8192_S8192x1_0 (maximumf (broadcastInDim S8192 ![] bcast_S_S8192 (constant S_ .f32 0xFF800000#32)) (Host.reduce FloatOps.maximumf X (constant S_ .f32 0xFF800000#32) reducesTo_S8192x8_S8192_d1 h_S_)))))) (constant S_ .f32 0x00000000#32) reducesTo_S8192x8_S8192_d1 h_S_)))))
      = lsm X := by
  have hM : IsReal (fun n : Fin 8192 => (Finset.univ : Finset (Fin 8)).fold max ⊥ (fun j => X (ix2 (n0 := 8192) (n1 := 8) n j))) :=
    fun n => fold_max_isReal _ (fun j => hX _)
  rw [← lsm_shift_inner X hX _ hM]
  funext i
  obtain ⟨n, k, rfl⟩ : ∃ (n : Fin 8192) (k : Fin 8), i = ix2 n k := ⟨i 0, i 1, eq_ix2 i⟩
  refine (lsm_ops_apply X _ n k).trans ?_
  rw [rowMax_apply X n]

/-! ## The readout's product read at an index -/

private theorem dot_lhs_0 (i : S8x1.Idx) (q : dot_S8x8192_S8192x1_S8x1_1_0_0_1_n_n.contr.Idx) :
    (dot_S8x8192_S8192x1_S8x1_1_0_0_1_n_n.lhsIdx i q 0).val = (i 0).val := by
  unfold DotDims.lhsIdx
  rw [dif_neg (show ¬(0 : Fin S8x8192.rank) ∈ dot_S8x8192_S8192x1_S8x1_1_0_0_1_n_n.lhsBatch by decide),
    dif_pos (show (0 : Fin S8x8192.rank) ∈ dot_S8x8192_S8192x1_S8x1_1_0_0_1_n_n.lhsNonContracting by decide)]
  rfl

private theorem dot_lhs_1 (i : S8x1.Idx) (q : dot_S8x8192_S8192x1_S8x1_1_0_0_1_n_n.contr.Idx) :
    (dot_S8x8192_S8192x1_S8x1_1_0_0_1_n_n.lhsIdx i q 1).val = (q ⟨0, by decide⟩).val :=
  dot_S8x8192_S8192x1_S8x1_1_0_0_1_n_n.lhsIdx_val_of_single rfl i q

private theorem dot_rhs_0 (i : S8x1.Idx) (q : dot_S8x8192_S8192x1_S8x1_1_0_0_1_n_n.contr.Idx) :
    (dot_S8x8192_S8192x1_S8x1_1_0_0_1_n_n.rhsIdx i q 0).val = (q ⟨0, by decide⟩).val :=
  dot_S8x8192_S8192x1_S8x1_1_0_0_1_n_n.rhsIdx_val_of_single rfl i q

private theorem dot_rhs_1 (i : S8x1.Idx) (q : dot_S8x8192_S8192x1_S8x1_1_0_0_1_n_n.contr.Idx) :
    (dot_S8x8192_S8192x1_S8x1_1_0_0_1_n_n.rhsIdx i q 1).val = (i 1).val := by
  unfold DotDims.rhsIdx
  rw [dif_neg (show ¬(1 : Fin S8192x1.rank) ∈ dot_S8x8192_S8192x1_S8x1_1_0_0_1_n_n.rhsBatch by decide),
    dif_pos (show (1 : Fin S8192x1.rank) ∈ dot_S8x8192_S8192x1_S8x1_1_0_0_1_n_n.rhsNonContracting by decide)]
  rfl

/-- The product of an 8 × 8192 and an 8192 × 1 matrix at (k, z): Σ_m L k m · R m z. -/
private theorem dot_apply (L : FVec Ideal S8x8192 .f32) (R : FVec Ideal S8192x1 .f32) (k : Fin 8) (z : Fin 1) :
    Host.dotGeneral dot_S8x8192_S8192x1_S8x1_1_0_0_1_n_n none L R (ix2 k z)
      = ∑ m : Fin 8192, L (ix2 k m) * R (ix2 m z) := by
  simp only [Host.dotGeneral]
  rw [Ideal.dotGeneral_apply, ← Equiv.sum_comp (ValueIdx.contrEquiv1 dot_S8x8192_S8192x1_S8x1_1_0_0_1_n_n 8192 rfl rfl).symm]
  refine Finset.sum_congr rfl fun m _ => ?_
  have hk := ValueIdx.contrEquiv1_symm_val dot_S8x8192_S8192x1_S8x1_1_0_0_1_n_n 8192 rfl rfl m
  have el : dot_S8x8192_S8192x1_S8x1_1_0_0_1_n_n.lhsIdx (ix2 k z)
      ((ValueIdx.contrEquiv1 dot_S8x8192_S8192x1_S8x1_1_0_0_1_n_n 8192 rfl rfl).symm m) = ix2 k m := funext fun a => Fin.ext (by
    match a with
    | ⟨0, _⟩ => exact dot_lhs_0 _ _
    | ⟨1, _⟩ => exact (dot_lhs_1 _ _).trans hk)
  have er : dot_S8x8192_S8192x1_S8x1_1_0_0_1_n_n.rhsIdx (ix2 k z)
      ((ValueIdx.contrEquiv1 dot_S8x8192_S8192x1_S8x1_1_0_0_1_n_n 8192 rfl rfl).symm m) = ix2 m z := funext fun a => Fin.ext (by
    match a with
    | ⟨0, _⟩ => exact (dot_rhs_0 _ _).trans hk
    | ⟨1, _⟩ => exact dot_rhs_1 _ _)
  rw [el, er]

theorem readout_eq (H : FVec Ideal S8192x8 .f32) (Wlin : FVec Ideal S1x8192 .f32) (blin : FVec Ideal S1 .f32) :
    transpose S1x8 [1, 0] (addf (Host.dotGeneral dot_S8x8192_S8192x1_S8x1_1_0_0_1_n_n none (transpose S8x8192 [1, 0] H transposes_S8192x8_S8x8192_1_0) (transpose S8192x1 [1, 0] Wlin transposes_S1x8192_S8192x1_1_0)) (broadcastInDim S8x1 ![0, 1] bcast_S1x1_S8x1_0_1 (broadcastInDim S1x1 ![1] bcast_S1_S1x1_1 blin))) transposes_S8x1_S1x8_1_0
      = readoutHW H Wlin blin := by
  funext i
  obtain ⟨z, k, rfl⟩ : ∃ (z : Fin 1) (k : Fin 8), i = ix2 z k := ⟨i 0, i 1, eq_ix2 i⟩
  obtain rfl : z = 0 := Subsingleton.elim _ _
  rw [transpose_apply [1, 0] _ transposes_S8x1_S1x8_1_0 (ix2 (0 : Fin 1) k) (ix2 k (0 : Fin 1)) (fun b => match b with
    | ⟨0, _⟩ => rfl
    | ⟨1, _⟩ => rfl)]
  rw [addf_apply, dot_apply]
  rw [broadcastInDim_apply _ bcast_S1x1_S8x1_0_1 _ (ix2 k (0 : Fin 1)) (ix2 (0 : Fin 1) (0 : Fin 1)) (fun a => match a with
    | ⟨0, _⟩ => by show 0 = if (1 : Nat) = 1 then 0 else k.val; rw [if_pos rfl]
    | ⟨1, _⟩ => by show 0 = if (1 : Nat) = 1 then 0 else 0; rw [if_pos rfl])]
  rw [broadcastInDim_apply _ bcast_S1_S1x1_1 _ (ix2 (0 : Fin 1) (0 : Fin 1)) (ix1 (0 : Fin 1)) (fun a => match a with
    | ⟨0, _⟩ => by show 0 = if (1 : Nat) = 1 then 0 else 0; rw [if_pos rfl])]
  unfold readoutHW
  refine congrArg (· + blin (ix1 (n := 1) 0)) (Finset.sum_congr rfl fun m _ => ?_)
  rw [transpose_apply [1, 0] H transposes_S8192x8_S8x8192_1_0 (ix2 k m) (ix2 m k) (fun b => match b with
    | ⟨0, _⟩ => rfl
    | ⟨1, _⟩ => rfl)]
  rw [transpose_apply [1, 0] Wlin transposes_S1x8192_S8192x1_1_0 (ix2 m (0 : Fin 1)) (ix2 (0 : Fin 1) m) (fun b => match b with
    | ⟨0, _⟩ => rfl
    | ⟨1, _⟩ => rfl)]

end Cert.ReferenceIdeal.RefOps

end
-- ==== Proof.DecodeR.lean ====
/-
  One aggregation as the reference spells it, read as the sparse sum. The reference wraps a negative source number n to
  n + 8192, gathers row col e of the features (a start index outside [0, 8192) is clamped into it), scales it by the
  edge's weight, and scatter-adds the scaled rows by destination number into a zero array, dropping a row whose
  destination lies outside [0, 8192). With every source number in [0, 8192) nothing is wrapped or clamped, and row r of
  the result is Σ_{e : row e = r} val e · S (col e).
-/
import proofs.«403911_j69672959475883_2_alg».proof.Proof.Gen.ReferenceIdeal
import proofs.«403911_j69672959475883_2_alg».proof.Proof.Spec
import Idealize.ShloMosaic.Lib.StableHlo.Predicate
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.Decode

open Cert.ReferenceIdeal Cert.ReferenceIdeal.Gen Cert.Gcn
open Idealize.ShloMosaic Idealize.ShloMosaic.ValueIdx

/-- The source numbers after the reference's wrap of negatives. -/
def wrapped (col : Words 262144) : Words 262144 :=
  select (cmpi .slt col (broadcastInDim S262144 ![] bcast_S_S262144 (constantI S_ 32 0#32)))
    (addi col (broadcastInDim S262144 ![] bcast_S_S262144 (constantI S_ 32 8192#32))) col

/-- The operand, index and update shapes of one aggregation over c feature columns. -/
private abbrev Sop (c : Nat) : Shape := ⟨2, ![8192, c]⟩
private abbrev Sidx : Shape := ⟨2, ![262144, 1]⟩
private abbrev Supd (c : Nat) : Shape := ⟨2, ![262144, c]⟩

/-- The row gather's dimension numbers at width c. -/
private abbrev gDims (c : Nat) (wf : GatherDims.WF (Sop c) Sidx (Supd c) [1] [0] [] [0] [] 1 ![1, c]) :
    GatherDims (Sop c) Sidx (Supd c) where
  offsetDims := [1]
  collapsedSliceDims := [0]
  operandBatchingDims := []
  startIndicesBatchingDims := []
  startIndexMap := [0]
  indexVectorDim := 1
  sliceSizes := ![1, c]
  wf := wf

/-- The gather read at (e, f): row (start index of e, read signed and clamped into [0, 8191]), column f. -/
private theorem gather_row_apply {α : Type} {w : Nat} (c : Nat)
    (wf : GatherDims.WF (Sop c) Sidx (Supd c) [1] [0] [] [0] [] 1 ![1, c])
    (x : (Sop c).Idx → α) (idx : IVec Sidx w) (e : Fin 262144) (f : Fin c) :
    Host.gather (gDims c wf) x idx (ix2 e f)
      = x (ix2 (n0 := 8192) (n1 := c) ⟨min (idx (ix2 (n0 := 262144) (n1 := 1) e 0)).toInt.toNat (8192 - 1), by omega⟩ f) := by
  unfold Host.gather
  congr 1
  funext a
  refine Fin.ext ?_
  match a with
  | ⟨0, _⟩ =>
    show (gDims c wf).start (ix2 e f) idx 0 + (gDims c wf).batchCoord (ix2 e f) 0 + (gDims c wf).offCoord (ix2 e f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gDims c wf).startIndexMap from List.mem_singleton.mpr rfl)]
    have hsi : (gDims c wf).siIdx (ix2 e f) ⟨List.idxOf (0 : Fin 2) (gDims c wf).startIndexMap,
        List.idxOf_lt_length_iff.2 (List.mem_singleton.mpr rfl)⟩ = ix2 (n0 := 262144) (n1 := 1) e 0 := by
      funext b; refine Fin.ext ?_
      match b with
      | ⟨0, _⟩ => rfl
      | ⟨1, _⟩ => rfl
    rw [hsi]
    rfl
  | ⟨1, _⟩ =>
    show (gDims c wf).start (ix2 e f) idx 1 + (gDims c wf).batchCoord (ix2 e f) 1 + (gDims c wf).offCoord (ix2 e f) 1 = f.val
    rw [GatherDims.batchCoord_eq_zero _ _ _ List.not_mem_nil]
    unfold GatherDims.start
    rw [dif_neg (show ¬ (1 : Fin 2) ∈ ([0] : List (Fin 2)) by decide)]
    unfold GatherDims.offCoord
    rw [dif_pos ((GatherDims.mem_sKept (gDims c wf) 1).2 ⟨show ¬ (1 : Fin 2) ∈ ([0] : List (Fin 2)) by decide, List.not_mem_nil⟩)]
    simp only [Nat.add_zero, Nat.zero_add]
    rfl

/-- The scatter-add's dimension numbers at width c. -/
private abbrev sDims (c : Nat) (wf : ScatterDims.WF (Sop c) Sidx (Supd c) [1] [0] [0] 1) :
    ScatterDims (Sop c) Sidx (Supd c) where
  updateWindowDims := [1]
  insertedWindowDims := [0]
  scatterDimsToOperandDims := [0]
  indexVectorDim := 1
  wf := wf

section Scatter
variable {w : Nat} (c : Nat) (wf : ScatterDims.WF (Sop c) Sidx (Supd c) [1] [0] [0] 1)
  (idx : IVec Sidx w) (e : Fin 262144) (f : Fin c)

/-- On the row axis the window starts at the scatter index of e, read signed. -/
private theorem scatter_start0 :
    (sDims c wf).start (ix2 e f) idx 0 = (idx (ix2 (n0 := 262144) (n1 := 1) e 0)).toInt := by
  unfold ScatterDims.start
  rw [dif_pos (show (0 : Fin 2) ∈ (sDims c wf).scatterDimsToOperandDims from List.mem_singleton.mpr rfl)]
  have hsi : (sDims c wf).siIdx (ix2 e f) ⟨List.idxOf (0 : Fin 2) (sDims c wf).scatterDimsToOperandDims,
      List.idxOf_lt_length_iff.2 (List.mem_singleton.mpr rfl)⟩ = ix2 (n0 := 262144) (n1 := 1) e 0 := by
    funext b; refine Fin.ext ?_
    match b with
    | ⟨0, _⟩ => rfl
    | ⟨1, _⟩ => rfl
  rw [hsi]

/-- On the column axis the window starts at 0. -/
private theorem scatter_start1 : (sDims c wf).start (ix2 e f) idx 1 = 0 := by
  unfold ScatterDims.start
  rw [dif_neg (show ¬ (1 : Fin 2) ∈ ([0] : List (Fin 2)) by decide)]

/-- The row axis is inserted: no window coordinate. -/
private theorem scatter_window0 : (sDims c wf).window (ix2 e f) 0 = 0 := by
  unfold ScatterDims.window
  rw [dif_neg (show ¬ (0 : Fin 2) ∈ (sDims c wf).sKept from (show ¬ (0 : Fin 2) ∈ ([1] : List (Fin 2)) by decide))]

/-- The column axis carries the update's column. -/
private theorem scatter_window1 : (sDims c wf).window (ix2 e f) 1 = f.val := by
  unfold ScatterDims.window
  rw [dif_pos (show (1 : Fin 2) ∈ (sDims c wf).sKept from (show (1 : Fin 2) ∈ ([1] : List (Fin 2)) from List.mem_singleton.mpr rfl))]
  rfl

end Scatter

section Lands
variable {w : Nat} (c : Nat) (wf : ScatterDims.WF (Sop c) Sidx (Supd c) [1] [0] [0] 1)
  (idx : IVec Sidx w) (e : Fin 262144) (f : Fin c)

/-- Update (e, f) lands at i exactly when the scatter index of e, read signed, is i's row and f is i's column. -/
private theorem scatter_lands_iff (i : (Sop c).Idx) :
    (sDims c wf).resultIdx? (ix2 e f) idx = some i ↔
      (idx (ix2 (n0 := 262144) (n1 := 1) e 0)).toInt = ((i 0).val : Int) ∧ f.val = (i 1).val := by
  have h0 : (sDims c wf).start (ix2 e f) idx 0 + ((sDims c wf).window (ix2 e f) 0 : Int)
      = (idx (ix2 (n0 := 262144) (n1 := 1) e 0)).toInt := by
    rw [scatter_start0, scatter_window0]; simp
  have h1 : (sDims c wf).start (ix2 e f) idx 1 + ((sDims c wf).window (ix2 e f) 1 : Int) = (f.val : Int) := by
    rw [scatter_start1, scatter_window1]; simp
  have hi0 : (i 0).val < 8192 := idx2_lt0 i
  have hi1 : (i 1).val < c := idx2_lt1 i
  have hf : f.val < c := f.isLt
  unfold ScatterDims.resultIdx?
  split
  · rename_i h
    rw [Option.some.injEq]
    constructor
    · intro hi
      have e0 : ((sDims c wf).start (ix2 e f) idx 0 + ((sDims c wf).window (ix2 e f) 0 : Int)).toNat = (i 0).val :=
        congrArg (fun g : (Sop c).Idx => (g 0).val) hi
      have e1 : ((sDims c wf).start (ix2 e f) idx 1 + ((sDims c wf).window (ix2 e f) 1 : Int)).toNat = (i 1).val :=
        congrArg (fun g : (Sop c).Idx => (g 1).val) hi
      have p0 := (h 0).1
      rw [h0] at e0 p0
      rw [h1] at e1
      constructor <;> omega
    · rintro ⟨ha, hb⟩
      funext a
      refine Fin.ext ?_
      match a with
      | ⟨0, _⟩ =>
        show ((sDims c wf).start (ix2 e f) idx 0 + ((sDims c wf).window (ix2 e f) 0 : Int)).toNat = (i 0).val
        rw [h0]; omega
      | ⟨1, _⟩ =>
        show ((sDims c wf).start (ix2 e f) idx 1 + ((sDims c wf).window (ix2 e f) 1 : Int)).toNat = (i 1).val
        rw [h1]; omega
  · rename_i h
    constructor
    · intro h'; cases h'
    · rintro ⟨ha, hb⟩
      exfalso; apply h
      intro a
      match a with
      | ⟨0, _⟩ =>
        show 0 ≤ (sDims c wf).start (ix2 e f) idx 0 + ((sDims c wf).window (ix2 e f) 0 : Int) ∧
          (sDims c wf).start (ix2 e f) idx 0 + ((sDims c wf).window (ix2 e f) 0 : Int) < ((8192 : Nat) : Int)
        rw [h0]; omega
      | ⟨1, _⟩ =>
        show 0 ≤ (sDims c wf).start (ix2 e f) idx 1 + ((sDims c wf).window (ix2 e f) 1 : Int) ∧
          (sDims c wf).start (ix2 e f) idx 1 + ((sDims c wf).window (ix2 e f) 1 : Int) < ((c : Nat) : Int)
        rw [h1]; omega

end Lands

/-- A vector as a column reads, at (e, 0), the vector at e. -/
private theorem col_apply {α : Type} (h : S262144.BroadcastsInDim S262144x1 ![0]) (v : S262144.Idx → α)
    (e : Fin 262144) (z : Fin 1) :
    broadcastInDim S262144x1 ![0] h v (ix2 (n0 := 262144) (n1 := 1) e z) = v (ix1 e) :=
  broadcastInDim_apply _ h v (ix2 e z) (ix1 e) (fun a => match a with
    | ⟨0, _⟩ => by show e.val = if (262144 : Nat) = 1 then 0 else e.val; rw [if_neg (by decide)])

/-- A column laid along the rows of a 262144 × c rectangle reads, at (e, f), the column at (e, 0). -/
private theorem rect_apply {α : Type} (c : Nat) (h : Sidx.BroadcastsInDim (Supd c) ![0, 1]) (v : Sidx.Idx → α)
    (e : Fin 262144) (f : Fin c) :
    broadcastInDim (Supd c) ![0, 1] h v (ix2 e f) = v (ix2 (n0 := 262144) (n1 := 1) e 0) :=
  broadcastInDim_apply _ h v (ix2 e f) (ix2 e 0) (fun a => match a with
    | ⟨0, _⟩ => by show e.val = if (262144 : Nat) = 1 then 0 else e.val; rw [if_neg (by decide)]
    | ⟨1, _⟩ => by show 0 = if (1 : Nat) = 1 then 0 else f.val; rw [if_pos rfl])

/-- A word that reads signed in [0, 8192) reads the same unsigned. -/
private theorem toNat_of_toInt {x : BitVec 32} (h0 : 0 ≤ x.toInt) (h1 : x.toInt < 8192) :
    x.toNat < 8192 ∧ x.toInt = (x.toNat : Int) := by
  have hlt := x.isLt
  have hc := BitVec.toInt_eq_toNat_cond x
  split at hc <;> omega

/-- The wrap of negatives leaves a source number in [0, 8192) alone. -/
private theorem wrapped_apply (col : Words 262144) (hcol : ∀ e, 0 ≤ (col e).toInt ∧ (col e).toInt < 8192)
    (k : S262144.Idx) : wrapped col k = col k := by
  unfold wrapped
  rw [select_apply]
  have h : cmpi .slt col (broadcastInDim S262144 ![] bcast_S_S262144 (constantI S_ 32 0#32)) k = 0#1 := by
    show IntOp.cmpi .slt (col k) (broadcastInDim S262144 ![] bcast_S_S262144 (constantI S_ 32 0#32) k) = 0#1
    rw [broadcastInDim_apply _ bcast_S_S262144 (constantI S_ 32 0#32) k (fun a => a.elim0) (fun a => a.elim0)]
    show BitVec.ofBool ((col k).slt 0#32) = 0#1
    have hk := (hcol k).1
    have : (col k).slt 0#32 = false := by
      rw [BitVec.slt, decide_eq_false_iff_not]
      show ¬ (col k).toInt < (0#32 : BitVec 32).toInt
      rw [show (0#32 : BitVec 32).toInt = 0 from rfl]
      omega
    rw [this]; rfl
  rw [h, select_zero]

/-- The gather read at (e, f) when the start index of e reads signed in [0, 8192): nothing is clamped,
    the row is the node the start index names. -/
private theorem gather_row_node {α : Type} (c : Nat)
    (wf : GatherDims.WF (Sop c) Sidx (Supd c) [1] [0] [] [0] [] 1 ![1, c])
    (x : (Sop c).Idx → α) (idx : IVec Sidx 32) (e : Fin 262144) (f : Fin c)
    (h : 0 ≤ (idx (ix2 (n0 := 262144) (n1 := 1) e 0)).toInt ∧ (idx (ix2 (n0 := 262144) (n1 := 1) e 0)).toInt < 8192) :
    Host.gather (gDims c wf) x idx (ix2 e f)
      = x (ix2 (n0 := 8192) (n1 := c) (nodeOf (idx (ix2 (n0 := 262144) (n1 := 1) e 0))) f) := by
  rw [gather_row_apply]
  obtain ⟨hlt, heq⟩ := toNat_of_toInt h.1 h.2
  have hn : (⟨min (idx (ix2 (n0 := 262144) (n1 := 1) e 0)).toInt.toNat (8192 - 1), by omega⟩ : Fin 8192)
      = nodeOf (idx (ix2 (n0 := 262144) (n1 := 1) e 0)) := by
    unfold nodeOf
    refine Fin.ext ?_
    show min (idx (ix2 (n0 := 262144) (n1 := 1) e 0)).toInt.toNat (8192 - 1)
      = (idx (ix2 (n0 := 262144) (n1 := 1) e 0)).toNat % 8192
    omega
  rw [hn]

section Parts
variable (c : Nat)
  (gwf : GatherDims.WF (Sop c) Sidx (Supd c) [1] [0] [] [0] [] 1 ![1, c])
  (swf : ScatterDims.WF (Sop c) Sidx (Supd c) [1] [0] [0] 1)
  (hz : S_.BroadcastsInDim (Sop c) ![]) (hc : S262144.BroadcastsInDim S262144x1 ![0])
  (hr : Sidx.BroadcastsInDim (Supd c) ![0, 1])
  (S : Mat 8192 c) (row col : Words 262144) (val : Row 262144)

/-- Update (e, f) lands at i exactly when edge e's destination, read signed, is i's row and f is i's column. -/
private theorem lands_iff (i : (Sop c).Idx) (e : Fin 262144) (f : Fin c) :
    (sDims c swf).resultIdx? (ix2 e f) (broadcastInDim S262144x1 ![0] hc row) = some i ↔
      (row (ix1 e)).toInt = ((i 0).val : Int) ∧ f.val = (i 1).val := by
  rw [scatter_lands_iff, col_apply]

/-- Update (e, f) is edge e's weight times entry f of the source node's row. -/
private theorem upd_apply (hcol : ∀ e, 0 ≤ (col e).toInt ∧ (col e).toInt < 8192) (e : Fin 262144) (f : Fin c) :
    mulf (F := Ideal) (φ := .f32) (broadcastInDim (Supd c) ![0, 1] hr (broadcastInDim S262144x1 ![0] hc val))
        (Host.gather (gDims c gwf) S (broadcastInDim S262144x1 ![0] hc (wrapped col))) (ix2 e f)
      = val (ix1 e) * S (ix2 (n0 := 8192) (n1 := c) (nodeOf (col (ix1 e))) f) := by
  have hw : broadcastInDim S262144x1 ![0] hc (wrapped col) (ix2 (n0 := 262144) (n1 := 1) e 0) = col (ix1 e) := by
    rw [col_apply, wrapped_apply col hcol]
  rw [mulf_apply, rect_apply, col_apply, gather_row_node c gwf S _ e f (by rw [hw]; exact hcol _), hw]

/-- The zero array reads 0 everywhere. -/
private theorem zero_apply (i : (Sop c).Idx) :
    broadcastInDim (Sop c) ![] hz (constant (F := Ideal) S_ .f32 0x00000000#32) i = (0 : EReal) := by
  rw [broadcastInDim_apply _ hz _ i (fun a => a.elim0) (fun a => a.elim0), constant_apply, Ideal.ofBits_zero_f32]

/-- Entry i of a scatter-add: the operand's entry plus the sum of the updates that land at i. -/
private theorem scatterAdd_apply {w : Nat} (x : (Sop c).Idx → EReal) (idx : IVec Sidx w) (upd : (Supd c).Idx → EReal)
    (i : (Sop c).Idx) :
    Host.scatterAdd (F := Ideal) (φ := .f32) (sDims c swf) x idx upd i
      = x i + ∑ j ∈ Finset.univ.filter (fun j => (sDims c swf).resultIdx? j idx = some i), upd j := rfl

end Parts

/-- One aggregation at width c: the scatter-add of the weighted gathered rows into a zero array is the sparse sum. -/
private theorem agg_gen (c : Nat)
    (gwf : GatherDims.WF (Sop c) Sidx (Supd c) [1] [0] [] [0] [] 1 ![1, c])
    (swf : ScatterDims.WF (Sop c) Sidx (Supd c) [1] [0] [0] 1)
    (hz : S_.BroadcastsInDim (Sop c) ![]) (hc : S262144.BroadcastsInDim S262144x1 ![0])
    (hr : Sidx.BroadcastsInDim (Supd c) ![0, 1])
    (S : Mat 8192 c) (row col : Words 262144) (val : Row 262144)
    (hcol : ∀ e, 0 ≤ (col e).toInt ∧ (col e).toInt < 8192) :
    Host.scatterAdd (F := Ideal) (φ := .f32) (sDims c swf)
        (broadcastInDim (Sop c) ![] hz (constant (F := Ideal) S_ .f32 0x00000000#32))
        (broadcastInDim S262144x1 ![0] hc row)
        (mulf (broadcastInDim (Supd c) ![0, 1] hr (broadcastInDim S262144x1 ![0] hc val))
          (Host.gather (gDims c gwf) S (broadcastInDim S262144x1 ![0] hc (wrapped col))))
      = agg row col val S := by
  funext i
  rw [scatterAdd_apply, zero_apply, zero_add]
  unfold agg
  refine Finset.sum_nbij' (fun j : (Supd c).Idx => (j 0 : Fin 262144)) (fun e => ix2 (n0 := 262144) (n1 := c) e (i 1)) ?_ ?_ ?_ ?_ ?_
  · intro j hj
    obtain ⟨e, f, rfl⟩ : ∃ (e : Fin 262144) (f : Fin c), j = ix2 e f := ⟨j 0, j 1, eq_ix2 j⟩
    exact Finset.mem_filter.2 ⟨Finset.mem_univ _, ((lands_iff c swf hc row i e f).1 (Finset.mem_filter.1 hj).2).1⟩
  · intro e he
    exact Finset.mem_filter.2 ⟨Finset.mem_univ _, (lands_iff c swf hc row i e (i 1)).2 ⟨(Finset.mem_filter.1 he).2, rfl⟩⟩
  · intro j hj
    obtain ⟨e, f, rfl⟩ : ∃ (e : Fin 262144) (f : Fin c), j = ix2 e f := ⟨j 0, j 1, eq_ix2 j⟩
    have hf : f = i 1 := Fin.ext ((lands_iff c swf hc row i e f).1 (Finset.mem_filter.1 hj).2).2
    show ix2 (n0 := 262144) (n1 := c) e (i 1) = ix2 e f
    rw [hf]
  · intro e he
    rfl
  · intro j hj
    obtain ⟨e, f, rfl⟩ : ∃ (e : Fin 262144) (f : Fin c), j = ix2 e f := ⟨j 0, j 1, eq_ix2 j⟩
    have hf : f = i 1 := Fin.ext ((lands_iff c swf hc row i e f).1 (Finset.mem_filter.1 hj).2).2
    rw [upd_apply c gwf hc hr S col val hcol e f, hf]
    rfl

/-- The aggregation over 64 feature columns. -/
theorem agg64 (S : Mat 8192 64) (row col : Words 262144) (val : Row 262144)
    (hcol : ∀ e, 0 ≤ (col e).toInt ∧ (col e).toInt < 8192) :
    Host.scatterAdd (F := Ideal) scatter_S8192x64_S262144x1_S262144x64_1_0_0_1
        (broadcastInDim S8192x64 ![] bcast_S_S8192x64 (constant (F := Ideal) S_ .f32 0x00000000#32))
        (broadcastInDim S262144x1 ![0] bcast_S262144_S262144x1_0 row)
        (mulf (broadcastInDim S262144x64 ![0, 1] bcast_S262144x1_S262144x64_0_1 (broadcastInDim S262144x1 ![0] bcast_S262144_S262144x1_0 val))
          (Host.gather gather_S8192x64_S262144x1_S262144x64_1_0_n_n_0_1_164 S
            (broadcastInDim S262144x1 ![0] bcast_S262144_S262144x1_0 (wrapped col))))
      = agg row col val S :=
  agg_gen 64 gather_S8192x64_S262144x1_S262144x64_1_0_n_n_0_1_164_wf scatter_S8192x64_S262144x1_S262144x64_1_0_0_1_wf
    bcast_S_S8192x64 bcast_S262144_S262144x1_0 bcast_S262144x1_S262144x64_0_1 S row col val hcol

/-- The aggregation over 8 feature columns. -/
theorem agg8 (S : Mat 8192 8) (row col : Words 262144) (val : Row 262144)
    (hcol : ∀ e, 0 ≤ (col e).toInt ∧ (col e).toInt < 8192) :
    Host.scatterAdd (F := Ideal) scatter_S8192x8_S262144x1_S262144x8_1_0_0_1
        (broadcastInDim S8192x8 ![] bcast_S_S8192x8 (constant (F := Ideal) S_ .f32 0x00000000#32))
        (broadcastInDim S262144x1 ![0] bcast_S262144_S262144x1_0 row)
        (mulf (broadcastInDim S262144x8 ![0, 1] bcast_S262144x1_S262144x8_0_1 (broadcastInDim S262144x1 ![0] bcast_S262144_S262144x1_0 val))
          (Host.gather gather_S8192x8_S262144x1_S262144x8_1_0_n_n_0_1_18 S
            (broadcastInDim S262144x1 ![0] bcast_S262144_S262144x1_0 (wrapped col))))
      = agg row col val S :=
  agg_gen 8 gather_S8192x8_S262144x1_S262144x8_1_0_n_n_0_1_18_wf scatter_S8192x8_S262144x1_S262144x8_1_0_0_1_wf
    bcast_S_S8192x8 bcast_S262144_S262144x1_0 bcast_S262144x1_S262144x8_0_1 S row col val hcol

end Cert.ReferenceIdeal.Decode

end
-- ==== Proof.RefSparse.lean ====
/-
  What the reference program's result buffer ends holding: its run's composed term, read operation by operation, is the
  readout of the network in its sparse form. Each matrix product is the sum over the contracted index, each
  gather-scale-scatter is one sparse aggregation (every source number being a node's), each bias is added row-wise, each
  maximum with zero is relu, and the shifted log-softmax is the shift-free one because every entry it meets is real.
-/
import proofs.«403911_j69672959475883_2_alg».proof.Proof.RefRun
import proofs.«403911_j69672959475883_2_alg».proof.Proof.RefOpsA
import proofs.«403911_j69672959475883_2_alg».proof.Proof.RefOpsB
import proofs.«403911_j69672959475883_2_alg».proof.Proof.DecodeR
import proofs.«403911_j69672959475883_2_alg».proof.Proof.MathFinal

set_option maxRecDepth 16384

noncomputable section

namespace Cert.ReferenceIdeal.RefValue

open Cert.ReferenceIdeal Cert.ReferenceIdeal.Gen Cert.Gcn
open Idealize.ShloMosaic Idealize.ShloMosaic.TcCoe Idealize.ShloMosaic.ValueIdx
open Idealize.SL Idealize.SL.Sem

variable (m : (ℓ : Loc nD τ sig) → Buf (Elt Ideal) ℓ)

/-- The reference's result is the readout of the sparse network over the arguments. -/
theorem result_eq (c : Dev nD) (x : Mat 8192 8192) (row col : Words 262144) (val : Row 262144) (W1' : Mat 8192 64) (b1 : Row 64)
    (W2' : Mat 64 64) (b2 : Row 64) (W3' : Mat 64 8) (b3 : Row 8) (Wlin : Mat 1 8192) (blin : Row 1)
    (h0 : m ((c.tc : Thread nD τ).loc main_arg0) = x) (h1 : m ((c.tc : Thread nD τ).loc main_arg1) = row)
    (h2 : m ((c.tc : Thread nD τ).loc main_arg2) = col) (h3 : m ((c.tc : Thread nD τ).loc main_arg3) = val)
    (h4 : m ((c.tc : Thread nD τ).loc main_arg4) = W1') (h5 : m ((c.tc : Thread nD τ).loc main_arg5) = b1)
    (h6 : m ((c.tc : Thread nD τ).loc main_arg6) = W2') (h7 : m ((c.tc : Thread nD τ).loc main_arg7) = b2)
    (h8 : m ((c.tc : Thread nD τ).loc main_arg8) = W3') (h9 : m ((c.tc : Thread nD τ).loc main_arg9) = b3)
    (h10 : m ((c.tc : Thread nD τ).loc main_arg10) = Wlin) (h11 : m ((c.tc : Thread nD τ).loc main_arg11) = blin)
    (rx : IsReal x) (rv : IsReal val) (rW1 : IsReal W1') (rb1 : IsReal b1) (rW2 : IsReal W2') (rb2 : IsReal b2)
    (rW3 : IsReal W3') (rb3 : IsReal b3)
    (hcol : ∀ e, 0 ≤ (col e).toInt ∧ (col e).toInt < 8192) :
    Cert.ReferenceIdeal.ValueP.res_main_v60 (F := Ideal) m c
      = readoutHW (logitsSparse x row col val W1' b1 W2' b2 W3' b3) Wlin blin := by
  subst h0 h1 h2 h3 h4 h5 h6 h7 h8 h9 h10 h11
  -- one aggregation, with the wrap of the source numbers spelt out as the program spells it
  have a64 := fun S => Decode.agg64 S (m ((c.tc : Thread nD τ).loc main_arg1)) (m ((c.tc : Thread nD τ).loc main_arg2))
    (m ((c.tc : Thread nD τ).loc main_arg3)) hcol
  have a8 := fun S => Decode.agg8 S (m ((c.tc : Thread nD τ).loc main_arg1)) (m ((c.tc : Thread nD τ).loc main_arg2))
    (m ((c.tc : Thread nD τ).loc main_arg3)) hcol
  simp only [Decode.wrapped] at a64 a8
  -- the entries the log-softmax meets are real
  have r1 := isReal_mm rx rW1
  have r2 := isReal_mm (isReal_relu (isReal_addRow (isReal_agg (m ((c.tc : Thread nD τ).loc main_arg1)) (m ((c.tc : Thread nD τ).loc main_arg2)) rv r1) rb1)) rW2
  have r3 := isReal_mm (isReal_relu (isReal_addRow (isReal_agg (m ((c.tc : Thread nD τ).loc main_arg1)) (m ((c.tc : Thread nD τ).loc main_arg2)) rv r2) rb2)) rW3
  have r4 := isReal_addRow (isReal_agg (m ((c.tc : Thread nD τ).loc main_arg1)) (m ((c.tc : Thread nD τ).loc main_arg2)) rv r3) rb3
  unfold Cert.ReferenceIdeal.ValueP.res_main_v60
  rw [RefOps.dot_x_W1, a64, RefOps.addRow64, RefOps.relu64, RefOps.dot_h_W2, a64, RefOps.addRow64, RefOps.relu64,
    RefOps.dot_h_W3, a8, RefOps.addRow8, RefOps.lsm_eq _ r4, RefOps.readout_eq]
  rfl

end Cert.ReferenceIdeal.RefValue

end
-- ==== Proof.PreFacts.lean ====
/-
  What the precondition says of the inputs: every float array holds ordinary reals (|x| < +∞ rules out both infinities),
  every destination node number is non-negative, and every source node number lies in [0, 8192).
-/
import proofs.«403911_j69672959475883_2_alg».proof.Proof.Gen.Pre_finite_inputs
import proofs.«403911_j69672959475883_2_alg».proof.Proof.Spec
import Idealize.ShloMosaic.Lib.ReduceAll
import Idealize.ShloMosaic.Lib.StableHlo.Predicate
import Idealize.ShloMosaic.Lib.ValueIdx
import Idealize.ShloMosaic.PureOps.Ideal.Laws

noncomputable section

namespace Cert.Pre_finite_inputs.Decode

open Cert.Pre_finite_inputs Cert.Pre_finite_inputs.Gen Idealize.ShloMosaic Idealize.ShloMosaic.ValueIdx Cert.Gcn

/-- The scalar shape has one index. -/
private instance subsingleton_scalar_idx : Subsingleton S_.Idx := ⟨fun a b => funext fun d => d.elim0⟩

/-- The f32 pattern 0x7F800000 is +∞. -/
private theorem ofBits_inf : Ideal.ofBits .f32 0x7F800000#32 = ⊤ := by simp [Ideal.ofBits, Ideal.ieee]

/-- An extended real whose absolute value max x (-x) is below ⊤ is an ordinary real: it is neither ⊤ nor ⊥. -/
private theorem real_of_abs_lt_top (x : EReal) (h : max x (-x) < ⊤) : ∃ r : ℝ, x = (r : EReal) := by
  rw [max_lt_iff] at h
  induction x using EReal.rec with
  | bot => exact absurd h.2 (by simp)
  | coe r => exact ⟨r, rfl⟩
  | top => exact absurd h.1 (by simp)

/-- `all(|a| < +∞)` read back: every entry of a is an ordinary real. -/
private theorem isReal_of_all_lt_inf {s : Shape} {axes : List (Fin s.rank)} (a : s.Idx → EReal)
    (hb : S_.BroadcastsInDim s (![] : Fin 0 → Fin s.rank)) (hr : s.ReducesTo axes S_) (hu : 0 < S_.numel) (j : S_.Idx)
    (e : Host.reduce IntOp.andi
        (cmpf .olt (Host.absf (F := Ideal) (φ := .f32) a) (broadcastInDim s ![] hb (constant (F := Ideal) S_ .f32 0x7F800000#32)))
        (constantI S_ 1 1#1) hr hu j = 1#1) : IsReal a := by
  intro i
  have h1 : Ideal.cmp .olt (max (a i) (-(a i))) (Ideal.ofBits .f32 0x7F800000#32) = 1#1 :=
    Host.reduce_andi_all _ _ hr hu j e i
  rw [ofBits_inf] at h1
  unfold Ideal.cmp at h1
  rw [StableHlo.Predicate.ofBool_eq_one_iff, decide_eq_true_eq] at h1
  exact real_of_abs_lt_top _ h1

/-- `all(w ≥ 0)` read back: every word is non-negative, read signed. -/
private theorem nonneg_of_all_sge {n : Nat} (w : Words n)
    (hb : S_.BroadcastsInDim (⟨1, ![n]⟩ : Shape) (![] : Fin 0 → Fin (⟨1, ![n]⟩ : Shape).rank))
    {axes : List (Fin (⟨1, ![n]⟩ : Shape).rank)} (hr : (⟨1, ![n]⟩ : Shape).ReducesTo axes S_) (hu : 0 < S_.numel) (j : S_.Idx)
    (e : Host.reduce IntOp.andi (cmpi .sge w (broadcastInDim (⟨1, ![n]⟩ : Shape) ![] hb (constantI S_ 32 0#32)))
        (constantI S_ 1 1#1) hr hu j = 1#1) : ∀ i, 0 ≤ (w i).toInt := by
  intro i
  have h1 : IntOp.cmpi .sge (w i) 0#32 = 1#1 := Host.reduce_andi_all _ _ hr hu j e i
  rw [IntOp.cmpi_sge] at h1
  exact h1

/-- `all((w ≥ 0) & (w < 8192))` read back: every word lies in [0, 8192), read signed. -/
private theorem range_of_all_sge_slt {n : Nat} (w : Words n)
    (hb : S_.BroadcastsInDim (⟨1, ![n]⟩ : Shape) (![] : Fin 0 → Fin (⟨1, ![n]⟩ : Shape).rank))
    {axes : List (Fin (⟨1, ![n]⟩ : Shape).rank)} (hr : (⟨1, ![n]⟩ : Shape).ReducesTo axes S_) (hu : 0 < S_.numel) (j : S_.Idx)
    (e : Host.reduce IntOp.andi
        (andi (cmpi .sge w (broadcastInDim (⟨1, ![n]⟩ : Shape) ![] hb (constantI S_ 32 0#32)))
          (cmpi .slt w (broadcastInDim (⟨1, ![n]⟩ : Shape) ![] hb (constantI S_ 32 8192#32))))
        (constantI S_ 1 1#1) hr hu j = 1#1) : ∀ i, 0 ≤ (w i).toInt ∧ (w i).toInt < 8192 := by
  intro i
  have h1 : IntOp.andi (IntOp.cmpi .sge (w i) 0#32) (IntOp.cmpi .slt (w i) 8192#32) = 1#1 :=
    Host.reduce_andi_all _ _ hr hu j e i
  rw [IntOp.andi_eq_one, IntOp.cmpi_sge, IntOp.cmpi_slt] at h1
  exact h1

/-- The precondition, read: the ten float inputs are real-valued, row ≥ 0, 0 ≤ col < 8192. -/
theorem facts_of_pre (x : Mat 8192 8192) (row col : Words 262144) (val : Row 262144) (W1 : Mat 8192 64) (b1 : Row 64)
    (W2 : Mat 64 64) (b2 : Row 64) (W3 : Mat 64 8) (b3 : Row 8) (Wlin : Mat 1 8192) (blin : Row 1)
    (h : Cert.Pre_finite_inputs.fn (F := Ideal) x row col val W1 b1 W2 b2 W3 b3 Wlin blin = fun _ => 1#1) :
    IsReal x ∧ IsReal val ∧ IsReal W1 ∧ IsReal b1 ∧ IsReal W2 ∧ IsReal b2 ∧ IsReal W3 ∧ IsReal b3 ∧ IsReal Wlin ∧ IsReal blin
      ∧ (∀ e, 0 ≤ (row e).toInt) ∧ (∀ e, 0 ≤ (col e).toInt ∧ (col e).toInt < 8192) := by
  have e := congrFun h ix0
  dsimp only [Cert.Pre_finite_inputs.fn, fn_part1, fn_part2, fn_part3] at e
  obtain ⟨e, hcol⟩ := IntOp.andi_eq_one.1 e
  obtain ⟨e, hrow⟩ := IntOp.andi_eq_one.1 e
  obtain ⟨e, hblin⟩ := IntOp.andi_eq_one.1 e
  obtain ⟨e, hWlin⟩ := IntOp.andi_eq_one.1 e
  obtain ⟨e, hb3⟩ := IntOp.andi_eq_one.1 e
  obtain ⟨e, hW3⟩ := IntOp.andi_eq_one.1 e
  obtain ⟨e, hb2⟩ := IntOp.andi_eq_one.1 e
  obtain ⟨e, hW2⟩ := IntOp.andi_eq_one.1 e
  obtain ⟨e, hb1⟩ := IntOp.andi_eq_one.1 e
  obtain ⟨e, hW1⟩ := IntOp.andi_eq_one.1 e
  obtain ⟨hx, hval⟩ := IntOp.andi_eq_one.1 e
  exact ⟨isReal_of_all_lt_inf x _ _ _ _ hx, isReal_of_all_lt_inf val _ _ _ _ hval, isReal_of_all_lt_inf W1 _ _ _ _ hW1,
    isReal_of_all_lt_inf b1 _ _ _ _ hb1, isReal_of_all_lt_inf W2 _ _ _ _ hW2, isReal_of_all_lt_inf b2 _ _ _ _ hb2,
    isReal_of_all_lt_inf W3 _ _ _ _ hW3, isReal_of_all_lt_inf b3 _ _ _ _ hb3, isReal_of_all_lt_inf Wlin _ _ _ _ hWlin,
    isReal_of_all_lt_inf blin _ _ _ _ hblin, nonneg_of_all_sge row _ _ _ _ hrow, range_of_all_sge_slt col _ _ _ _ hcol⟩

end Cert.Pre_finite_inputs.Decode

end
-- ==== Proof.lean ====
/-
  The certificate for a three-layer graph convolution with a log-softmax readout: the kernel program (a dense weighted
  adjacency A built on the host by a scatter-add, then four launches computing x·W1, relu(A·(x·W1)+b1)·W2,
  relu(A·(…)+b2)·W3 and the block-wise readout of the rows' log-softmax of A·(…)+b3, summed on the host) against the
  reference (each aggregation a gather by source node, a scaling by the edge weight and a scatter-add by destination
  node; jnp's log_softmax; a transposed product with the readout weights).

  The two programs treat an out-of-range node number differently (the reference's gather clamps a source number into
  range where the kernel's scatter drops the edge; the kernel wraps a negative destination number that the reference's
  scatter drops), so the precondition asks, beside finite float inputs, that destination numbers be ≥ 0 and source numbers
  lie in [0, 8192). Under it every array entry is a real number, and on reals the dense form Σ_c A r c · S c f equals the
  sparse form Σ_{e : row e = r} val e · S (col e) f, the shifted log-softmaxes equal the shift-free one, and the
  readout's sums agree after re-bracketing; both results are the same function of the arguments.

  The three frames are the generated frame certificates (the reference's: its generated run with the result dropped);
  the ideal pass rewrote nothing, so there is nothing to preserve.
-/
import proofs.«403911_j69672959475883_2_alg».proof.Defs
import proofs.«403911_j69672959475883_2_alg».proof.Proof.Gen.Kernel
import proofs.«403911_j69672959475883_2_alg».proof.Proof.Gen.Kernel.Skeleton
import proofs.«403911_j69672959475883_2_alg».proof.Proof.Gen.Kernel.Launch
import proofs.«403911_j69672959475883_2_alg».proof.Proof.Gen.Kernel.Points
import proofs.«403911_j69672959475883_2_alg».proof.Proof.Gen.Kernel.Frame
import proofs.«403911_j69672959475883_2_alg».proof.Proof.Gen.KernelIdeal
import proofs.«403911_j69672959475883_2_alg».proof.Proof.Gen.KernelIdeal.Skeleton
import proofs.«403911_j69672959475883_2_alg».proof.Proof.Gen.KernelIdeal.Launch
import proofs.«403911_j69672959475883_2_alg».proof.Proof.Gen.KernelIdeal.Points
import proofs.«403911_j69672959475883_2_alg».proof.Proof.Gen.KernelIdeal.Frame
import proofs.«403911_j69672959475883_2_alg».proof.Proof.Gen.ReferenceIdeal
import proofs.«403911_j69672959475883_2_alg».proof.Proof.Gen.Pre_finite_inputs
import proofs.«403911_j69672959475883_2_alg».proof.Proof.RunNamed
import proofs.«403911_j69672959475883_2_alg».proof.Proof.Thread
import proofs.«403911_j69672959475883_2_alg».proof.Proof.RefRun
import proofs.«403911_j69672959475883_2_alg».proof.Proof.RefSparse
import proofs.«403911_j69672959475883_2_alg».proof.Proof.PreFacts
import proofs.«403911_j69672959475883_2_alg».proof.Proof.MathFinal
import Idealize.ShloMosaic.Adequacy
import Idealize.ShloMosaic.Init

set_option maxRecDepth 16384

noncomputable section

namespace Cert.Proof

open Idealize.ShloMosaic Idealize.SL.Sem Cert.Gcn

/-- The network's result as a function of the kernel program's argument arrays on device `c`: the readout of the
    dense network over the dense adjacency. -/
def result (m : (ℓ : Loc Cert.KernelIdeal.nD Cert.KernelIdeal.τ Cert.KernelIdeal.sig) → Buf (Elt Ideal) ℓ) (c : Dev Cert.KernelIdeal.nD) : Mat 1 8 :=
  readoutWH (logitsDense (m ((c.tc : Thread Cert.KernelIdeal.nD Cert.KernelIdeal.τ).loc Cert.KernelIdeal.main_arg0)) (adj (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)))
    (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) (m ((c.tc : Thread Cert.KernelIdeal.nD Cert.KernelIdeal.τ).loc Cert.KernelIdeal.main_arg10)) (m ((c.tc : Thread Cert.KernelIdeal.nD Cert.KernelIdeal.τ).loc Cert.KernelIdeal.main_arg11))

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs end with `result` of the (agreeing) arguments. -/
theorem algebraic : Cert.algebraic_KernelIdeal_ReferenceIdeal := by
  intro m ρ m' ρ' hpre hagree
  refine ⟨result m, ?_, ?_⟩
  · refine (θ_run Cert.KernelIdeal.defs _ _).mono (fun r h c => ⟨(h c).1.trans ?_, (h c).2⟩) (Cert.KernelIdeal.GenP.run_named (F := Ideal) m ρ)
    obtain ⟨rx, rv, rW1, rb1, rW2, rb2, rW3, rb3, -, -, hrow, hcol⟩ :=
      Cert.Pre_finite_inputs.Decode.facts_of_pre _ _ _ _ _ _ _ _ _ _ _ _ (hpre c)
    exact Cert.KernelIdeal.Thread.result_eq m ρ c _ _ _ _ _ _ _ _ _ _ _ _ rfl rfl rfl rfl rfl rfl rfl rfl rfl rfl rfl rfl
      rx rv rW1 rb1 rW2 rb2 rW3 rb3 hrow hcol
  · refine (θ_run Cert.ReferenceIdeal.defs _ _).mono (fun r h c => ⟨(h c).1.trans ?_, (h c).2⟩) (Cert.ReferenceIdeal.ValueP.run (F := Ideal) m' ρ')
    obtain ⟨rx, rv, rW1, rb1, rW2, rb2, rW3, rb3, -, -, hrow, hcol⟩ :=
      Cert.Pre_finite_inputs.Decode.facts_of_pre _ _ _ _ _ _ _ _ _ _ _ _ (hpre c)
    obtain ⟨g0, g1, g2, g3, g4, g5, g6, g7, g8, g9, g10, g11⟩ := hagree c
    rw [Cert.ReferenceIdeal.RefValue.result_eq m' c _ _ _ _ _ _ _ _ _ _ _ _ g0 g1 g2 g3 g4 g5 g6 g7 g8 g9 g10 g11
      rx rv rW1 rb1 rW2 rb2 rW3 rb3 hcol]
    unfold result
    rw [readoutWH_eq_readoutHW, logitsDense_eq_logitsSparse _ _ _ _ _ _ _ _ _ _ rx rv rW1 rb1 rW2 rb2 rW3 hcol]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
